-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1600 : Shape := ⟨2, ![8192, 1600]⟩
abbrev S8192x6400 : Shape := ⟨2, ![8192, 6400]⟩
abbrev S4x256 : Shape := ⟨2, ![4, 256]⟩
abbrev S_ : Shape := ⟨0, ![]⟩
abbrev S4x256x256 : Shape := ⟨3, ![4, 256, 256]⟩

class Facts : Prop where
  bcast_S_S8192x1600 : S_.BroadcastsInDim S8192x1600 (![] : Fin 0 → Fin S8192x1600.rank)
  reducesTo_S8192x1600_S_d0_1 : S8192x1600.ReducesTo [0, 1] S_
  h_S_ : 0 < S_.numel
  bcast_S_S8192x6400 : S_.BroadcastsInDim S8192x6400 (![] : Fin 0 → Fin S8192x6400.rank)
  reducesTo_S8192x6400_S_d0_1 : S8192x6400.ReducesTo [0, 1] S_
  bcast_S_S4x256 : S_.BroadcastsInDim S4x256 (![] : Fin 0 → Fin S4x256.rank)
  reducesTo_S4x256_S_d0_1 : S4x256.ReducesTo [0, 1] S_
  bcast_S4x256_S4x256x256_0_1 : S4x256.BroadcastsInDim S4x256x256 (![0, 1] : Fin 2 → Fin S4x256x256.rank)
  bcast_S4x256_S4x256x256_0_2 : S4x256.BroadcastsInDim S4x256x256 (![0, 2] : Fin 2 → Fin S4x256x256.rank)
  reducesTo_S4x256x256_S_d0_1_2 : S4x256x256.ReducesTo [0, 1, 2] S_

variable [Facts]

def fn_part2 {F : FTy → Type} [FloatOps F] (main_v31 : IVec S_ 1) (main_v34 : IVec S4x256x256 32) (main_v35 : IVec S4x256x256 32) (main_v36 : IVec S4x256x256 1) : IVec S_ 1 :=
  let main_v37 : IVec S4x256x256 1 := cmpi .eq main_v34 main_v35
  let main_v38 : IVec S4x256x256 1 := ori main_v36 main_v37
  let main_c_9 : IVec S_ 1 := constantI S_ 1 1#1
  let main_v39 : IVec S_ 1 := (fun x v => Host.reduce IntOp.andi x v reducesTo_S4x256x256_S_d0_1_2 h_S_) main_v38 main_c_9
  let main_v40 : IVec S_ 1 := andi main_v31 main_v39
  main_v40

def fn_part1 {F : FTy → Type} [FloatOps F] (main_arg2 : IVec S4x256 32) (main_arg3 : IVec S4x256 32) (main_v15 : IVec S_ 1) (main_c_5 : IVec S_ 32) : IVec S_ 1 :=
  let main_v16 : IVec S4x256 32 := broadcastInDim S4x256 ![] bcast_S_S4x256 main_c_5
  let main_v17 : IVec S4x256 1 := cmpi .sge main_arg3 main_v16
  let main_c_6 : IVec S_ 32 := constantI S_ 32 1600#32
  let main_v18 : IVec S4x256 32 := broadcastInDim S4x256 ![] bcast_S_S4x256 main_c_6
  let main_v19 : IVec S4x256 1 := cmpi .slt main_arg3 main_v18
  let main_v20 : IVec S4x256 1 := andi main_v17 main_v19
  let main_c_7 : IVec S_ 1 := constantI S_ 1 1#1
  let main_v21 : IVec S_ 1 := (fun x v => Host.reduce IntOp.andi x v reducesTo_S4x256_S_d0_1 h_S_) main_v20 main_c_7
  let main_v22 : IVec S_ 1 := andi main_v15 main_v21
  let main_v23 : IVec S4x256x256 32 := broadcastInDim S4x256x256 ![0, 1] bcast_S4x256_S4x256x256_0_1 main_arg2
  let main_v24 : IVec S4x256x256 32 := broadcastInDim S4x256x256 ![0, 2] bcast_S4x256_S4x256x256_0_2 main_arg2
  let main_v25 : IVec S4x256x256 32 := iotaInDim S4x256x256 32 1
  let main_v26 : IVec S4x256x256 32 := iotaInDim S4x256x256 32 2
  let main_v27 : IVec S4x256x256 1 := cmpi .ne main_v23 main_v24
  let main_v28 : IVec S4x256x256 1 := cmpi .eq main_v25 main_v26
  let main_v29 : IVec S4x256x256 1 := ori main_v27 main_v28
  let main_c_8 : IVec S_ 1 := constantI S_ 1 1#1
  let main_v30 : IVec S_ 1 := (fun x v => Host.reduce IntOp.andi x v reducesTo_S4x256x256_S_d0_1_2 h_S_) main_v29 main_c_8
  let main_v31 : IVec S_ 1 := andi main_v22 main_v30
  let main_v32 : IVec S4x256x256 32 := broadcastInDim S4x256x256 ![0, 1] bcast_S4x256_S4x256x256_0_1 main_arg3
  let main_v33 : IVec S4x256x256 32 := broadcastInDim S4x256x256 ![0, 2] bcast_S4x256_S4x256x256_0_2 main_arg3
  let main_v34 : IVec S4x256x256 32 := iotaInDim S4x256x256 32 1
  let main_v35 : IVec S4x256x256 32 := iotaInDim S4x256x256 32 2
  let main_v36 : IVec S4x256x256 1 := cmpi .ne main_v32 main_v33
  fn_part2 (F := F) main_v31 main_v34 main_v35 main_v36

def fn {F : FTy → Type} [FloatOps F] (main_arg0 : FVec F S8192x1600 .f32) (main_arg1 : FVec F S8192x6400 .f32) (main_arg2 : IVec S4x256 32) (main_arg3 : IVec S4x256 32) : IVec S_ 1 :=
  let main_v0 : FVec F S8192x1600 .f32 := Host.absf main_arg0
  let main_cst : FVec F S_ .f32 := constant S_ .f32 0x7F800000#32
  let main_v1 : FVec F S8192x1600 .f32 := broadcastInDim S8192x1600 ![] bcast_S_S8192x1600 main_cst
  let main_v2 : IVec S8192x1600 1 := cmpf .olt main_v0 main_v1
  let main_c : IVec S_ 1 := constantI S_ 1 1#1
  let main_v3 : IVec S_ 1 := (fun x v => Host.reduce IntOp.andi x v reducesTo_S8192x1600_S_d0_1 h_S_) main_v2 main_c
  let main_v4 : FVec F S8192x6400 .f32 := Host.absf main_arg1
  let main_cst_0 : FVec F S_ .f32 := constant S_ .f32 0x7F800000#32
  let main_v5 : FVec F S8192x6400 .f32 := broadcastInDim S8192x6400 ![] bcast_S_S8192x6400 main_cst_0
  let main_v6 : IVec S8192x6400 1 := cmpf .olt main_v4 main_v5
  let main_c_1 : IVec S_ 1 := constantI S_ 1 1#1
  let main_v7 : IVec S_ 1 := (fun x v => Host.reduce IntOp.andi x v reducesTo_S8192x6400_S_d0_1 h_S_) main_v6 main_c_1
  let main_v8 : IVec S_ 1 := andi main_v3 main_v7
  let main_c_2 : IVec S_ 32 := constantI S_ 32 0#32
  let main_v9 : IVec S4x256 32 := broadcastInDim S4x256 ![] bcast_S_S4x256 main_c_2
  let main_v10 : IVec S4x256 1 := cmpi .sge main_arg2 main_v9
  let main_c_3 : IVec S_ 32 := constantI S_ 32 1600#32
  let main_v11 : IVec S4x256 32 := broadcastInDim S4x256 ![] bcast_S_S4x256 main_c_3
  let main_v12 : IVec S4x256 1 := cmpi .slt main_arg2 main_v11
  let main_v13 : IVec S4x256 1 := andi main_v10 main_v12
  let main_c_4 : IVec S_ 1 := constantI S_ 1 1#1
  let main_v14 : IVec S_ 1 := (fun x v => Host.reduce IntOp.andi x v reducesTo_S4x256_S_d0_1 h_S_) main_v13 main_c_4
  let main_v15 : IVec S_ 1 := andi main_v8 main_v14
  let main_c_5 : IVec S_ 32 := constantI S_ 32 0#32
  fn_part1 (F := F) main_arg2 main_arg3 main_v15 main_c_5
-- ==== Kernel.lean ====
abbrev S8192x1600 : Shape := ⟨2, ![8192, 1600]⟩
abbrev S8192x6400 : Shape := ⟨2, ![8192, 6400]⟩
abbrev S4x256 : Shape := ⟨2, ![4, 256]⟩
abbrev S8192x1600x4 : Shape := ⟨3, ![8192, 1600, 4]⟩
abbrev S8192x4x1600 : Shape := ⟨3, ![8192, 4, 1600]⟩
abbrev S1600 : Shape := ⟨1, ![1600]⟩
abbrev S4x256x1 : Shape := ⟨3, ![4, 256, 1]⟩
abbrev S1x1x1600 : Shape := ⟨3, ![1, 1, 1600]⟩
abbrev S4x256x1600 : Shape := ⟨3, ![4, 256, 1600]⟩
abbrev S_ : Shape := ⟨0, ![]⟩
abbrev S4x1600 : Shape := ⟨2, ![4, 1600]⟩
abbrev S4x1x1600 : Shape := ⟨3, ![4, 1, 1600]⟩
abbrev S128x1600 : Shape := ⟨2, ![128, 1600]⟩
abbrev S128x4x1600 : Shape := ⟨3, ![128, 4, 1600]⟩
abbrev S1x256x1600 : Shape := ⟨3, ![1, 256, 1600]⟩
abbrev S256x1600 : Shape := ⟨2, ![256, 1600]⟩
abbrev S1x1600 : Shape := ⟨2, ![1, 1600]⟩
abbrev S128x256 : Shape := ⟨2, ![128, 256]⟩
abbrev S128x1x1600 : Shape := ⟨3, ![128, 1, 1600]⟩

abbrev nBuf : Space → Nat
  | .hbm => 32
  | .vmem => 12
  | .smem => 0
  | _ => 0

abbrev bufTy : (tb : Table) → Fin (tcTables nBuf tb) → BufTy
  | .hbm, ⟨0, _⟩ => ⟨S8192x1600, .f32⟩
  | .hbm, ⟨1, _⟩ => ⟨S8192x6400, .f32⟩
  | .hbm, ⟨2, _⟩ => ⟨S4x256, .i32⟩
  | .hbm, ⟨3, _⟩ => ⟨S4x256, .i32⟩
  | .hbm, ⟨4, _⟩ => ⟨S8192x1600x4, .f32⟩
  | .hbm, ⟨5, _⟩ => ⟨S8192x4x1600, .f32⟩
  | .hbm, ⟨6, _⟩ => ⟨S1600, .i32⟩
  | .hbm, ⟨7, _⟩ => ⟨S4x256x1, .i32⟩
  | .hbm, ⟨8, _⟩ => ⟨S1x1x1600, .i32⟩
  | .hbm, ⟨9, _⟩ => ⟨S4x256x1600, .i32⟩
  | .hbm, ⟨10, _⟩ => ⟨S4x256x1600, .i32⟩
  | .hbm, ⟨11, _⟩ => ⟨S4x256x1600, .i1⟩
  | .hbm, ⟨12, _⟩ => ⟨S4x256x1600, .bf16⟩
  | .hbm, ⟨13, _⟩ => ⟨S_, .i1⟩
  | .hbm, ⟨14, _⟩ => ⟨S4x1600, .i1⟩
  | .hbm, ⟨15, _⟩ => ⟨S4x1600, .f32⟩
  | .hbm, ⟨16, _⟩ => ⟨S1600, .i32⟩
  | .hbm, ⟨17, _⟩ => ⟨S4x256x1, .i32⟩
  | .hbm, ⟨18, _⟩ => ⟨S1x1x1600, .i32⟩
  | .hbm, ⟨19, _⟩ => ⟨S4x256x1600, .i32⟩
  | .hbm, ⟨20, _⟩ => ⟨S4x256x1600, .i32⟩
  | .hbm, ⟨21, _⟩ => ⟨S4x256x1600, .i1⟩
  | .hbm, ⟨22, _⟩ => ⟨S4x256x1600, .bf16⟩
  | .hbm, ⟨23, _⟩ => ⟨S_, .i1⟩
  | .hbm, ⟨24, _⟩ => ⟨S4x1600, .i1⟩
  | .hbm, ⟨25, _⟩ => ⟨S4x1600, .f32⟩
  | .hbm, ⟨26, _⟩ => ⟨S4x1x1600, .f32⟩
  | .hbm, ⟨27, _⟩ => ⟨S4x1x1600, .f32⟩
  | .hbm, ⟨28, _⟩ => ⟨S8192x1600, .f32⟩
  | .hbm, ⟨29, _⟩ => ⟨S8192x4x1600, .f32⟩
  | .hbm, ⟨30, _⟩ => ⟨S8192x1600x4, .f32⟩
  | .hbm, ⟨31, _⟩ => ⟨S8192x6400, .f32⟩
  | .local _ .vmem, ⟨0, _⟩ => ⟨S4x256x1600, .bf16⟩
  | .local _ .vmem, ⟨1, _⟩ => ⟨S4x256x1600, .bf16⟩
  | .local _ .vmem, ⟨2, _⟩ => ⟨S4x1x1600, .f32⟩
  | .local _ .vmem, ⟨3, _⟩ => ⟨S4x1x1600, .f32⟩
  | .local _ .vmem, ⟨4, _⟩ => ⟨S128x1600, .f32⟩
  | .local _ .vmem, ⟨5, _⟩ => ⟨S128x1600, .f32⟩
  | .local _ .vmem, ⟨6, _⟩ => ⟨S128x4x1600, .f32⟩
  | .local _ .vmem, ⟨7, _⟩ => ⟨S128x4x1600, .f32⟩
  | .local _ .vmem, ⟨8, _⟩ => ⟨S128x1600, .f32⟩
  | .local _ .vmem, ⟨9, _⟩ => ⟨S128x1600, .f32⟩
  | .local _ .vmem, ⟨10, _⟩ => ⟨S128x4x1600, .f32⟩
  | .local _ .vmem, ⟨11, _⟩ => ⟨S128x4x1600, .f32⟩
  | _, _ => ⟨S8192x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x256x1600 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x256x1600 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x1600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4x1600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8192x6400_S8192x1600x4 : S8192x6400.ShapeCasts S8192x1600x4
  transposes_S8192x1600x4_S8192x4x1600_0_2_1 : S8192x1600x4.Transposes [0, 2, 1] S8192x4x1600
  bcast_S4x256_S4x256x1_0_1 : S4x256.BroadcastsInDim S4x256x1 (![0, 1] : Fin 2 → Fin S4x256x1.rank)
  bcast_S1600_S1x1x1600_2 : S1600.BroadcastsInDim S1x1x1600 (![2] : Fin 1 → Fin S1x1x1600.rank)
  bcast_S4x256x1_S4x256x1600_0_1_2 : S4x256x1.BroadcastsInDim S4x256x1600 (![0, 1, 2] : Fin 3 → Fin S4x256x1600.rank)
  bcast_S1x1x1600_S4x256x1600_0_1_2 : S1x1x1600.BroadcastsInDim S4x256x1600 (![0, 1, 2] : Fin 3 → Fin S4x256x1600.rank)
  reducesTo_S4x256x1600_S4x1600_d1 : S4x256x1600.ReducesTo [1] S4x1600
  h_S_ : 0 < S_.numel
  shapeCasts_S4x1600_S4x1x1600 : S4x1600.ShapeCasts S4x1x1600
  inb_S128x1600_S128x1600_0_0 : ∀ a, (![0, 0] : Fin 2 → Nat) a + S128x1600.size a ≤ S128x1600.size a
  h_S128x1600 : 0 < S128x1600.numel
  bitsLt_bf16_f32 : FTy.bits .bf16 < FTy.bits .f32
  inb_S4x256x1600_S1x256x1600_0_0_0 : ∀ a, (![0, 0, 0] : Fin 3 → Nat) a + S1x256x1600.size a ≤ S4x256x1600.size a
  h_S1x256x1600 : 0 < S1x256x1600.numel
  shapeCasts_S1x256x1600_S256x1600 : S1x256x1600.ShapeCasts S256x1600
  inb_S4x1x1600_S1x1x1600_0_0_0 : ∀ a, (![0, 0, 0] : Fin 3 → Nat) a + S1x1x1600.size a ≤ S4x1x1600.size a
  h_S1x1x1600 : 0 < S1x1x1600.numel
  shapeCasts_S1x1x1600_S1x1600 : S1x1x1600.ShapeCasts S1x1600
  broadcasts_S1x1600_S128x1600 : S1x1600.Broadcasts S128x1600
  inb_S4x256x1600_S1x256x1600_1_0_0 : ∀ a, (![1, 0, 0] : Fin 3 → Nat) a + S1x256x1600.size a ≤ S4x256x1600.size a
  inb_S4x1x1600_S1x1x1600_1_0_0 : ∀ a, (![1, 0, 0] : Fin 3 → Nat) a + S1x1x1600.size a ≤ S4x1x1600.size a
  inb_S4x256x1600_S1x256x1600_2_0_0 : ∀ a, (![2, 0, 0] : Fin 3 → Nat) a + S1x256x1600.size a ≤ S4x256x1600.size a
  inb_S4x1x1600_S1x1x1600_2_0_0 : ∀ a, (![2, 0, 0] : Fin 3 → Nat) a + S1x1x1600.size a ≤ S4x1x1600.size a
  inb_S4x256x1600_S1x256x1600_3_0_0 : ∀ a, (![3, 0, 0] : Fin 3 → Nat) a + S1x256x1600.size a ≤ S4x256x1600.size a
  inb_S4x1x1600_S1x1x1600_3_0_0 : ∀ a, (![3, 0, 0] : Fin 3 → Nat) a + S1x1x1600.size a ≤ S4x1x1600.size a
  inb_S128x4x1600_S128x1x1600_0_0_0 : ∀ a, (![0, 0, 0] : Fin 3 → Nat) a + S128x1x1600.size a ≤ S128x4x1600.size a
  h_S128x1x1600 : 0 < S128x1x1600.numel
  shapeCasts_S128x1x1600_S128x1600 : S128x1x1600.ShapeCasts S128x1600
  shapeCasts_S128x1600_S128x1x1600 : S128x1600.ShapeCasts S128x1x1600
  inb_S128x4x1600_S128x1x1600_0_1_0 : ∀ a, (![0, 1, 0] : Fin 3 → Nat) a + S128x1x1600.size a ≤ S128x4x1600.size a
  inb_S128x4x1600_S128x1x1600_0_2_0 : ∀ a, (![0, 2, 0] : Fin 3 → Nat) a + S128x1x1600.size a ≤ S128x4x1600.size a
  inb_S128x4x1600_S128x1x1600_0_3_0 : ∀ a, (![0, 3, 0] : Fin 3 → Nat) a + S128x1x1600.size a ≤ S128x4x1600.size a
  transposes_S8192x4x1600_S8192x1600x4_0_2_1 : S8192x4x1600.Transposes [0, 2, 1] S8192x1600x4
  shapeCasts_S8192x1600x4_S8192x6400 : S8192x1600x4.ShapeCasts S8192x6400
  dot_S128x1600_S256x1600_S128x256_1_1_0_0_n_n_wf : DotDims.WF S128x1600 S256x1600 S128x256 [1] [1] [0] [0] [] []
  dot_S128x256_S256x1600_S128x1600_1_0_0_1_n_n_wf : DotDims.WF S128x256 S256x1600 S128x1600 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x256x1600.size a ≤ S4x256x1600.size a
  hwx0_0 : ∀ i : grid0.Coords, EltTy.bits .bf16 = 32 ∨ (Rect.block (s := S4x256x1600) S4x256x1600.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x1600.size a ≤ S4x256x1600.size a
  hwx0_1 : ∀ i : grid0.Coords, EltTy.bits .bf16 = 32 ∨ (Rect.block (s := S4x256x1600) S4x256x1600.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1x1600.size a ≤ S4x1x1600.size a
  hwx0_2 : ∀ i : grid0.Coords, EltTy.bits .f32 = 32 ∨ (Rect.block (s := S4x1x1600) S4x1x1600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1x1600.size a ≤ S4x1x1600.size a
  hwx0_3 : ∀ i : grid0.Coords, EltTy.bits .f32 = 32 ∨ (Rect.block (s := S4x1x1600) S4x1x1600.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1600.size a ≤ S8192x1600.size a
  hwx0_4 : ∀ i : grid0.Coords, EltTy.bits .f32 = 32 ∨ (Rect.block (s := S8192x1600) S128x1600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4x1600.size a ≤ S8192x4x1600.size a
  hwx0_5 : ∀ i : grid0.Coords, EltTy.bits .f32 = 32 ∨ (Rect.block (s := S8192x4x1600) S128x4x1600.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1600.size a ≤ S8192x1600.size a
  hwx0_6 : ∀ i : grid0.Coords, EltTy.bits .f32 = 32 ∨ (Rect.block (s := S8192x1600) S128x1600.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4x1600.size a ≤ S8192x4x1600.size a
  hwx0_7 : ∀ i : grid0.Coords, EltTy.bits .f32 = 32 ∨ (Rect.block (s := S8192x4x1600) S128x4x1600.size (cc0_transform_7 i) (hinb0_7 i)).WholeWords (EltTy.packing .f32)

variable [Facts₀]

def dot_S128x1600_S256x1600_S128x256_1_1_0_0_n_n : DotDims S128x1600 S256x1600 S128x256 where
  lhsContracting := [1]
  rhsContracting := [1]
  lhsNonContracting := [0]
  rhsNonContracting := [0]
  lhsBatch := []
  rhsBatch := []
  wf := dot_S128x1600_S256x1600_S128x256_1_1_0_0_n_n_wf
def dot_S128x256_S256x1600_S128x1600_1_0_0_1_n_n : DotDims S128x256 S256x1600 S128x1600 where
  lhsContracting := [1]
  rhsContracting := [0]
  lhsNonContracting := [0]
  rhsNonContracting := [1]
  lhsBatch := []
  rhsBatch := []
  wf := dot_S128x256_S256x1600_S128x1600_1_0_0_1_n_n_wf

abbrev win0_0 : Pipeline.Window sig grid0 :=
  Pipeline.Window.ofSpec (Memref.whole main_v8) S4x256x1600.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4x256x1600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4x1x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4x1x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S128x1600.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x4x1600.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S128x1600.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S128x4x1600.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1600 : Shape := ⟨2, ![8192, 1600]⟩
abbrev S8192x6400 : Shape := ⟨2, ![8192, 6400]⟩
abbrev S4x256 : Shape := ⟨2, ![4, 256]⟩
abbrev S8192x1600x4 : Shape := ⟨3, ![8192, 1600, 4]⟩
abbrev S1x256 : Shape := ⟨2, ![1, 256]⟩
abbrev S256 : Shape := ⟨1, ![256]⟩
abbrev S_ : Shape := ⟨0, ![]⟩
abbrev S256x1 : Shape := ⟨2, ![256, 1]⟩
abbrev S8192x256 : Shape := ⟨2, ![8192, 256]⟩
abbrev S8192x256x4 : Shape := ⟨3, ![8192, 256, 4]⟩

abbrev nBuf : Space → Nat
  | .hbm => 246
  | .vmem => 0
  | .smem => 0
  | _ => 0

abbrev hbmTy0_0 (i : Nat) : BufTy := match i % 128 with
  | 0 => ⟨S8192x1600, .f32⟩
  | 1 => ⟨S8192x6400, .f32⟩
  | 2 => ⟨S4x256, .i32⟩
  | 3 => ⟨S4x256, .i32⟩
  | 4 => ⟨S8192x1600x4, .f32⟩
  | 5 => ⟨S1x256, .i32⟩
  | 6 => ⟨S256, .i32⟩
  | 7 => ⟨S1x256, .i32⟩
  | 8 => ⟨S256, .i32⟩
  | 9 => ⟨S_, .i32⟩
  | 10 => ⟨S256, .i32⟩
  | 11 => ⟨S256, .i1⟩
  | 12 => ⟨S_, .i32⟩
  | 13 => ⟨S256, .i32⟩
  | 14 => ⟨S256, .i32⟩
  | 15 => ⟨S256, .i32⟩
  | 16 => ⟨S256x1, .i32⟩
  | 17 => ⟨S8192x256, .f32⟩
  | 18 => ⟨S_, .i32⟩
  | 19 => ⟨S256, .i32⟩
  | 20 => ⟨S256, .i1⟩
  | 21 => ⟨S_, .i32⟩
  | 22 => ⟨S256, .i32⟩
  | 23 => ⟨S256, .i32⟩
  | 24 => ⟨S256, .i32⟩
  | 25 => ⟨S256x1, .i32⟩
  | 26 => ⟨S8192x256, .f32⟩
  | 27 => ⟨S8192x256, .f32⟩
  | 28 => ⟨S_, .i32⟩
  | 29 => ⟨S256, .i32⟩
  | 30 => ⟨S256, .i1⟩
  | 31 => ⟨S_, .i32⟩
  | 32 => ⟨S256, .i32⟩
  | 33 => ⟨S256, .i32⟩
  | 34 => ⟨S256, .i32⟩
  | 35 => ⟨S256x1, .i32⟩
  | 36 => ⟨S8192x1600, .f32⟩
  | 37 => ⟨S_, .i32⟩
  | 38 => ⟨S256, .i32⟩
  | 39 => ⟨S256, .i1⟩
  | 40 => ⟨S_, .i32⟩
  | 41 => ⟨S256, .i32⟩
  | 42 => ⟨S256, .i32⟩
  | 43 => ⟨S256, .i32⟩
  | 44 => ⟨S256x1, .i32⟩
  | 45 => ⟨S8192x256x4, .f32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S256x1, .i32⟩
  | 54 => ⟨S8192x256x4, .f32⟩
  | 55 => ⟨S8192x256x4, .f32⟩
  | 56 => ⟨S_, .i32⟩
  | 57 => ⟨S256, .i32⟩
  | 58 => ⟨S256, .i1⟩
  | 59 => ⟨S_, .i32⟩
  | 60 => ⟨S256, .i32⟩
  | 61 => ⟨S256, .i32⟩
  | 62 => ⟨S256, .i32⟩
  | 63 => ⟨S256x1, .i32⟩
  | 64 => ⟨S8192x1600x4, .f32⟩
  | 65 => ⟨S1x256, .i32⟩
  | 66 => ⟨S256, .i32⟩
  | 67 => ⟨S1x256, .i32⟩
  | 68 => ⟨S256, .i32⟩
  | 69 => ⟨S_, .i32⟩
  | 70 => ⟨S256, .i32⟩
  | 71 => ⟨S256, .i1⟩
  | 72 => ⟨S_, .i32⟩
  | 73 => ⟨S256, .i32⟩
  | 74 => ⟨S256, .i32⟩
  | 75 => ⟨S256, .i32⟩
  | 76 => ⟨S256x1, .i32⟩
  | 77 => ⟨S8192x256, .f32⟩
  | 78 => ⟨S_, .i32⟩
  | 79 => ⟨S256, .i32⟩
  | 80 => ⟨S256, .i1⟩
  | 81 => ⟨S_, .i32⟩
  | 82 => ⟨S256, .i32⟩
  | 83 => ⟨S256, .i32⟩
  | 84 => ⟨S256, .i32⟩
  | 85 => ⟨S256x1, .i32⟩
  | 86 => ⟨S8192x256, .f32⟩
  | 87 => ⟨S8192x256, .f32⟩
  | 88 => ⟨S_, .i32⟩
  | 89 => ⟨S256, .i32⟩
  | 90 => ⟨S256, .i1⟩
  | 91 => ⟨S_, .i32⟩
  | 92 => ⟨S256, .i32⟩
  | 93 => ⟨S256, .i32⟩
  | 94 => ⟨S256, .i32⟩
  | 95 => ⟨S256x1, .i32⟩
  | 96 => ⟨S8192x1600, .f32⟩
  | 97 => ⟨S_, .i32⟩
  | 98 => ⟨S256, .i32⟩
  | 99 => ⟨S256, .i1⟩
  | 100 => ⟨S_, .i32⟩
  | 101 => ⟨S256, .i32⟩
  | 102 => ⟨S256, .i32⟩
  | 103 => ⟨S256, .i32⟩
  | 104 => ⟨S256x1, .i32⟩
  | 105 => ⟨S8192x256x4, .f32⟩
  | 106 => ⟨S_, .i32⟩
  | 107 => ⟨S256, .i32⟩
  | 108 => ⟨S256, .i1⟩
  | 109 => ⟨S_, .i32⟩
  | 110 => ⟨S256, .i32⟩
  | 111 => ⟨S256, .i32⟩
  | 112 => ⟨S256, .i32⟩
  | 113 => ⟨S256x1, .i32⟩
  | 114 => ⟨S8192x256x4, .f32⟩
  | 115 => ⟨S8192x256x4, .f32⟩
  | 116 => ⟨S_, .i32⟩
  | 117 => ⟨S256, .i32⟩
  | 118 => ⟨S256, .i1⟩
  | 119 => ⟨S_, .i32⟩
  | 120 => ⟨S256, .i32⟩
  | 121 => ⟨S256, .i32⟩
  | 122 => ⟨S256, .i32⟩
  | 123 => ⟨S256x1, .i32⟩
  | 124 => ⟨S8192x1600x4, .f32⟩
  | 125 => ⟨S1x256, .i32⟩
  | 126 => ⟨S256, .i32⟩
  | 127 => ⟨S1x256, .i32⟩
  | _ => ⟨S8192x1600, .f32⟩

abbrev hbmTy0_1 (i : Nat) : BufTy := match i % 128 with
  | 0 => ⟨S256, .i32⟩
  | 1 => ⟨S_, .i32⟩
  | 2 => ⟨S256, .i32⟩
  | 3 => ⟨S256, .i1⟩
  | 4 => ⟨S_, .i32⟩
  | 5 => ⟨S256, .i32⟩
  | 6 => ⟨S256, .i32⟩
  | 7 => ⟨S256, .i32⟩
  | 8 => ⟨S256x1, .i32⟩
  | 9 => ⟨S8192x256, .f32⟩
  | 10 => ⟨S_, .i32⟩
  | 11 => ⟨S256, .i32⟩
  | 12 => ⟨S256, .i1⟩
  | 13 => ⟨S_, .i32⟩
  | 14 => ⟨S256, .i32⟩
  | 15 => ⟨S256, .i32⟩
  | 16 => ⟨S256, .i32⟩
  | 17 => ⟨S256x1, .i32⟩
  | 18 => ⟨S8192x256, .f32⟩
  | 19 => ⟨S8192x256, .f32⟩
  | 20 => ⟨S_, .i32⟩
  | 21 => ⟨S256, .i32⟩
  | 22 => ⟨S256, .i1⟩
  | 23 => ⟨S_, .i32⟩
  | 24 => ⟨S256, .i32⟩
  | 25 => ⟨S256, .i32⟩
  | 26 => ⟨S256, .i32⟩
  | 27 => ⟨S256x1, .i32⟩
  | 28 => ⟨S8192x1600, .f32⟩
  | 29 => ⟨S_, .i32⟩
  | 30 => ⟨S256, .i32⟩
  | 31 => ⟨S256, .i1⟩
  | 32 => ⟨S_, .i32⟩
  | 33 => ⟨S256, .i32⟩
  | 34 => ⟨S256, .i32⟩
  | 35 => ⟨S256, .i32⟩
  | 36 => ⟨S256x1, .i32⟩
  | 37 => ⟨S8192x256x4, .f32⟩
  | 38 => ⟨S_, .i32⟩
  | 39 => ⟨S256, .i32⟩
  | 40 => ⟨S256, .i1⟩
  | 41 => ⟨S_, .i32⟩
  | 42 => ⟨S256, .i32⟩
  | 43 => ⟨S256, .i32⟩
  | 44 => ⟨S256, .i32⟩
  | 45 => ⟨S256x1, .i32⟩
  | 46 => ⟨S8192x256x4, .f32⟩
  | 47 => ⟨S8192x256x4, .f32⟩
  | 48 => ⟨S_, .i32⟩
  | 49 => ⟨S256, .i32⟩
  | 50 => ⟨S256, .i1⟩
  | 51 => ⟨S_, .i32⟩
  | 52 => ⟨S256, .i32⟩
  | 53 => ⟨S256, .i32⟩
  | 54 => ⟨S256, .i32⟩
  | 55 => ⟨S256x1, .i32⟩
  | 56 => ⟨S8192x1600x4, .f32⟩
  | 57 => ⟨S1x256, .i32⟩
  | 58 => ⟨S256, .i32⟩
  | 59 => ⟨S1x256, .i32⟩
  | 60 => ⟨S256, .i32⟩
  | 61 => ⟨S_, .i32⟩
  | 62 => ⟨S256, .i32⟩
  | 63 => ⟨S256, .i1⟩
  | 64 => ⟨S_, .i32⟩
  | 65 => ⟨S256, .i32⟩
  | 66 => ⟨S256, .i32⟩
  | 67 => ⟨S256, .i32⟩
  | 68 => ⟨S256x1, .i32⟩
  | 69 => ⟨S8192x256, .f32⟩
  | 70 => ⟨S_, .i32⟩
  | 71 => ⟨S256, .i32⟩
  | 72 => ⟨S256, .i1⟩
  | 73 => ⟨S_, .i32⟩
  | 74 => ⟨S256, .i32⟩
  | 75 => ⟨S256, .i32⟩
  | 76 => ⟨S256, .i32⟩
  | 77 => ⟨S256x1, .i32⟩
  | 78 => ⟨S8192x256, .f32⟩
  | 79 => ⟨S8192x256, .f32⟩
  | 80 => ⟨S_, .i32⟩
  | 81 => ⟨S256, .i32⟩
  | 82 => ⟨S256, .i1⟩
  | 83 => ⟨S_, .i32⟩
  | 84 => ⟨S256, .i32⟩
  | 85 => ⟨S256, .i32⟩
  | 86 => ⟨S256, .i32⟩
  | 87 => ⟨S256x1, .i32⟩
  | 88 => ⟨S8192x1600, .f32⟩
  | 89 => ⟨S_, .i32⟩
  | 90 => ⟨S256, .i32⟩
  | 91 => ⟨S256, .i1⟩
  | 92 => ⟨S_, .i32⟩
  | 93 => ⟨S256, .i32⟩
  | 94 => ⟨S256, .i32⟩
  | 95 => ⟨S256, .i32⟩
  | 96 => ⟨S256x1, .i32⟩
  | 97 => ⟨S8192x256x4, .f32⟩
  | 98 => ⟨S_, .i32⟩
  | 99 => ⟨S256, .i32⟩
  | 100 => ⟨S256, .i1⟩
  | 101 => ⟨S_, .i32⟩
  | 102 => ⟨S256, .i32⟩
  | 103 => ⟨S256, .i32⟩
  | 104 => ⟨S256, .i32⟩
  | 105 => ⟨S256x1, .i32⟩
  | 106 => ⟨S8192x256x4, .f32⟩
  | 107 => ⟨S8192x256x4, .f32⟩
  | 108 => ⟨S_, .i32⟩
  | 109 => ⟨S256, .i32⟩
  | 110 => ⟨S256, .i1⟩
  | 111 => ⟨S_, .i32⟩
  | 112 => ⟨S256, .i32⟩
  | 113 => ⟨S256, .i32⟩
  | 114 => ⟨S256, .i32⟩
  | 115 => ⟨S256x1, .i32⟩
  | 116 => ⟨S8192x1600x4, .f32⟩
  | 117 => ⟨S8192x6400, .f32⟩
  | _ => ⟨S8192x1600, .f32⟩

abbrev hbmTy (i : Nat) : BufTy := match i / 128 with
  | 0 => hbmTy0_0 i
  | 1 => hbmTy0_1 i
  | _ => ⟨S8192x1600, .f32⟩

abbrev bufTy : (tb : Table) → Fin (tcTables nBuf tb) → BufTy
  | .hbm, ⟨i, _⟩ => hbmTy i
  | _, _ => ⟨S8192x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_9 : Ref sig .tc := ⟨.hbm, 56, rfl⟩
abbrev main_v42 : Ref sig .tc := ⟨.hbm, 57, rfl⟩
abbrev main_v43 : Ref sig .tc := ⟨.hbm, 58, rfl⟩
abbrev main_c_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_11 : Ref sig .tc := ⟨.hbm, 69, rfl⟩
abbrev main_v53 : Ref sig .tc := ⟨.hbm, 70, rfl⟩
abbrev main_v54 : Ref sig .tc := ⟨.hbm, 71, rfl⟩
abbrev main_c_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_13 : Ref sig .tc := ⟨.hbm, 78, rfl⟩
abbrev main_v60 : Ref sig .tc := ⟨.hbm, 79, rfl⟩
abbrev main_v61 : Ref sig .tc := ⟨.hbm, 80, rfl⟩
abbrev main_c_14 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_15 : Ref sig .tc := ⟨.hbm, 88, rfl⟩
abbrev main_v68 : Ref sig .tc := ⟨.hbm, 89, rfl⟩
abbrev main_v69 : Ref sig .tc := ⟨.hbm, 90, rfl⟩
abbrev main_c_16 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_17 : Ref sig .tc := ⟨.hbm, 97, rfl⟩
abbrev main_v75 : Ref sig .tc := ⟨.hbm, 98, rfl⟩
abbrev main_v76 : Ref sig .tc := ⟨.hbm, 99, rfl⟩
abbrev main_c_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_19 : Ref sig .tc := ⟨.hbm, 106, rfl⟩
abbrev main_v82 : Ref sig .tc := ⟨.hbm, 107, rfl⟩
abbrev main_v83 : Ref sig .tc := ⟨.hbm, 108, rfl⟩
abbrev main_c_20 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_21 : Ref sig .tc := ⟨.hbm, 116, rfl⟩
abbrev main_v90 : Ref sig .tc := ⟨.hbm, 117, rfl⟩
abbrev main_v91 : Ref sig .tc := ⟨.hbm, 118, rfl⟩
abbrev main_c_22 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_c_23 : Ref sig .tc := ⟨.hbm, 129, rfl⟩
abbrev main_v101 : Ref sig .tc := ⟨.hbm, 130, rfl⟩
abbrev main_v102 : Ref sig .tc := ⟨.hbm, 131, rfl⟩
abbrev main_c_24 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_c_25 : Ref sig .tc := ⟨.hbm, 138, rfl⟩
abbrev main_v108 : Ref sig .tc := ⟨.hbm, 139, rfl⟩
abbrev main_v109 : Ref sig .tc := ⟨.hbm, 140, rfl⟩
abbrev main_c_26 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_c_27 : Ref sig .tc := ⟨.hbm, 148, rfl⟩
abbrev main_v116 : Ref sig .tc := ⟨.hbm, 149, rfl⟩
abbrev main_v117 : Ref sig .tc := ⟨.hbm, 150, rfl⟩
abbrev main_c_28 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_c_29 : Ref sig .tc := ⟨.hbm, 157, rfl⟩
abbrev main_v123 : Ref sig .tc := ⟨.hbm, 158, rfl⟩
abbrev main_v124 : Ref sig .tc := ⟨.hbm, 159, rfl⟩
abbrev main_c_30 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_c_31 : Ref sig .tc := ⟨.hbm, 166, rfl⟩
abbrev main_v130 : Ref sig .tc := ⟨.hbm, 167, rfl⟩
abbrev main_v131 : Ref sig .tc := ⟨.hbm, 168, rfl⟩
abbrev main_c_32 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_c_33 : Ref sig .tc := ⟨.hbm, 176, rfl⟩
abbrev main_v138 : Ref sig .tc := ⟨.hbm, 177, rfl⟩
abbrev main_v139 : Ref sig .tc := ⟨.hbm, 178, rfl⟩
abbrev main_c_34 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_c_35 : Ref sig .tc := ⟨.hbm, 189, rfl⟩
abbrev main_v149 : Ref sig .tc := ⟨.hbm, 190, rfl⟩
abbrev main_v150 : Ref sig .tc := ⟨.hbm, 191, rfl⟩
abbrev main_c_36 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_c_37 : Ref sig .tc := ⟨.hbm, 198, rfl⟩
abbrev main_v156 : Ref sig .tc := ⟨.hbm, 199, rfl⟩
abbrev main_v157 : Ref sig .tc := ⟨.hbm, 200, rfl⟩
abbrev main_c_38 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_c_39 : Ref sig .tc := ⟨.hbm, 208, rfl⟩
abbrev main_v164 : Ref sig .tc := ⟨.hbm, 209, rfl⟩
abbrev main_v165 : Ref sig .tc := ⟨.hbm, 210, rfl⟩
abbrev main_c_40 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_c_41 : Ref sig .tc := ⟨.hbm, 217, rfl⟩
abbrev main_v171 : Ref sig .tc := ⟨.hbm, 218, rfl⟩
abbrev main_v172 : Ref sig .tc := ⟨.hbm, 219, rfl⟩
abbrev main_c_42 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_c_43 : Ref sig .tc := ⟨.hbm, 226, rfl⟩
abbrev main_v178 : Ref sig .tc := ⟨.hbm, 227, rfl⟩
abbrev main_v179 : Ref sig .tc := ⟨.hbm, 228, rfl⟩
abbrev main_c_44 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_c_45 : Ref sig .tc := ⟨.hbm, 236, rfl⟩
abbrev main_v186 : Ref sig .tc := ⟨.hbm, 237, rfl⟩
abbrev main_v187 : Ref sig .tc := ⟨.hbm, 238, rfl⟩
abbrev main_c_46 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩

abbrev nD : Nat := 1
abbrev τ : Topo := Topo.v7x

variable {F : FTy → Type} [FloatOps F]

class Facts₀ : Prop where
  shapeCasts_S8192x6400_S8192x1600x4 : S8192x6400.ShapeCasts S8192x1600x4
  slices_S4x256_S1x256_0_0 : S4x256.Slices ![0, 0] S1x256
  shapeCasts_S1x256_S256 : S1x256.ShapeCasts S256
  bcast_S_S256 : S_.BroadcastsInDim S256 (![] : Fin 0 → Fin S256.rank)
  bcast_S256_S256x1_0 : S256.BroadcastsInDim S256x1 (![0] : Fin 1 → Fin S256x1.rank)
  slices_S4x256_S1x256_1_0 : S4x256.Slices ![1, 0] S1x256
  slices_S4x256_S1x256_2_0 : S4x256.Slices ![2, 0] S1x256
  slices_S4x256_S1x256_3_0 : S4x256.Slices ![3, 0] S1x256
  shapeCasts_S8192x1600x4_S8192x6400 : S8192x1600x4.ShapeCasts S8192x6400
  gather_S8192x1600_S256x1_S8192x256_0_1_n_n_1_1_81921_wf : GatherDims.WF S8192x1600 S256x1 S8192x256 [0] [1] [] [1] [] 1 ![8192, 1]
  scatter_S8192x1600_S256x1_S8192x256_0_1_1_1_wf : ScatterDims.WF S8192x1600 S256x1 S8192x256 [0] [1] [1] 1
  gather_S8192x1600x4_S256x1_S8192x256x4_02_1_n_n_1_1_819214_wf : GatherDims.WF S8192x1600x4 S256x1 S8192x256x4 [0, 2] [1] [] [1] [] 1 ![8192, 1, 4]
  scatter_S8192x1600x4_S256x1_S8192x256x4_02_1_1_1_wf : ScatterDims.WF S8192x1600x4 S256x1 S8192x256x4 [0, 2] [1] [1] 1

variable [Facts₀]

def gather_S8192x1600_S256x1_S8192x256_0_1_n_n_1_1_81921 : GatherDims S8192x1600 S256x1 S8192x256 where
  offsetDims := [0]
  collapsedSliceDims := [1]
  operandBatchingDims := []
  startIndicesBatchingDims := []
  startIndexMap := [1]
  indexVectorDim := 1
  sliceSizes := ![8192, 1]
  wf := gather_S8192x1600_S256x1_S8192x256_0_1_n_n_1_1_81921_wf
def scatter_S8192x1600_S256x1_S8192x256_0_1_1_1 : ScatterDims S8192x1600 S256x1 S8192x256 where
  updateWindowDims := [0]
  insertedWindowDims := [1]
  scatterDimsToOperandDims := [1]
  indexVectorDim := 1
  wf := scatter_S8192x1600_S256x1_S8192x256_0_1_1_1_wf
def gather_S8192x1600x4_S256x1_S8192x256x4_02_1_n_n_1_1_819214 : GatherDims S8192x1600x4 S256x1 S8192x256x4 where
  offsetDims := [0, 2]
  collapsedSliceDims := [1]
  operandBatchingDims := []
  startIndicesBatchingDims := []
  startIndexMap := [1]
  indexVectorDim := 1
  sliceSizes := ![8192, 1, 4]
  wf := gather_S8192x1600x4_S256x1_S8192x256x4_02_1_n_n_1_1_819214_wf
def scatter_S8192x1600x4_S256x1_S8192x256x4_02_1_1_1 : ScatterDims S8192x1600x4 S256x1 S8192x256x4 where
  updateWindowDims := [0, 2]
  insertedWindowDims := [1]
  scatterDimsToOperandDims := [1]
  indexVectorDim := 1
  wf := scatter_S8192x1600x4_S256x1_S8192x256x4_02_1_1_1_wf

class Facts : Prop extends Facts₀ where

variable [Facts]
-- ==== Proof.Spec.lean ====
/-
  The result both programs compute, stated once, over the extended reals.

  One hierarchy level rewrites a row `cur` of 1600 class columns from a fixed row `base`: at every column `q` that
  the level's scatter table `s` names, `q = s k`, the new entry is `cur (g k) + base q` — the current row read at
  the gather table's column for the same position `k`, plus the base row at `q` —, and every other column is kept.
  When `s` names no column twice the position `k` is determined by `q`, and the step is a function of `s`, `g`,
  `base` and `cur` alone (`rowStep`). The class branch runs four such levels on each row of the logits, scattering at
  the target table and gathering at the source table; the box branch runs them on each (row, coordinate) line of the
  box array with the two tables exchanged.

  The kernel computes a level with 0/1 matrices: `cur · (1 − mask) + ((cur · G₁ᵀ + base · G₂ᵀ) · G₂)`, where row `k` of
  `G₁` is the indicator of column `g k`, row `k` of `G₂` the indicator of column `s k`, and `mask` the indicator of the
  columns `s` names. On the extended reals `x · 0 = 0` and `x · 1 = x` for every `x`, infinite ones included, so a sum
  against an indicator row is the one entry it selects, and the matrix form is `rowStep` (`rowStep_onehot`): no
  finiteness of the data is needed, only that `s` is injective.
-/
import Idealize.ShloMosaic.PureOps.Ideal
import Idealize.ShloMosaic.Lib.ValueIdx

noncomputable section

namespace Cert.Spec

open Idealize.ShloMosaic Idealize.ShloMosaic.ValueIdx

/-- The label tables: four levels of 256 class indices. -/
abbrev SLab : Shape := ⟨2, ![4, 256]⟩
/-- The class logits: 8192 rows of 1600 columns. -/
abbrev SCls : Shape := ⟨2, ![8192, 1600]⟩
/-- The box array seen as rows × classes × coordinates. -/
abbrev SBox3 : Shape := ⟨3, ![8192, 1600, 4]⟩

/-- Entry `(l, k)` of a label table as a class column: its value reduced mod 1600, which is the value itself when the
    entry is a column of the array. -/
def col (T : IVec SLab 32) (l : Fin 4) (k : Fin 256) : Fin 1600 :=
  ⟨(T (ix2 l k)).toNat % 1600, Nat.mod_lt _ (by decide)⟩

/-- What the precondition says of a label table: every entry is a column, and no level holds one column twice. -/
structure Labels (T : IVec SLab 32) : Prop where
  inRange : ∀ (l : Fin 4) (k : Fin 256), (T (ix2 l k)).toNat < 1600
  distinct : ∀ (l : Fin 4) (p q : Fin 256), p ≠ q → T (ix2 l p) ≠ T (ix2 l q)

theorem Labels.col_val {T : IVec SLab 32} (h : Labels T) (l : Fin 4) (k : Fin 256) : (col T l k).val = (T (ix2 l k)).toNat := by
  show (T (ix2 l k)).toNat % 1600 = _
  exact Nat.mod_eq_of_lt (h.inRange l k)

theorem Labels.col_injective {T : IVec SLab 32} (h : Labels T) (l : Fin 4) : Function.Injective (col T l) := by
  intro p q hpq
  by_contra hne
  refine h.distinct l p q hne ?_
  have hv : (col T l p).val = (col T l q).val := congrArg Fin.val hpq
  rw [h.col_val, h.col_val] at hv
  exact BitVec.eq_of_toNat_eq hv

/-- One level on one row. -/
def rowStep (s g : Fin 256 → Fin 1600) (base cur : Fin 1600 → EReal) (q : Fin 1600) : EReal :=
  open Classical in if h : ∃ k, s k = q then cur (g h.choose) + base q else cur q

theorem rowStep_hit {s g : Fin 256 → Fin 1600} (hs : Function.Injective s) (base cur : Fin 1600 → EReal) (k : Fin 256) :
    rowStep s g base cur (s k) = cur (g k) + base (s k) := by
  unfold rowStep
  have h : ∃ k', s k' = s k := ⟨k, rfl⟩
  rw [dif_pos h, hs h.choose_spec]

theorem rowStep_miss {s g : Fin 256 → Fin 1600} (base cur : Fin 1600 → EReal) {q : Fin 1600} (h : ∀ k, s k ≠ q) :
    rowStep s g base cur q = cur q := by
  unfold rowStep
  rw [dif_neg (fun ⟨k, hk⟩ => h k hk)]

/-- The four levels on one row, level 0 first, every level adding the same base row. -/
def iter4 (s g : Fin 4 → Fin 256 → Fin 1600) (base : Fin 1600 → EReal) : Fin 1600 → EReal :=
  rowStep (s 3) (g 3) base (rowStep (s 2) (g 2) base (rowStep (s 1) (g 1) base (rowStep (s 0) (g 0) base base)))

/-- The class result: each row of the logits through the four levels, scattered at the targets, gathered at the sources. -/
def Gcls (A0 : SCls.Idx → EReal) (tgt src : IVec SLab 32) : SCls.Idx → EReal :=
  fun i => iter4 (col tgt) (col src) (fun q' => A0 (ix2 (i 0 : Fin 8192) q')) (i 1 : Fin 1600)

/-- The box result on the rows × classes × coordinates view: each (row, coordinate) line through the four levels,
    scattered at the sources, gathered at the targets. -/
def Gbox3 (B : SBox3.Idx → EReal) (tgt src : IVec SLab 32) : SBox3.Idx → EReal :=
  fun i => iter4 (col src) (col tgt) (fun q' => B (ix3 (i 0 : Fin 8192) q' (i 2 : Fin 4))) (i 1 : Fin 1600)

/-! ## The matrix form of a level -/

/-- A sum against an indicator row is the entry it selects: on the extended reals `x · 0 = 0` and `x · 1 = x` hold
    for every `x`. -/
theorem sum_mul_indicator {n : Nat} (x : Fin n → EReal) (a : Fin n) :
    (∑ c : Fin n, x c * (if a = c then (1 : EReal) else 0)) = x a := by
  rw [Finset.sum_eq_single a]
  · rw [if_pos rfl, mul_one]
  · intro c _ hc
    rw [if_neg (fun h => hc h.symm), mul_zero]
  · intro h; exact absurd (Finset.mem_univ a) h

/-- The kernel's level — keep the row off the scattered columns, add the scattered sums of the gathered entries —
    is `rowStep` when the scatter table names no column twice. -/
theorem rowStep_onehot {s g : Fin 256 → Fin 1600} (hs : Function.Injective s) (base cur : Fin 1600 → EReal) (q : Fin 1600) :
    cur q * ((1 : EReal) - (open Classical in if ∃ k, s k = q then (1 : EReal) else 0))
      + (∑ k : Fin 256, ((∑ c : Fin 1600, cur c * (if g k = c then (1 : EReal) else 0))
          + (∑ c : Fin 1600, base c * (if s k = c then (1 : EReal) else 0))) * (if s k = q then (1 : EReal) else 0))
    = rowStep s g base cur q := by
  simp only [sum_mul_indicator]
  have h11 : (1 : EReal) - 1 = 0 := by
    rw [← EReal.coe_one, ← EReal.coe_sub, sub_self, EReal.coe_zero]
  by_cases h : ∃ k, s k = q
  · obtain ⟨k, rfl⟩ := h
    rw [rowStep_hit hs, if_pos ⟨k, rfl⟩, h11, mul_zero, zero_add]
    rw [Finset.sum_eq_single k]
    · rw [if_pos rfl, mul_one]
    · intro k' _ hk'
      rw [if_neg (fun e => hk' (hs e)), mul_zero]
    · intro h; exact absurd (Finset.mem_univ k) h
  · rw [rowStep_miss base cur (fun k hk => h ⟨k, hk⟩), if_neg h, sub_zero, mul_one]
    rw [Finset.sum_eq_zero, add_zero]
    intro k _
    rw [if_neg (fun e => h ⟨k, e⟩), mul_zero]

end Cert.Spec

end
-- ==== Proof.PreDecode.lean ====
/-
  What the precondition says of the two label tables: every entry is a column of the 1600-class arrays, and within a
  level no column occurs twice.
-/
import proofs.«406901_j39470749450916_2_alg».proof.Pre_finite_inputs
import proofs.«406901_j39470749450916_2_alg».proof.Proof.Gen.Pre_finite_inputs
import proofs.«406901_j39470749450916_2_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Pre_finite_inputs

/-! ## Words -/

/-- A 32-bit word that is signed-at-least 0 and signed-below 1600 has value below 1600. -/
private theorem toNat_lt_of_range (x : BitVec 32)
    (h : IntOp.andi (IntOp.cmpi .sge x 0#32) (IntOp.cmpi .slt x 1600#32) = 1#1) : x.toNat < 1600 := by
  obtain ⟨h1, h2⟩ := IntOp.andi_eq_one.1 h
  rw [IntOp.cmpi_sge] at h1
  rw [IntOp.cmpi_slt] at h2
  have e0 : (0#32 : BitVec 32).toInt = 0 := by decide
  have e1 : (1600#32 : BitVec 32).toInt = 1600 := by decide
  rw [e0] at h1
  rw [e1] at h2
  have hx := x.isLt
  rw [BitVec.toInt_eq_toNat_cond] at h1 h2
  split at h1
  · omega
  · omega

/-- Two positions below 256 that differ have different 32-bit words; so "the entries differ or the positions are equal"
    at two different positions says the entries differ. -/
private theorem ne_of_ori (x y : BitVec 32) (p q : Fin 256) (hpq : p ≠ q)
    (h : IntOp.ori (IntOp.cmpi .ne x y) (IntOp.cmpi .eq (BitVec.ofNat 32 p.val) (BitVec.ofNat 32 q.val)) = 1#1) : x ≠ y := by
  rcases IntOp.ori_eq_one.1 h with h1 | h2
  · exact IntOp.cmpi_ne.1 h1
  · exfalso
    have e := congrArg BitVec.toNat (IntOp.cmpi_eq.1 h2)
    rw [BitVec.toNat_ofNat, BitVec.toNat_ofNat] at e
    have hp := p.isLt
    have hq := q.isLt
    exact hpq (Fin.ext (by omega))

/-! ## The two broadcasts of a table to levels × positions × positions, read at an index -/

/-- Along axes 0 and 1: entry (l, p, q) is the table's entry (l, p). -/
private theorem bcast01_apply (T : IVec S4x256 32) (l : Fin 4) (p q : Fin 256) :
    broadcastInDim S4x256x256 ![0, 1] Facts.bcast_S4x256_S4x256x256_0_1 T (ix3 l p q) = T (ix2 l p) := by
  simp only [broadcastInDim]
  congr 1
  funext a
  match a with
  | ⟨0, _⟩ =>
    apply Fin.ext
    split
    · next h1 => change (4 : Nat) = 1 at h1; omega
    · rfl
  | ⟨1, _⟩ =>
    apply Fin.ext
    split
    · next h1 => change (256 : Nat) = 1 at h1; omega
    · rfl

/-- Along axes 0 and 2: entry (l, p, q) is the table's entry (l, q). -/
private theorem bcast02_apply (T : IVec S4x256 32) (l : Fin 4) (p q : Fin 256) :
    broadcastInDim S4x256x256 ![0, 2] Facts.bcast_S4x256_S4x256x256_0_2 T (ix3 l p q) = T (ix2 l q) := by
  simp only [broadcastInDim]
  congr 1
  funext a
  match a with
  | ⟨0, _⟩ =>
    apply Fin.ext
    split
    · next h1 => change (4 : Nat) = 1 at h1; omega
    · rfl
  | ⟨1, _⟩ =>
    apply Fin.ext
    split
    · next h1 => change (256 : Nat) = 1 at h1; omega
    · rfl

/-! ## One table -/

private instance : Subsingleton S_.Idx := ⟨fun a b => funext fun d => d.elim0⟩

/-- The range conjunct and the distinctness conjunct of one table, both 1, give the table's facts. -/
private theorem labels_of_conjuncts (T : IVec S4x256 32)
    (hr : Host.reduce IntOp.andi
        (andi (cmpi .sge T (broadcastInDim S4x256 ![] Facts.bcast_S_S4x256 (constantI S_ 32 0#32)))
          (cmpi .slt T (broadcastInDim S4x256 ![] Facts.bcast_S_S4x256 (constantI S_ 32 1600#32))))
        (constantI S_ 1 1#1) Facts.reducesTo_S4x256_S_d0_1 Facts.h_S_ ix0 = 1#1)
    (hd : Host.reduce IntOp.andi
        (ori (cmpi .ne (broadcastInDim S4x256x256 ![0, 1] Facts.bcast_S4x256_S4x256x256_0_1 T)
            (broadcastInDim S4x256x256 ![0, 2] Facts.bcast_S4x256_S4x256x256_0_2 T))
          (cmpi .eq (iotaInDim S4x256x256 32 1) (iotaInDim S4x256x256 32 2)))
        (constantI S_ 1 1#1) Facts.reducesTo_S4x256x256_S_d0_1_2 Facts.h_S_ ix0 = 1#1) :
    Cert.Spec.Labels T := by
  constructor
  · intro l k
    have e := Host.reduce_andi_all _ _ _ _ _ hr (ix2 l k)
    exact toNat_lt_of_range _ e
  · intro l p q hpq
    have e := Host.reduce_andi_all _ _ _ _ _ hd (ix3 l p q)
    have e' : IntOp.ori (IntOp.cmpi .ne (T (ix2 l p)) (T (ix2 l q)))
        (IntOp.cmpi .eq (BitVec.ofNat 32 p.val) (BitVec.ofNat 32 q.val)) = 1#1 := by
      rw [← bcast01_apply T l p q, ← bcast02_apply T l p q]
      exact e
    exact ne_of_ori _ _ p q hpq e'

/-- The printed precondition, all ones, gives both tables' range and distinctness facts. -/
theorem labels_of_pre (a0 : FVec Ideal S8192x1600 .f32) (a1 : FVec Ideal S8192x6400 .f32) (a2 a3 : IVec S4x256 32)
    (h : Cert.Pre_finite_inputs.fn (F := Ideal) a0 a1 a2 a3 = fun _ => 1#1) :
    Cert.Spec.Labels a2 ∧ Cert.Spec.Labels a3 := by
  have h0 := congrFun h ix0
  dsimp only [fn, fn_part1, fn_part2] at h0
  obtain ⟨h5, h39⟩ := IntOp.andi_eq_one.1 h0
  obtain ⟨h4, h30⟩ := IntOp.andi_eq_one.1 h5
  obtain ⟨h3, h21⟩ := IntOp.andi_eq_one.1 h4
  obtain ⟨_, h14⟩ := IntOp.andi_eq_one.1 h3
  exact ⟨labels_of_conjuncts a2 h14 h30, labels_of_conjuncts a3 h21 h39⟩

end Cert.PreDecode

end
-- ==== Proof.LibScatterSet.lean ====
/-
  A `stablehlo.scatter` whose body returns the update (`x.at[idx].set(u)`), read at one index.

  The model runs the updates in row-major order, each replacing the operand's element at the place it lands on
  (its result index) when that place is inside the operand. If no two updates land on the same place, the order
  does not matter: the result at a place some update lands on is that update, and everywhere else it is the operand.
  Nothing here names a program: the lemmas hold for any dimension numbers, shapes and element type.
-/
import Idealize.ShloMosaic.PureOps.ShapeOps

namespace Idealize.ShloMosaic.Host

variable {α : Type} {s si u : Shape} {w : Nat}

/-- One step of the fold: update `j` written over `r`. -/
private def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

private theorem scatter_eq_foldl (d : ScatterDims s si u) (x : s.Idx → α) (idx : IVec si w) (upd : u.Idx → α) :
    Host.scatter d (fun _ b => b) x idx upd = (List.finRange u.numel).foldl (setStep d idx upd) x := rfl

/-- A fold of set-steps over positions none of which lands on `i` leaves `i` as it was. -/
private theorem foldl_setStep_miss (d : ScatterDims s si u) (idx : IVec si w) (upd : u.Idx → α) (i : s.Idx) :
    ∀ (l : List (Fin u.numel)) (r : s.Idx → α), (∀ n ∈ l, d.resultIdx? (u.rowMajor.symm n) idx ≠ some i) →
      l.foldl (setStep d idx upd) r i = r i
  | [], _, _ => rfl
  | n :: l, r, h => by
    rw [List.foldl_cons, foldl_setStep_miss d idx upd i l _ (fun n' hn' => h n' (List.mem_cons_of_mem _ hn'))]
    have hn := h n List.mem_cons_self
    unfold setStep
    cases hres : d.resultIdx? (u.rowMajor.symm n) idx with
    | none => rfl
    | some i0 =>
      have hne : i ≠ i0 := fun hi => hn (by rw [hres, hi])
      show (if i = i0 then upd (u.rowMajor.symm n) else r i) = r i
      rw [if_neg hne]

/-- A fold of set-steps over a list without repeats in which position `n₀` lands on `i` and no other position does
    leaves `n₀`'s update at `i`. -/
private theorem foldl_setStep_hit (d : ScatterDims s si u) (idx : IVec si w) (upd : u.Idx → α) (i : s.Idx) (n₀ : Fin u.numel)
    (h₀ : d.resultIdx? (u.rowMajor.symm n₀) idx = some i)
    (huniq : ∀ n, d.resultIdx? (u.rowMajor.symm n) idx = some i → n = n₀) :
    ∀ (l : List (Fin u.numel)) (r : s.Idx → α), l.Nodup → n₀ ∈ l →
      l.foldl (setStep d idx upd) r i = upd (u.rowMajor.symm n₀)
  | [], _, _, hm => nomatch hm
  | n :: l, r, hnd, hm => by
    rw [List.foldl_cons]
    rcases List.mem_cons.1 hm with rfl | hm'
    · rw [foldl_setStep_miss d idx upd i l _ (fun n' hn' e => by
        have := huniq n' e
        subst this
        exact (List.nodup_cons.1 hnd).1 hn')]
      unfold setStep
      rw [h₀]
      exact if_pos rfl
    · exact foldl_setStep_hit d idx upd i n₀ h₀ huniq l _ (List.nodup_cons.1 hnd).2 hm'

/-- Where update `j` lands on `i` and no other update does, the scatter's result at `i` is update `j`. -/
theorem scatter_set_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  rw [scatter_eq_foldl]
  have e : u.rowMajor.symm (u.rowMajor j) = j := Equiv.symm_apply_apply _ _
  rw [foldl_setStep_hit d idx upd i (u.rowMajor j) (by rw [e]; exact hj)
    (fun n hn => by
      have := huniq _ hn
      rw [← this, Equiv.apply_symm_apply])
    _ x (List.nodup_finRange _) (List.mem_finRange _), e]

/-- Where no update lands on `i`, the scatter's result at `i` is the operand's. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_eq_foldl]
  exact foldl_setStep_miss d idx upd i _ x (fun n _ => h _)

end Idealize.ShloMosaic.Host
-- ==== Proof.RefReads.lean ====
/-
  One level of the reference, read at an index.

  A level takes the current array and a base array, gathers the current array's columns at one row of a label table
  and the base array's columns at a row of the other, adds the two, and scatters the sums into the current array at
  the second row's columns. Both rows pass through numpy's negative-index wrap (`x + 1600` where `x < 0`) first; an
  entry that is a column (0 ≤ x < 1600) is its own wrap, the gather's clamp leaves it alone, and the scatter keeps
  it. When the scatter row names no column twice, the updates of one array row land on pairwise distinct places, so
  the scatter is read by position (Proof/LibScatterSet.lean) and the level is `Cert.Spec.rowStep` along each row —
  along each (row, coordinate) line for the rows × classes × coordinates array.
-/
import proofs.«406901_j39470749450916_2_alg».proof.Proof.Gen.ReferenceIdeal
import proofs.«406901_j39470749450916_2_alg».proof.Proof.LibScatterSet
import proofs.«406901_j39470749450916_2_alg».proof.Proof.Spec
import Idealize.ShloMosaic.Lib.StableHlo.Predicate

noncomputable section

namespace Cert.ReferenceIdeal.RefReads

open Cert.ReferenceIdeal Cert.ReferenceIdeal.Gen Idealize.ShloMosaic Idealize.ShloMosaic.ValueIdx

/-- A level's index row with negative entries wrapped, as the [256, 1] start indices the gather and scatter take. -/
def wrap (x : IVec S256 32) : IVec S256x1 32 :=
  broadcastInDim S256x1 ![0] bcast_S256_S256x1_0
    (select (cmpi .slt x (broadcastInDim S256 ![] bcast_S_S256 (constantI S_ 32 0#32)))
      (addi x (broadcastInDim S256 ![] bcast_S_S256 (constantI S_ 32 1600#32))) x)

/-- Entry `k` of an index row as a class column (the entry itself when it is one). -/
def rcol (x : IVec S256 32) (k : Fin 256) : Fin 1600 := ⟨(x (ix1 k)).toNat % 1600, Nat.mod_lt _ (by decide)⟩

/-- One level on the rows × classes array: scatter at `rs`, gather the current array at `rg` and the base at `rs`. -/
def lvl2 (rs rg : IVec S256 32) (base cur : FVec Ideal S8192x1600 .f32) : FVec Ideal S8192x1600 .f32 :=
  Host.scatter scatter_S8192x1600_S256x1_S8192x256_0_1_1_1 (fun _ b => b) cur (wrap rs)
    (addf (Host.gather gather_S8192x1600_S256x1_S8192x256_0_1_n_n_1_1_81921 cur (wrap rg))
      (Host.gather gather_S8192x1600_S256x1_S8192x256_0_1_n_n_1_1_81921 base (wrap rs)))

/-- One level on the rows × classes × coordinates array. -/
def lvl3 (rs rg : IVec S256 32) (base cur : FVec Ideal S8192x1600x4 .f32) : FVec Ideal S8192x1600x4 .f32 :=
  Host.scatter scatter_S8192x1600x4_S256x1_S8192x256x4_02_1_1_1 (fun _ b => b) cur (wrap rs)
    (addf (Host.gather gather_S8192x1600x4_S256x1_S8192x256x4_02_1_n_n_1_1_819214 cur (wrap rg))
      (Host.gather gather_S8192x1600x4_S256x1_S8192x256x4_02_1_n_n_1_1_819214 base (wrap rs)))

/-! ## The wrap at a column entry -/

/-- An entry that is a column is not negative, so the wrap keeps it: row `k` of the [256, 1] start indices is the entry. -/
private theorem wrap_apply (x : IVec S256 32) (k : Fin 256) (h : (x (ix1 k)).toNat < 1600) :
    wrap x (ix2 k (0 : Fin 1)) = x (ix1 k) := by
  have hidx : (fun a : Fin S256.rank =>
      if h1 : S256.size a = 1 then (⟨0, by omega⟩ : Fin (S256.size a))
      else ⟨((ix2 k (0 : Fin 1) : S256x1.Idx) ((![0] : Fin 1 → Fin S256x1.rank) a)).val, by
        rcases bcast_S256_S256x1_0.2 a with h2 | h2
        · exact absurd h2 h1
        · rw [h2]; exact ((ix2 k (0 : Fin 1) : S256x1.Idx) _).isLt⟩) = ix1 k := by
    funext a
    match a with
    | ⟨0, _⟩ => rfl
  show select _ _ x _ = _
  rw [hidx]
  show Scalar.select (IntOp.cmpi .slt (x (ix1 k)) 0#32) _ (x (ix1 k)) = _
  have hc : ¬ IntOp.cmpi .slt (x (ix1 k)) 0#32 = 1 := by
    intro hc
    have := (StableHlo.Predicate.slt_iff_toNat (by omega) (by decide)).1 hc
    exact absurd this (Nat.not_lt_zero _)
  exact if_neg hc

/-- Read signed, a wrapped column entry is the column. -/
private theorem wrap_toInt (x : IVec S256 32) (k : Fin 256) (h : (x (ix1 k)).toNat < 1600) :
    (wrap x (ix2 k (0 : Fin 1))).toInt = ((rcol x k).val : Int) := by
  rw [wrap_apply x k h, StableHlo.Predicate.toInt_eq_toNat_of_lt (by omega)]
  show ((x (ix1 k)).toNat : Int) = (((x (ix1 k)).toNat % 1600 : Nat) : Int)
  rw [Nat.mod_eq_of_lt h]

/-! ## The rows × classes array -/

private abbrev G2 := gather_S8192x1600_S256x1_S8192x256_0_1_n_n_1_1_81921
private abbrev Sc2 := scatter_S8192x1600_S256x1_S8192x256_0_1_1_1

private theorem g2_start0 (j : S8192x256.Idx) (idx : IVec S256x1 32) : G2.start j idx 0 = 0 := by
  unfold GatherDims.start
  rw [dif_neg (by decide)]

private theorem g2_off0 (j : S8192x256.Idx) : G2.offCoord j 0 = (j 0).val := by
  unfold GatherDims.offCoord
  rw [dif_pos (by decide)]
  rfl

private theorem g2_off1 (j : S8192x256.Idx) : G2.offCoord j 1 = 0 := by
  unfold GatherDims.offCoord
  rw [dif_neg (by decide)]

private theorem g2_start1 (n : Fin 8192) (k : Fin 256) (idx : IVec S256x1 32) :
    G2.start (ix2 n k) idx 1 = min (idx (ix2 k (0 : Fin 1))).toInt.toNat 1599 := by
  unfold GatherDims.start
  rw [dif_pos (by decide)]
  have hsi : G2.siIdx (ix2 n k) ⟨List.idxOf (1 : Fin 2) G2.startIndexMap, List.idxOf_lt_length_iff.2 (by decide)⟩
      = ix2 k (0 : Fin 1) := by
    funext b; refine Fin.ext ?_
    match b with
    | ⟨0, _⟩ => rfl
    | ⟨1, _⟩ => rfl
  rw [hsi]
  rfl

/-- The gather at `(n, k)` reads row `n` of the operand at the column that start index `k`, read signed, clamps to. -/
private theorem gather2_apply {α : Type} (x : S8192x1600.Idx → α) (idx : IVec S256x1 32) (n : Fin 8192) (k : Fin 256) :
    Host.gather G2 x idx (ix2 n k)
      = x (ix2 n ⟨min (idx (ix2 k (0 : Fin 1))).toInt.toNat 1599, by omega⟩) := by
  unfold Host.gather
  congr 1
  funext a
  refine Fin.ext ?_
  match a with
  | ⟨0, _⟩ =>
    show GatherDims.start _ _ idx 0 + GatherDims.batchCoord _ _ 0 + GatherDims.offCoord _ _ 0 = n.val
    rw [GatherDims.batchCoord_eq_zero _ _ _ List.not_mem_nil, g2_start0, g2_off0]
    exact Nat.zero_add _
  | ⟨1, _⟩ =>
    show GatherDims.start _ _ idx 1 + GatherDims.batchCoord _ _ 1 + GatherDims.offCoord _ _ 1 = _
    rw [GatherDims.batchCoord_eq_zero _ _ _ List.not_mem_nil, g2_start1, g2_off1]
    rfl

/-- At a row of columns the clamp is the identity: the gather reads column `rcol r k`. -/
private theorem gather2_wrap {α : Type} (x : S8192x1600.Idx → α) (r : IVec S256 32) (hr : ∀ k : Fin 256, (r (ix1 k)).toNat < 1600)
    (n : Fin 8192) (k : Fin 256) : Host.gather G2 x (wrap r) (ix2 n k) = x (ix2 n (rcol r k)) := by
  rw [gather2_apply]
  congr 2
  refine Fin.ext ?_
  show min (wrap r (ix2 k (0 : Fin 1))).toInt.toNat 1599 = (rcol r k).val
  rw [wrap_toInt r k (hr k), Int.toNat_natCast]
  have := (rcol r k).isLt
  omega

private theorem s2_start0 (j : S8192x256.Idx) (idx : IVec S256x1 32) : Sc2.start j idx 0 = 0 := by
  unfold ScatterDims.start
  rw [dif_neg (by decide)]

private theorem s2_window0 (j : S8192x256.Idx) : Sc2.window j 0 = (j 0).val := by
  unfold ScatterDims.window
  rw [dif_pos (by decide)]
  rfl

private theorem s2_window1 (j : S8192x256.Idx) : Sc2.window j 1 = 0 := by
  unfold ScatterDims.window
  rw [dif_neg (by decide)]

private theorem s2_start1 (n : Fin 8192) (k : Fin 256) (idx : IVec S256x1 32) :
    Sc2.start (ix2 n k) idx 1 = (idx (ix2 k (0 : Fin 1))).toInt := by
  unfold ScatterDims.start
  rw [dif_pos (by decide)]
  have hsi : Sc2.siIdx (ix2 n k) ⟨List.idxOf (1 : Fin 2) Sc2.scatterDimsToOperandDims, List.idxOf_lt_length_iff.2 (by decide)⟩
      = ix2 k (0 : Fin 1) := by
    funext b; refine Fin.ext ?_
    match b with
    | ⟨0, _⟩ => rfl
    | ⟨1, _⟩ => rfl
  rw [hsi]

/-- Update `(n, k)` lands on `(n, c)` when start index `k`, read signed, is the column `c`. -/
private theorem s2_resultIdx (idx : IVec S256x1 32) (n : Fin 8192) (k : Fin 256) (c : Fin 1600)
    (hc : (idx (ix2 k (0 : Fin 1))).toInt = (c.val : Int)) :
    Sc2.resultIdx? (ix2 n k) idx = some (ix2 n c) := by
  have h0 : Sc2.start (ix2 n k) idx 0 + (Sc2.window (ix2 n k) 0 : Int) = (n.val : Int) := by
    rw [s2_start0, s2_window0, Int.zero_add]
  have h1 : Sc2.start (ix2 n k) idx 1 + (Sc2.window (ix2 n k) 1 : Int) = (c.val : Int) := by
    rw [s2_start1, s2_window1, hc]; rfl
  have hn := n.isLt
  have hcl := c.isLt
  have hall : ∀ a, 0 ≤ Sc2.start (ix2 n k) idx a + (Sc2.window (ix2 n k) a : Int)
      ∧ Sc2.start (ix2 n k) idx a + (Sc2.window (ix2 n k) a : Int) < (S8192x1600.size a : Int) := by
    intro a
    match a with
    | ⟨0, _⟩ =>
      show 0 ≤ Sc2.start (ix2 n k) idx 0 + (Sc2.window (ix2 n k) 0 : Int)
        ∧ Sc2.start (ix2 n k) idx 0 + (Sc2.window (ix2 n k) 0 : Int) < (8192 : Int)
      rw [h0]; omega
    | ⟨1, _⟩ =>
      show 0 ≤ Sc2.start (ix2 n k) idx 1 + (Sc2.window (ix2 n k) 1 : Int)
        ∧ Sc2.start (ix2 n k) idx 1 + (Sc2.window (ix2 n k) 1 : Int) < (1600 : Int)
      rw [h1]; omega
  unfold ScatterDims.resultIdx?
  rw [dif_pos hall]
  congr 1
  funext a
  refine Fin.ext ?_
  match a with
  | ⟨0, _⟩ =>
    show (Sc2.start (ix2 n k) idx 0 + (Sc2.window (ix2 n k) 0 : Int)).toNat = n.val
    rw [h0]; rfl
  | ⟨1, _⟩ =>
    show (Sc2.start (ix2 n k) idx 1 + (Sc2.window (ix2 n k) 1 : Int)).toNat = c.val
    rw [h1]; rfl

theorem lvl2_apply (rs rg : IVec S256 32) (hs : ∀ k : Fin 256, (rs (ix1 k)).toNat < 1600) (hg : ∀ k : Fin 256, (rg (ix1 k)).toNat < 1600)
    (hinj : Function.Injective (rcol rs)) (base cur : FVec Ideal S8192x1600 .f32) (n : Fin 8192) (q : Fin 1600) :
    lvl2 rs rg base cur (ix2 n q)
      = Cert.Spec.rowStep (rcol rs) (rcol rg) (fun q' => base (ix2 n q')) (fun q' => cur (ix2 n q')) q := by
  have hres : ∀ (n' : Fin 8192) (k' : Fin 256), Sc2.resultIdx? (ix2 n' k') (wrap rs) = some (ix2 n' (rcol rs k')) :=
    fun n' k' => s2_resultIdx (wrap rs) n' k' (rcol rs k') (wrap_toInt rs k' (hs k'))
  unfold lvl2
  by_cases hq : ∃ k, rcol rs k = q
  · obtain ⟨k, rfl⟩ := hq
    rw [Host.scatter_set_hit Sc2 cur (wrap rs) _ (ix2 n (rcol rs k)) (ix2 n k) (hres n k) (by
      intro j' hj'
      obtain ⟨n', k', rfl⟩ : ∃ n' k', j' = ix2 n' k' := ⟨j' 0, j' 1, eq_ix2 j'⟩
      rw [hres] at hj'
      have he := Option.some.inj hj'
      have hn : n' = n := congrFun he 0
      have hk : rcol rs k' = rcol rs k := congrFun he 1
      rw [hn, hinj hk])]
    rw [Cert.Spec.rowStep_hit hinj, addf_apply, gather2_wrap _ _ hg, gather2_wrap _ _ hs]
  · rw [Host.scatter_set_miss Sc2 cur (wrap rs) _ (ix2 n q) (by
      intro j' hj'
      obtain ⟨n', k', rfl⟩ : ∃ n' k', j' = ix2 n' k' := ⟨j' 0, j' 1, eq_ix2 j'⟩
      rw [hres] at hj'
      have he := Option.some.inj hj'
      exact hq ⟨k', congrFun he 1⟩)]
    rw [Cert.Spec.rowStep_miss _ _ (fun k hk => hq ⟨k, hk⟩)]

/-! ## The rows × classes × coordinates array -/

private abbrev G3 := gather_S8192x1600x4_S256x1_S8192x256x4_02_1_n_n_1_1_819214
private abbrev Sc3 := scatter_S8192x1600x4_S256x1_S8192x256x4_02_1_1_1

private theorem g3_start0 (j : S8192x256x4.Idx) (idx : IVec S256x1 32) : G3.start j idx 0 = 0 := by
  unfold GatherDims.start
  rw [dif_neg (by decide)]

private theorem g3_start2 (j : S8192x256x4.Idx) (idx : IVec S256x1 32) : G3.start j idx 2 = 0 := by
  unfold GatherDims.start
  rw [dif_neg (by decide)]

private theorem g3_off0 (j : S8192x256x4.Idx) : G3.offCoord j 0 = (j 0).val := by
  unfold GatherDims.offCoord
  rw [dif_pos (by decide)]
  rfl

private theorem g3_off1 (j : S8192x256x4.Idx) : G3.offCoord j 1 = 0 := by
  unfold GatherDims.offCoord
  rw [dif_neg (by decide)]

private theorem g3_off2 (j : S8192x256x4.Idx) : G3.offCoord j 2 = (j 2).val := by
  unfold GatherDims.offCoord
  rw [dif_pos (by decide)]
  rfl

private theorem g3_start1 (n : Fin 8192) (k : Fin 256) (f : Fin 4) (idx : IVec S256x1 32) :
    G3.start (ix3 n k f) idx 1 = min (idx (ix2 k (0 : Fin 1))).toInt.toNat 1599 := by
  unfold GatherDims.start
  rw [dif_pos (by decide)]
  have hsi : G3.siIdx (ix3 n k f) ⟨List.idxOf (1 : Fin 3) G3.startIndexMap, List.idxOf_lt_length_iff.2 (by decide)⟩
      = ix2 k (0 : Fin 1) := by
    funext b; refine Fin.ext ?_
    match b with
    | ⟨0, _⟩ => rfl
    | ⟨1, _⟩ => rfl
  rw [hsi]
  rfl

/-- The gather at `(n, k, f)` reads the operand at row `n`, coordinate `f` and the column that start index `k`, read
    signed, clamps to. -/
private theorem gather3_apply {α : Type} (x : S8192x1600x4.Idx → α) (idx : IVec S256x1 32) (n : Fin 8192) (k : Fin 256) (f : Fin 4) :
    Host.gather G3 x idx (ix3 n k f)
      = x (ix3 n ⟨min (idx (ix2 k (0 : Fin 1))).toInt.toNat 1599, by omega⟩ f) := by
  unfold Host.gather
  congr 1
  funext a
  refine Fin.ext ?_
  match a with
  | ⟨0, _⟩ =>
    show GatherDims.start _ _ idx 0 + GatherDims.batchCoord _ _ 0 + GatherDims.offCoord _ _ 0 = n.val
    rw [GatherDims.batchCoord_eq_zero _ _ _ List.not_mem_nil, g3_start0, g3_off0]
    exact Nat.zero_add _
  | ⟨1, _⟩ =>
    show GatherDims.start _ _ idx 1 + GatherDims.batchCoord _ _ 1 + GatherDims.offCoord _ _ 1 = _
    rw [GatherDims.batchCoord_eq_zero _ _ _ List.not_mem_nil, g3_start1, g3_off1]
    rfl
  | ⟨2, _⟩ =>
    show GatherDims.start _ _ idx 2 + GatherDims.batchCoord _ _ 2 + GatherDims.offCoord _ _ 2 = f.val
    rw [GatherDims.batchCoord_eq_zero _ _ _ List.not_mem_nil, g3_start2, g3_off2]
    exact Nat.zero_add _

/-- At a row of columns the clamp is the identity: the gather reads column `rcol r k`. -/
private theorem gather3_wrap {α : Type} (x : S8192x1600x4.Idx → α) (r : IVec S256 32) (hr : ∀ k : Fin 256, (r (ix1 k)).toNat < 1600)
    (n : Fin 8192) (k : Fin 256) (f : Fin 4) : Host.gather G3 x (wrap r) (ix3 n k f) = x (ix3 n (rcol r k) f) := by
  rw [gather3_apply]
  congr 2
  refine Fin.ext ?_
  show min (wrap r (ix2 k (0 : Fin 1))).toInt.toNat 1599 = (rcol r k).val
  rw [wrap_toInt r k (hr k), Int.toNat_natCast]
  have := (rcol r k).isLt
  omega

private theorem s3_start0 (j : S8192x256x4.Idx) (idx : IVec S256x1 32) : Sc3.start j idx 0 = 0 := by
  unfold ScatterDims.start
  rw [dif_neg (by decide)]

private theorem s3_start2 (j : S8192x256x4.Idx) (idx : IVec S256x1 32) : Sc3.start j idx 2 = 0 := by
  unfold ScatterDims.start
  rw [dif_neg (by decide)]

private theorem s3_window0 (j : S8192x256x4.Idx) : Sc3.window j 0 = (j 0).val := by
  unfold ScatterDims.window
  rw [dif_pos (by decide)]
  rfl

private theorem s3_window1 (j : S8192x256x4.Idx) : Sc3.window j 1 = 0 := by
  unfold ScatterDims.window
  rw [dif_neg (by decide)]

private theorem s3_window2 (j : S8192x256x4.Idx) : Sc3.window j 2 = (j 2).val := by
  unfold ScatterDims.window
  rw [dif_pos (by decide)]
  rfl

private theorem s3_start1 (n : Fin 8192) (k : Fin 256) (f : Fin 4) (idx : IVec S256x1 32) :
    Sc3.start (ix3 n k f) idx 1 = (idx (ix2 k (0 : Fin 1))).toInt := by
  unfold ScatterDims.start
  rw [dif_pos (by decide)]
  have hsi : Sc3.siIdx (ix3 n k f) ⟨List.idxOf (1 : Fin 3) Sc3.scatterDimsToOperandDims, List.idxOf_lt_length_iff.2 (by decide)⟩
      = ix2 k (0 : Fin 1) := by
    funext b; refine Fin.ext ?_
    match b with
    | ⟨0, _⟩ => rfl
    | ⟨1, _⟩ => rfl
  rw [hsi]

/-- Update `(n, k, f)` lands on `(n, c, f)` when start index `k`, read signed, is the column `c`. -/
private theorem s3_resultIdx (idx : IVec S256x1 32) (n : Fin 8192) (k : Fin 256) (f : Fin 4) (c : Fin 1600)
    (hc : (idx (ix2 k (0 : Fin 1))).toInt = (c.val : Int)) :
    Sc3.resultIdx? (ix3 n k f) idx = some (ix3 n c f) := by
  have h0 : Sc3.start (ix3 n k f) idx 0 + (Sc3.window (ix3 n k f) 0 : Int) = (n.val : Int) := by
    rw [s3_start0, s3_window0, Int.zero_add]
  have h1 : Sc3.start (ix3 n k f) idx 1 + (Sc3.window (ix3 n k f) 1 : Int) = (c.val : Int) := by
    rw [s3_start1, s3_window1, hc]; rfl
  have h2 : Sc3.start (ix3 n k f) idx 2 + (Sc3.window (ix3 n k f) 2 : Int) = (f.val : Int) := by
    rw [s3_start2, s3_window2, Int.zero_add]
  have hn := n.isLt
  have hcl := c.isLt
  have hf := f.isLt
  have hall : ∀ a, 0 ≤ Sc3.start (ix3 n k f) idx a + (Sc3.window (ix3 n k f) a : Int)
      ∧ Sc3.start (ix3 n k f) idx a + (Sc3.window (ix3 n k f) a : Int) < (S8192x1600x4.size a : Int) := by
    intro a
    match a with
    | ⟨0, _⟩ =>
      show 0 ≤ Sc3.start (ix3 n k f) idx 0 + (Sc3.window (ix3 n k f) 0 : Int)
        ∧ Sc3.start (ix3 n k f) idx 0 + (Sc3.window (ix3 n k f) 0 : Int) < (8192 : Int)
      rw [h0]; omega
    | ⟨1, _⟩ =>
      show 0 ≤ Sc3.start (ix3 n k f) idx 1 + (Sc3.window (ix3 n k f) 1 : Int)
        ∧ Sc3.start (ix3 n k f) idx 1 + (Sc3.window (ix3 n k f) 1 : Int) < (1600 : Int)
      rw [h1]; omega
    | ⟨2, _⟩ =>
      show 0 ≤ Sc3.start (ix3 n k f) idx 2 + (Sc3.window (ix3 n k f) 2 : Int)
        ∧ Sc3.start (ix3 n k f) idx 2 + (Sc3.window (ix3 n k f) 2 : Int) < (4 : Int)
      rw [h2]; omega
  unfold ScatterDims.resultIdx?
  rw [dif_pos hall]
  congr 1
  funext a
  refine Fin.ext ?_
  match a with
  | ⟨0, _⟩ =>
    show (Sc3.start (ix3 n k f) idx 0 + (Sc3.window (ix3 n k f) 0 : Int)).toNat = n.val
    rw [h0]; rfl
  | ⟨1, _⟩ =>
    show (Sc3.start (ix3 n k f) idx 1 + (Sc3.window (ix3 n k f) 1 : Int)).toNat = c.val
    rw [h1]; rfl
  | ⟨2, _⟩ =>
    show (Sc3.start (ix3 n k f) idx 2 + (Sc3.window (ix3 n k f) 2 : Int)).toNat = f.val
    rw [h2]; rfl

theorem lvl3_apply (rs rg : IVec S256 32) (hs : ∀ k : Fin 256, (rs (ix1 k)).toNat < 1600) (hg : ∀ k : Fin 256, (rg (ix1 k)).toNat < 1600)
    (hinj : Function.Injective (rcol rs)) (base cur : FVec Ideal S8192x1600x4 .f32) (n : Fin 8192) (q : Fin 1600) (f : Fin 4) :
    lvl3 rs rg base cur (ix3 n q f)
      = Cert.Spec.rowStep (rcol rs) (rcol rg) (fun q' => base (ix3 n q' f)) (fun q' => cur (ix3 n q' f)) q := by
  have hres : ∀ (n' : Fin 8192) (k' : Fin 256) (f' : Fin 4),
      Sc3.resultIdx? (ix3 n' k' f') (wrap rs) = some (ix3 n' (rcol rs k') f') :=
    fun n' k' f' => s3_resultIdx (wrap rs) n' k' f' (rcol rs k') (wrap_toInt rs k' (hs k'))
  unfold lvl3
  by_cases hq : ∃ k, rcol rs k = q
  · obtain ⟨k, rfl⟩ := hq
    rw [Host.scatter_set_hit Sc3 cur (wrap rs) _ (ix3 n (rcol rs k) f) (ix3 n k f) (hres n k f) (by
      intro j' hj'
      obtain ⟨n', k', f', rfl⟩ : ∃ n' k' f', j' = ix3 n' k' f' := ⟨j' 0, j' 1, j' 2, eq_ix3 j'⟩
      rw [hres] at hj'
      have he := Option.some.inj hj'
      have hn : n' = n := congrFun he 0
      have hk : rcol rs k' = rcol rs k := congrFun he 1
      have hf : f' = f := congrFun he 2
      rw [hn, hinj hk, hf])]
    rw [Cert.Spec.rowStep_hit hinj, addf_apply, gather3_wrap _ _ hg, gather3_wrap _ _ hs]
  · rw [Host.scatter_set_miss Sc3 cur (wrap rs) _ (ix3 n q f) (by
      intro j' hj'
      obtain ⟨n', k', f', rfl⟩ : ∃ n' k' f', j' = ix3 n' k' f' := ⟨j' 0, j' 1, j' 2, eq_ix3 j'⟩
      rw [hres] at hj'
      have he := Option.some.inj hj'
      exact hq ⟨k', congrFun he 1⟩)]
    rw [Cert.Spec.rowStep_miss _ _ (fun k hk => hq ⟨k, hk⟩)]

end Cert.ReferenceIdeal.RefReads

end
-- ==== Proof.RefValue.lean ====
/-
  The reference's run ends at the specification: its class result is `Gcls` of the argument arrays and its box
  result the flattening of `Gbox3` of the box argument seen as rows × classes × coordinates.

  The generated run states each level's array as the level function of the previous one (`RefReads.lvl2`, `lvl3`),
  with the level's index rows sliced from the two label tables. A sliced row at position `k` is the table's entry
  `(l, k)`; so under the tables' range and distinctness facts each level is `rowStep` at the table's columns
  along every row (`RefReads.lvl2_apply`, `lvl3_apply`), and four levels are `iter4`.
-/
import proofs.«406901_j39470749450916_2_alg».proof.Proof.Gen.ReferenceIdeal.Run
import proofs.«406901_j39470749450916_2_alg».proof.Proof.Spec
import proofs.«406901_j39470749450916_2_alg».proof.Proof.RefReads
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.Value Cert.ReferenceIdeal.RefReads
open Idealize.ShloMosaic Idealize.ShloMosaic.TcCoe Idealize.SL.Sem Idealize.ShloMosaic.ValueIdx Idealize.ShloMosaic.StableHlo
open Cert.Spec (Labels col rowStep iter4 Gcls Gbox3)

/-- Row `l` of a label table, sliced out and flattened, holds at position `k` the table's entry `(l, k)`. -/
theorem row_apply (T : IVec S4x256 32) (o : Nat) (h : S4x256.Slices ![o, 0] S1x256) (h' : S1x256.ShapeCasts S256)
    (l : Fin 4) (hl : l.val = o) (k : Fin 256) :
    shapeCast S256 (extractStridedSlice S1x256 ![o, 0] T h) h' (ix1 k) = T (ix2 l k) := by
  rw [shapeCast_1a_a_apply]
  refine extractStridedSlice_apply _ _ _ _ _ (fun a => ?_)
  match a with
  | ⟨0, _⟩ => show l.val = o + 0; omega
  | ⟨1, _⟩ => show k.val = 0 + k.val; omega

/-- What a label table's facts say of its row `l`: its entries are columns, its column map is injective, and that map
    is the table's. -/
theorem row_facts (T : IVec S4x256 32) (hT : Labels T) (o : Nat) (h : S4x256.Slices ![o, 0] S1x256) (h' : S1x256.ShapeCasts S256)
    (l : Fin 4) (hl : l.val = o) :
    (∀ k : Fin 256, ((shapeCast S256 (extractStridedSlice S1x256 ![o, 0] T h) h') (ix1 k)).toNat < 1600)
    ∧ Function.Injective (rcol (shapeCast S256 (extractStridedSlice S1x256 ![o, 0] T h) h'))
    ∧ rcol (shapeCast S256 (extractStridedSlice S1x256 ![o, 0] T h) h') = col T l := by
  have e : rcol (shapeCast S256 (extractStridedSlice S1x256 ![o, 0] T h) h') = col T l := by
    funext k
    refine Fin.ext ?_
    show ((shapeCast S256 (extractStridedSlice S1x256 ![o, 0] T h) h') (ix1 k)).toNat % 1600 = (T (ix2 l k)).toNat % 1600
    rw [row_apply T o h h' l hl k]
  refine ⟨fun k => ?_, ?_, e⟩
  · rw [row_apply T o h h' l hl k]; exact hT.inRange l k
  · rw [e]; exact hT.col_injective l

/-- A level's row is the row step of the rows. -/
theorem row_lvl2 (rs rg : IVec S256 32) (hs : ∀ k : Fin 256, (rs (ix1 k)).toNat < 1600) (hg : ∀ k : Fin 256, (rg (ix1 k)).toNat < 1600)
    (hinj : Function.Injective (rcol rs)) (base cur : FVec Ideal S8192x1600 .f32) (n : Fin 8192) :
    (fun q' : Fin 1600 => lvl2 rs rg base cur (ix2 n q'))
      = rowStep (rcol rs) (rcol rg) (fun q' => base (ix2 n q')) (fun q' => cur (ix2 n q')) :=
  funext fun q => lvl2_apply rs rg hs hg hinj base cur n q

/-- A level's (row, coordinate) line is the row step of the lines. -/
theorem row_lvl3 (rs rg : IVec S256 32) (hs : ∀ k : Fin 256, (rs (ix1 k)).toNat < 1600) (hg : ∀ k : Fin 256, (rg (ix1 k)).toNat < 1600)
    (hinj : Function.Injective (rcol rs)) (base cur : FVec Ideal S8192x1600x4 .f32) (n : Fin 8192) (f : Fin 4) :
    (fun q' : Fin 1600 => lvl3 rs rg base cur (ix3 n q' f))
      = rowStep (rcol rs) (rcol rg) (fun q' => base (ix3 n q' f)) (fun q' => cur (ix3 n q' f)) :=
  funext fun q => lvl3_apply rs rg hs hg hinj base cur n q f

variable (V0 : Valuation τ sig (Elt Ideal))

/-- The class result: four levels on the logits, scattered at the target table's rows, gathered at the source table's. -/
theorem cls_eq (h2 : Labels (V0 (Proc.devRef .tc main_arg2))) (h3 : Labels (V0 (Proc.devRef .tc main_arg3))) :
    lvl2 (res_main_v146 V0) (res_main_v148 V0) (V0 (Proc.devRef .tc main_arg0)) (res_main_v122 V0)
      = Gcls (V0 (Proc.devRef .tc main_arg0)) (V0 (Proc.devRef .tc main_arg2)) (V0 (Proc.devRef .tc main_arg3)) := by
  obtain ⟨s0, i0, e0⟩ := row_facts (V0 (Proc.devRef .tc main_arg2)) h2 0 slices_S4x256_S1x256_0_0 shapeCasts_S1x256_S256 0 rfl
  obtain ⟨s1, i1, e1⟩ := row_facts (V0 (Proc.devRef .tc main_arg2)) h2 1 slices_S4x256_S1x256_1_0 shapeCasts_S1x256_S256 1 rfl
  obtain ⟨s2, i2, e2⟩ := row_facts (V0 (Proc.devRef .tc main_arg2)) h2 2 slices_S4x256_S1x256_2_0 shapeCasts_S1x256_S256 2 rfl
  obtain ⟨s3, i3, e3⟩ := row_facts (V0 (Proc.devRef .tc main_arg2)) h2 3 slices_S4x256_S1x256_3_0 shapeCasts_S1x256_S256 3 rfl
  obtain ⟨g0, _, d0⟩ := row_facts (V0 (Proc.devRef .tc main_arg3)) h3 0 slices_S4x256_S1x256_0_0 shapeCasts_S1x256_S256 0 rfl
  obtain ⟨g1, _, d1⟩ := row_facts (V0 (Proc.devRef .tc main_arg3)) h3 1 slices_S4x256_S1x256_1_0 shapeCasts_S1x256_S256 1 rfl
  obtain ⟨g2, _, d2⟩ := row_facts (V0 (Proc.devRef .tc main_arg3)) h3 2 slices_S4x256_S1x256_2_0 shapeCasts_S1x256_S256 2 rfl
  obtain ⟨g3, _, d3⟩ := row_facts (V0 (Proc.devRef .tc main_arg3)) h3 3 slices_S4x256_S1x256_3_0 shapeCasts_S1x256_S256 3 rfl
  funext i
  obtain ⟨n, q, rfl⟩ : ∃ (n : Fin 8192) (q : Fin 1600), i = ix2 n q := ⟨i 0, i 1, eq_ix2 i⟩
  show _ = iter4 (col (V0 (Proc.devRef .tc main_arg2))) (col (V0 (Proc.devRef .tc main_arg3)))
    (fun q' => (V0 (Proc.devRef .tc main_arg0)) (ix2 n q')) q
  unfold iter4
  rw [← e0, ← e1, ← e2, ← e3, ← d0, ← d1, ← d2, ← d3]
  rw [lvl2_apply (res_main_v146 V0) (res_main_v148 V0) s3 g3 i3]
  rw [show res_main_v122 V0 = lvl2 (res_main_v98 V0) (res_main_v100 V0) (V0 (Proc.devRef .tc main_arg0)) (res_main_v74 V0) from rfl,
    row_lvl2 (res_main_v98 V0) (res_main_v100 V0) s2 g2 i2]
  rw [show res_main_v74 V0 = lvl2 (res_main_v50 V0) (res_main_v52 V0) (V0 (Proc.devRef .tc main_arg0)) (res_main_v26 V0) from rfl,
    row_lvl2 (res_main_v50 V0) (res_main_v52 V0) s1 g1 i1]
  rw [show res_main_v26 V0 = lvl2 (res_main_v2 V0) (res_main_v4 V0) (V0 (Proc.devRef .tc main_arg0)) (V0 (Proc.devRef .tc main_arg0)) from rfl,
    row_lvl2 (res_main_v2 V0) (res_main_v4 V0) s0 g0 i0]
  rfl

/-- The box result on the rows × classes × coordinates view: four levels, scattered at the source table's rows, gathered
    at the target table's. -/
theorem box_eq (h2 : Labels (V0 (Proc.devRef .tc main_arg2))) (h3 : Labels (V0 (Proc.devRef .tc main_arg3))) :
    lvl3 (res_main_v148 V0) (res_main_v146 V0) (res_main_v0 V0) (res_main_v144 V0)
      = Gbox3 (res_main_v0 V0) (V0 (Proc.devRef .tc main_arg2)) (V0 (Proc.devRef .tc main_arg3)) := by
  obtain ⟨g0, _, e0⟩ := row_facts (V0 (Proc.devRef .tc main_arg2)) h2 0 slices_S4x256_S1x256_0_0 shapeCasts_S1x256_S256 0 rfl
  obtain ⟨g1, _, e1⟩ := row_facts (V0 (Proc.devRef .tc main_arg2)) h2 1 slices_S4x256_S1x256_1_0 shapeCasts_S1x256_S256 1 rfl
  obtain ⟨g2, _, e2⟩ := row_facts (V0 (Proc.devRef .tc main_arg2)) h2 2 slices_S4x256_S1x256_2_0 shapeCasts_S1x256_S256 2 rfl
  obtain ⟨g3, _, e3⟩ := row_facts (V0 (Proc.devRef .tc main_arg2)) h2 3 slices_S4x256_S1x256_3_0 shapeCasts_S1x256_S256 3 rfl
  obtain ⟨s0, i0, d0⟩ := row_facts (V0 (Proc.devRef .tc main_arg3)) h3 0 slices_S4x256_S1x256_0_0 shapeCasts_S1x256_S256 0 rfl
  obtain ⟨s1, i1, d1⟩ := row_facts (V0 (Proc.devRef .tc main_arg3)) h3 1 slices_S4x256_S1x256_1_0 shapeCasts_S1x256_S256 1 rfl
  obtain ⟨s2, i2, d2⟩ := row_facts (V0 (Proc.devRef .tc main_arg3)) h3 2 slices_S4x256_S1x256_2_0 shapeCasts_S1x256_S256 2 rfl
  obtain ⟨s3, i3, d3⟩ := row_facts (V0 (Proc.devRef .tc main_arg3)) h3 3 slices_S4x256_S1x256_3_0 shapeCasts_S1x256_S256 3 rfl
  funext i
  obtain ⟨n, q, f, rfl⟩ : ∃ (n : Fin 8192) (q : Fin 1600) (f : Fin 4), i = ix3 n q f := ⟨i 0, i 1, i 2, eq_ix3 i⟩
  show _ = iter4 (col (V0 (Proc.devRef .tc main_arg3))) (col (V0 (Proc.devRef .tc main_arg2)))
    (fun q' => (res_main_v0 V0) (ix3 n q' f)) q
  unfold iter4
  rw [← e0, ← e1, ← e2, ← e3, ← d0, ← d1, ← d2, ← d3]
  rw [lvl3_apply (res_main_v148 V0) (res_main_v146 V0) s3 g3 i3]
  rw [show res_main_v144 V0 = lvl3 (res_main_v100 V0) (res_main_v98 V0) (res_main_v0 V0) (res_main_v96 V0) from rfl,
    row_lvl3 (res_main_v100 V0) (res_main_v98 V0) s2 g2 i2]
  rw [show res_main_v96 V0 = lvl3 (res_main_v52 V0) (res_main_v50 V0) (res_main_v0 V0) (res_main_v48 V0) from rfl,
    row_lvl3 (res_main_v52 V0) (res_main_v50 V0) s1 g1 i1]
  rw [show res_main_v48 V0 = lvl3 (res_main_v4 V0) (res_main_v2 V0) (res_main_v0 V0) (res_main_v0 V0) from rfl,
    row_lvl3 (res_main_v4 V0) (res_main_v2 V0) s0 g0 i0]
  rfl

theorem run (m : (ℓ : Loc nD τ sig) → Buf (Elt Ideal) ℓ) (ρ : Dev nD → PrngReg)
    (hL : ∀ c : Dev nD, Cert.Spec.Labels (m ((c.tc : Thread nD τ).loc main_arg2)) ∧ Cert.Spec.Labels (m ((c.tc : Thread nD τ).loc main_arg3))) :
    θ_run (defs (F := Ideal)) (onTc (τ := τ) (main (F := Ideal))) ⟨m, fun _ => 0, ρ⟩ fun r => ∀ c : Dev nD,
      r.2.mem ((c.tc : Thread nD τ).loc main_v170)
        = Cert.Spec.Gcls (m ((c.tc : Thread nD τ).loc main_arg0)) (m ((c.tc : Thread nD τ).loc main_arg2)) (m ((c.tc : Thread nD τ).loc main_arg3))
      ∧ r.2.mem ((c.tc : Thread nD τ).loc main_v193)
        = shapeCast S8192x6400 (Cert.Spec.Gbox3 (shapeCast S8192x1600x4 (m ((c.tc : Thread nD τ).loc main_arg1)) Facts₀.shapeCasts_S8192x6400_S8192x1600x4)
            (m ((c.tc : Thread nD τ).loc main_arg2)) (m ((c.tc : Thread nD τ).loc main_arg3))) Facts₀.shapeCasts_S8192x1600x4_S8192x6400
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.ReferenceIdeal.Value.run (F := Ideal) m ρ)
  obtain ⟨h1, h2, h3⟩ := h c
  refine ⟨h1.trans ?_, h2.trans ?_, h3⟩
  · exact cls_eq (launchContents m c) (hL c).1 (hL c).2
  · exact congrArg (fun X => shapeCast S8192x6400 X Facts₀.shapeCasts_S8192x1600x4_S8192x6400) (box_eq (launchContents m c) (hL c).1 (hL c).2)

end Cert.ReferenceIdeal.RefValue

end
-- ==== Proof.KHost.lean ====
/-
  What the kernel's windows hold when the region is entered, read at an index.

  The host builds each label table's 0/1 indicator array — entry (level, position, column) is 1 exactly when the
  table's entry at (level, position) is that column —, its mask — entry (level, column) is 1 exactly when some
  position of the level names the column —, and the box array with its class and coordinate axes exchanged.
-/
import proofs.«406901_j39470749450916_2_alg».proof.Proof.Gen.KernelIdeal.Frame
import proofs.«406901_j39470749450916_2_alg».proof.Proof.Spec
import Idealize.ShloMosaic.Lib.StableHlo.Run
import Idealize.ShloMosaic.Lib.ValueLayout
import Idealize.ShloMosaic.Lib.ReduceAll

noncomputable section

namespace Cert.KernelIdeal.KHost

open Cert.KernelIdeal Cert.KernelIdeal.Gen Idealize.ShloMosaic Idealize.ShloMosaic.TcCoe Idealize.SL.Sem Idealize.ShloMosaic.ValueIdx

/-! ## The operations read at an index, over any label table -/

section Pointwise

/-- Under the precondition a table entry is the 32-bit word of column `q` exactly when it is column `q`: the entry
    and `q` are both below 1600, far below `2 ^ 32`. -/
private theorem word_eq_iff {T : IVec Cert.Spec.SLab 32} (hL : Cert.Spec.Labels T) (l : Fin 4) (k : Fin 256) (q : Fin 1600) :
    T (ix2 l k) = BitVec.ofNat 32 q.val ↔ Cert.Spec.col T l k = q := by
  have hq : q.val % 2 ^ 32 = q.val := Nat.mod_eq_of_lt (by have := q.isLt; omega)
  constructor
  · intro h
    refine Fin.ext ?_
    rw [hL.col_val, h, BitVec.toNat_ofNat, hq]
  · intro h
    refine BitVec.eq_of_toNat_eq ?_
    rw [BitVec.toNat_ofNat, hq, ← hL.col_val, h]

/-- A one-bit word read unsigned as an extended real is 1 at the word 1 and 0 at the word 0. -/
private theorem uitofp_bit (φ : FTy) (b : BitVec 1) :
    FloatOps.uitofp (F := Ideal) φ b = if b = 1#1 then (1 : EReal) else 0 := by
  show ((b.toNat : ℝ) : EReal) = _
  rcases BitVec.eq_zero_or_eq_one b with h | h
  · subst h
    rw [if_neg (by decide)]
    show (((0 : ℕ) : ℝ) : EReal) = 0
    rw [Nat.cast_zero, EReal.coe_zero]
  · subst h
    rw [if_pos rfl]
    show (((1 : ℕ) : ℝ) : EReal) = 1
    rw [Nat.cast_one, EReal.coe_one]

/-- The comparison of the table, repeated along the columns, with the column numbers, repeated along levels and
    positions, compares at `(l, k, q)` the table's entry `(l, k)` with the word of `q`. -/
private theorem cmp_apply (T : IVec S4x256 32)
    (h0 : S4x256.BroadcastsInDim S4x256x1 (![0, 1] : Fin 2 → Fin S4x256x1.rank))
    (h1 : S4x256x1.BroadcastsInDim S4x256x1600 (![0, 1, 2] : Fin 3 → Fin S4x256x1600.rank))
    (h2 : S1600.BroadcastsInDim S1x1x1600 (![2] : Fin 1 → Fin S1x1x1600.rank))
    (h3 : S1x1x1600.BroadcastsInDim S4x256x1600 (![0, 1, 2] : Fin 3 → Fin S4x256x1600.rank))
    (l : Fin 4) (k : Fin 256) (q : Fin 1600) :
    cmpi .eq (broadcastInDim S4x256x1600 ![0, 1, 2] h1 (broadcastInDim S4x256x1 ![0, 1] h0 T))
        (broadcastInDim S4x256x1600 ![0, 1, 2] h3 (broadcastInDim S1x1x1600 ![2] h2 (iotaInDim S1600 32 0))) (ix3 l k q)
      = IntOp.cmpi .eq (T (ix2 l k)) (BitVec.ofNat 32 q.val) := by
  show IntOp.cmpi .eq _ _ = _
  have e1 : broadcastInDim S4x256x1600 ![0, 1, 2] h1 (broadcastInDim S4x256x1 ![0, 1] h0 T) (ix3 l k q) = T (ix2 l k) := by
    rw [broadcastInDim_apply (![0, 1, 2] : Fin 3 → Fin S4x256x1600.rank) h1 _ (ix3 l k q) (ix3 l k (0 : Fin 1))
        (fun a => match a with | ⟨0, _⟩ => rfl | ⟨1, _⟩ => rfl | ⟨2, _⟩ => rfl),
      broadcastInDim_apply (![0, 1] : Fin 2 → Fin S4x256x1.rank) h0 _ (ix3 l k (0 : Fin 1)) (ix2 l k)
        (fun a => match a with | ⟨0, _⟩ => rfl | ⟨1, _⟩ => rfl)]
  have e2 : broadcastInDim S4x256x1600 ![0, 1, 2] h3 (broadcastInDim S1x1x1600 ![2] h2 (iotaInDim S1600 32 0)) (ix3 l k q)
      = BitVec.ofNat 32 q.val := by
    rw [broadcastInDim_apply (![0, 1, 2] : Fin 3 → Fin S4x256x1600.rank) h3 _ (ix3 l k q) (ix3 (0 : Fin 1) (0 : Fin 1) q)
        (fun a => match a with | ⟨0, _⟩ => rfl | ⟨1, _⟩ => rfl | ⟨2, _⟩ => rfl),
      broadcastInDim_apply (![2] : Fin 1 → Fin S1x1x1600.rank) h2 _ (ix3 (0 : Fin 1) (0 : Fin 1) q) (ix1 q)
        (fun a => match a with | ⟨0, _⟩ => rfl)]
    rfl
  rw [e1, e2]

/-- The indicator array of a table: 1 at `(l, k, q)` exactly when entry `(l, k)` is column `q`. -/
private theorem ind_apply (φ : FTy) {T : IVec S4x256 32} (hL : Cert.Spec.Labels T)
    (h0 : S4x256.BroadcastsInDim S4x256x1 (![0, 1] : Fin 2 → Fin S4x256x1.rank))
    (h1 : S4x256x1.BroadcastsInDim S4x256x1600 (![0, 1, 2] : Fin 3 → Fin S4x256x1600.rank))
    (h2 : S1600.BroadcastsInDim S1x1x1600 (![2] : Fin 1 → Fin S1x1x1600.rank))
    (h3 : S1x1x1600.BroadcastsInDim S4x256x1600 (![0, 1, 2] : Fin 3 → Fin S4x256x1600.rank))
    (l : Fin 4) (k : Fin 256) (q : Fin 1600) :
    (uitofp (F := Ideal) φ (cmpi .eq (broadcastInDim S4x256x1600 ![0, 1, 2] h1 (broadcastInDim S4x256x1 ![0, 1] h0 T))
        (broadcastInDim S4x256x1600 ![0, 1, 2] h3 (broadcastInDim S1x1x1600 ![2] h2 (iotaInDim S1600 32 0)))) : S4x256x1600.Idx → EReal) (ix3 l k q)
      = if Cert.Spec.col T l k = q then (1 : EReal) else 0 := by
  show FloatOps.uitofp (F := Ideal) φ _ = _
  rw [cmp_apply, uitofp_bit]
  exact if_congr (IntOp.cmpi_eq.trans (word_eq_iff hL l k q)) rfl rfl

end Pointwise

/-! ## The masks: a reduction by `or` read back -/

section Mask

/-- A left fold by `or` over one-bit words is 1 exactly when it started at 1 or met a 1. -/
private theorem foldl_ori_eq_one {ι : Type} (f : ι → BitVec 1) :
    ∀ (l : List ι) (init : BitVec 1),
      l.foldl (fun r n => IntOp.ori r (f n)) init = 1#1 ↔ init = 1#1 ∨ ∃ n ∈ l, f n = 1#1
  | [], init => by
    rw [List.foldl_nil]
    exact ⟨Or.inl, fun h => h.elim id (fun ⟨n, hn, _⟩ => nomatch hn)⟩
  | a :: l, init => by
    rw [List.foldl_cons, foldl_ori_eq_one f l, IntOp.ori_eq_one]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-- A `stablehlo.reduce` by `or` from the word 0 is 1 at `j` exactly when some operand element that reduces into `j`
    is 1. -/
private theorem reduce_ori_eq_one {s t u : Shape} {axes : List (Fin s.rank)} (x : s.Idx → BitVec 1) (init : u.Idx → BitVec 1)
    (h : s.ReducesTo axes t) (hu : 0 < u.numel) (hinit : init (Shape.Idx.first hu) = 0#1) (j : t.Idx) :
    Host.reduce IntOp.ori x init h hu j = 1#1 ↔ ∃ i, h.drop i = j ∧ x i = 1#1 := by
  rw [Host.reduce_eq_foldl, foldl_ori_eq_one, hinit]
  constructor
  · rintro (h0 | ⟨i, hi, hx⟩)
    · exact absurd h0 (by decide)
    · exact ⟨i, of_decide_eq_true (List.mem_filter.1 hi).2, hx⟩
  · rintro ⟨i, hi, hx⟩
    exact Or.inr ⟨i, List.mem_filter.2 ⟨List.mem_map.2 ⟨s.rowMajor i, List.mem_finRange _, Equiv.symm_apply_apply _ _⟩,
      decide_eq_true hi⟩, hx⟩

/-- The elements of a `[4, 256, 1600]` array that reduce into `(l, q)` along axis 1 are those at `(l, ·, q)`. -/
private theorem drop_eq_iff (h : S4x256x1600.ReducesTo [1] S4x1600) (i : S4x256x1600.Idx) (l : Fin 4) (q : Fin 1600) :
    h.drop i = ix2 l q ↔ (i 0).val = l.val ∧ (i 2).val = q.val := by
  constructor
  · intro e
    have e0 : (h.drop i 0).val = l.val := by rw [e]
    have e1 : (h.drop i 1).val = q.val := by rw [e]
    rw [h.drop_apply_val_of_eq i 0 0] at e0
    rw [h.drop_apply_val_of_eq i 1 2] at e1
    exact ⟨e0, e1⟩
  · rintro ⟨e0, e1⟩
    funext b
    refine Fin.ext ?_
    match b with
    | ⟨0, _⟩ => exact (h.drop_apply_val_of_eq i 0 0).trans e0
    | ⟨1, _⟩ => exact (h.drop_apply_val_of_eq i 1 2).trans e1

/-- The mask of a table: 1 at `(l, 0, q)` exactly when some position of level `l` names column `q`. -/
private theorem mask_apply {T : IVec S4x256 32} (hL : Cert.Spec.Labels T)
    (h0 : S4x256.BroadcastsInDim S4x256x1 (![0, 1] : Fin 2 → Fin S4x256x1.rank))
    (h1 : S4x256x1.BroadcastsInDim S4x256x1600 (![0, 1, 2] : Fin 3 → Fin S4x256x1600.rank))
    (h2 : S1600.BroadcastsInDim S1x1x1600 (![2] : Fin 1 → Fin S1x1x1600.rank))
    (h3 : S1x1x1600.BroadcastsInDim S4x256x1600 (![0, 1, 2] : Fin 3 → Fin S4x256x1600.rank))
    (hr : S4x256x1600.ReducesTo [1] S4x1600) (hu : 0 < S_.numel) (hc : S4x1600.ShapeCasts S4x1x1600)
    (l : Fin 4) (q : Fin 1600) :
    (shapeCast S4x1x1600 (uitofp (F := Ideal) .f32 (Host.reduce IntOp.ori
        (cmpi .eq (broadcastInDim S4x256x1600 ![0, 1, 2] h1 (broadcastInDim S4x256x1 ![0, 1] h0 T))
          (broadcastInDim S4x256x1600 ![0, 1, 2] h3 (broadcastInDim S1x1x1600 ![2] h2 (iotaInDim S1600 32 0))))
        (constantI S_ 1 0#1) hr hu)) hc : S4x1x1600.Idx → EReal) (ix3 l (0 : Fin 1) q)
      = open Classical in if ∃ k, Cert.Spec.col T l k = q then (1 : EReal) else 0 := by
  rw [shapeCast_apply _ hc (ix3 l (0 : Fin 1) q) (ix2 l q) (by
    rw [Shape.rowMajor_val_two, Shape.rowMajor_val_three]
    show l.val * 1600 + q.val = (l.val * 1 + 0) * 1600 + q.val
    omega)]
  show FloatOps.uitofp (F := Ideal) .f32 _ = _
  rw [uitofp_bit]
  refine if_congr ?_ rfl rfl
  rw [reduce_ori_eq_one _ _ hr hu rfl]
  constructor
  · rintro ⟨i, hi, hx⟩
    obtain ⟨e0, e2⟩ := (drop_eq_iff hr i l q).1 hi
    obtain ⟨k, e1⟩ : ∃ k : Fin 256, (i 1).val = k.val := ⟨⟨(i 1).val, (i 1).isLt⟩, rfl⟩
    have ei : i = ix3 l k q := by
      funext a
      match a with
      | ⟨0, _⟩ => exact Fin.ext e0
      | ⟨1, _⟩ => exact Fin.ext e1
      | ⟨2, _⟩ => exact Fin.ext e2
    rw [ei, cmp_apply] at hx
    exact ⟨k, (word_eq_iff hL l k q).1 (IntOp.cmpi_eq.1 hx)⟩
  · rintro ⟨k, hk⟩
    refine ⟨ix3 l k q, (drop_eq_iff hr _ l q).2 ⟨rfl, rfl⟩, ?_⟩
    rw [cmp_apply]
    exact IntOp.cmpi_eq.2 ((word_eq_iff hL l k q).2 hk)

end Mask

/-! ## The windows -/

variable (m : (ℓ : Loc nD τ sig) → Buf (Elt Ideal) ℓ)

/-- Window 0's array is the source table's indicator array, as the host operations compose it. -/
private theorem v8_eq (c : Dev nD) :
    (V m c main_v8 : S4x256x1600.Idx → EReal)
      = uitofp (F := Ideal) .bf16 (cmpi .eq
          (broadcastInDim S4x256x1600 ![0, 1, 2] Facts₀.bcast_S4x256x1_S4x256x1600_0_1_2
            (broadcastInDim S4x256x1 ![0, 1] Facts₀.bcast_S4x256_S4x256x1_0_1 (m ((c.tc : Thread nD τ).loc main_arg3))))
          (broadcastInDim S4x256x1600 ![0, 1, 2] Facts₀.bcast_S1x1x1600_S4x256x1600_0_1_2
            (broadcastInDim S1x1x1600 ![2] Facts₀.bcast_S1600_S1x1x1600_2 (iotaInDim S1600 32 0)))) := by
  show StableHlo.after hostOps0 (fun b => m (c, b)) (Proc.devRef .tc main_v8) = _
  after_results

/-- Window 1's array is the target table's indicator array. -/
private theorem v17_eq (c : Dev nD) :
    (V m c main_v17 : S4x256x1600.Idx → EReal)
      = uitofp (F := Ideal) .bf16 (cmpi .eq
          (broadcastInDim S4x256x1600 ![0, 1, 2] Facts₀.bcast_S4x256x1_S4x256x1600_0_1_2
            (broadcastInDim S4x256x1 ![0, 1] Facts₀.bcast_S4x256_S4x256x1_0_1 (m ((c.tc : Thread nD τ).loc main_arg2))))
          (broadcastInDim S4x256x1600 ![0, 1, 2] Facts₀.bcast_S1x1x1600_S4x256x1600_0_1_2
            (broadcastInDim S1x1x1600 ![2] Facts₀.bcast_S1600_S1x1x1600_2 (iotaInDim S1600 32 0)))) := by
  show StableHlo.after hostOps0 (fun b => m (c, b)) (Proc.devRef .tc main_v17) = _
  after_results

/-- Window 2's array is the target table's mask: its comparison reduced by `or` along the positions, as a float,
    with a unit axis inserted. -/
private theorem v20_eq (c : Dev nD) :
    (V m c main_v20 : S4x1x1600.Idx → EReal)
      = shapeCast S4x1x1600 (uitofp (F := Ideal) .f32 (Host.reduce IntOp.ori (cmpi .eq
          (broadcastInDim S4x256x1600 ![0, 1, 2] Facts₀.bcast_S4x256x1_S4x256x1600_0_1_2
            (broadcastInDim S4x256x1 ![0, 1] Facts₀.bcast_S4x256_S4x256x1_0_1 (m ((c.tc : Thread nD τ).loc main_arg2))))
          (broadcastInDim S4x256x1600 ![0, 1, 2] Facts₀.bcast_S1x1x1600_S4x256x1600_0_1_2
            (broadcastInDim S1x1x1600 ![2] Facts₀.bcast_S1600_S1x1x1600_2 (iotaInDim S1600 32 0))))
          (constantI S_ 1 0#1) Facts₀.reducesTo_S4x256x1600_S4x1600_d1 Facts₀.h_S_)) Facts₀.shapeCasts_S4x1600_S4x1x1600 := by
  show StableHlo.after hostOps0 (fun b => m (c, b)) (Proc.devRef .tc main_v20) = _
  after_results
  rfl

/-- Window 3's array is the source table's mask. -/
private theorem v21_eq (c : Dev nD) :
    (V m c main_v21 : S4x1x1600.Idx → EReal)
      = shapeCast S4x1x1600 (uitofp (F := Ideal) .f32 (Host.reduce IntOp.ori (cmpi .eq
          (broadcastInDim S4x256x1600 ![0, 1, 2] Facts₀.bcast_S4x256x1_S4x256x1600_0_1_2
            (broadcastInDim S4x256x1 ![0, 1] Facts₀.bcast_S4x256_S4x256x1_0_1 (m ((c.tc : Thread nD τ).loc main_arg3))))
          (broadcastInDim S4x256x1600 ![0, 1, 2] Facts₀.bcast_S1x1x1600_S4x256x1600_0_1_2
            (broadcastInDim S1x1x1600 ![2] Facts₀.bcast_S1600_S1x1x1600_2 (iotaInDim S1600 32 0))))
          (constantI S_ 1 0#1) Facts₀.reducesTo_S4x256x1600_S4x1600_d1 Facts₀.h_S_)) Facts₀.shapeCasts_S4x1600_S4x1x1600 := by
  show StableHlo.after hostOps0 (fun b => m (c, b)) (Proc.devRef .tc main_v21) = _
  after_results
  rfl

/-- Window 5's array is the box array seen as rows × classes × coordinates, its last two axes exchanged. -/
private theorem v1_eq (c : Dev nD) :
    (V m c main_v1 : S8192x4x1600.Idx → EReal)
      = transpose S8192x4x1600 [0, 2, 1]
          (shapeCast S8192x1600x4 (m ((c.tc : Thread nD τ).loc main_arg1)) Facts₀.shapeCasts_S8192x6400_S8192x1600x4)
          Facts₀.transposes_S8192x1600x4_S8192x4x1600_0_2_1 := by
  show StableHlo.after hostOps0 (fun b => m (c, b)) (Proc.devRef .tc main_v1) = _
  after_results
  rfl

/-- Window 0 (the source table's indicator array). -/
theorem gsrc_apply (c : Dev nD) (hL : Cert.Spec.Labels (m ((c.tc : Thread nD τ).loc main_arg3))) (l : Fin 4) (k : Fin 256) (q : Fin 1600) :
    (V m c main_v8 : S4x256x1600.Idx → EReal) (ix3 l k q)
      = if Cert.Spec.col (m ((c.tc : Thread nD τ).loc main_arg3)) l k = q then (1 : EReal) else 0 := by
  rw [v8_eq]
  exact ind_apply .bf16 hL _ _ _ _ l k q

/-- Window 1 (the target table's indicator array). -/
theorem gtgt_apply (c : Dev nD) (hL : Cert.Spec.Labels (m ((c.tc : Thread nD τ).loc main_arg2))) (l : Fin 4) (k : Fin 256) (q : Fin 1600) :
    (V m c main_v17 : S4x256x1600.Idx → EReal) (ix3 l k q)
      = if Cert.Spec.col (m ((c.tc : Thread nD τ).loc main_arg2)) l k = q then (1 : EReal) else 0 := by
  rw [v17_eq]
  exact ind_apply .bf16 hL _ _ _ _ l k q

/-- Window 2 (the target table's mask). -/
theorem mask_tgt_apply (c : Dev nD) (hL : Cert.Spec.Labels (m ((c.tc : Thread nD τ).loc main_arg2))) (l : Fin 4) (q : Fin 1600) :
    (V m c main_v20 : S4x1x1600.Idx → EReal) (ix3 l (0 : Fin 1) q)
      = open Classical in if ∃ k, Cert.Spec.col (m ((c.tc : Thread nD τ).loc main_arg2)) l k = q then (1 : EReal) else 0 := by
  rw [v20_eq]
  exact mask_apply hL _ _ _ _ _ _ _ l q

/-- Window 3 (the source table's mask). -/
theorem mask_src_apply (c : Dev nD) (hL : Cert.Spec.Labels (m ((c.tc : Thread nD τ).loc main_arg3))) (l : Fin 4) (q : Fin 1600) :
    (V m c main_v21 : S4x1x1600.Idx → EReal) (ix3 l (0 : Fin 1) q)
      = open Classical in if ∃ k, Cert.Spec.col (m ((c.tc : Thread nD τ).loc main_arg3)) l k = q then (1 : EReal) else 0 := by
  rw [v21_eq]
  exact mask_apply hL _ _ _ _ _ _ _ l q

/-- Window 5 (the box array, classes and coordinates exchanged). -/
theorem boxt_apply (c : Dev nD) (n : Fin 8192) (f : Fin 4) (q : Fin 1600) :
    (V m c main_v1 : S8192x4x1600.Idx → EReal) (ix3 n f q)
      = (shapeCast S8192x1600x4 (m ((c.tc : Thread nD τ).loc main_arg1)) Facts₀.shapeCasts_S8192x6400_S8192x1600x4 : S8192x1600x4.Idx → EReal) (ix3 n q f) := by
  rw [v1_eq]
  exact transpose_ix3_021_apply _ _ n f q

end Cert.KernelIdeal.KHost

end
-- ==== Proof.KLevel.lean ====
/-
  One level of the kernel on a block of 128 rows, as one vector function, read at an index.

  With `G₁`, `G₂` the level's two 256 × 1600 tables and `mk` its 1 × 1600 mask, the body computes
  `cur · (1 − mk) + ((cur · G₁ᵀ + base · G₂ᵀ) · G₂)`: two products contracting the 1600 columns, their sum, and a product
  contracting the 256 positions. At the exact instance a change of float format is the identity and a product into a
  zero accumulator is the plain sum of products, so at an index the level is the expression
  `Cert.Spec.rowStep_onehot` speaks of; when the tables are the indicators of the level's columns it is `rowStep`.
-/
import proofs.«406901_j39470749450916_2_alg».proof.Proof.Gen.KernelIdeal
import proofs.«406901_j39470749450916_2_alg».proof.Proof.Spec
import Idealize.ShloMosaic.PureOps.Ideal.Laws
import Idealize.ShloMosaic.Lib.ValueIdx
import Idealize.ShloMosaic.Lib.ValueLayout

noncomputable section

namespace Cert.KernelIdeal.KLevel

open Cert.KernelIdeal Cert.KernelIdeal.Gen Idealize.ShloMosaic Idealize.ShloMosaic.ValueIdx

/-- One level on a block: keep the block off the masked columns, add the scattered sums of the gathered entries. -/
def lvl {F : FTy → Type} [FloatOps F] (cur base : FVec F S128x1600 .f32) (G1 G2 : FVec F S256x1600 .bf16) (mk : FVec F S1x1600 .f32) :
    FVec F S128x1600 .f32 :=
  addf (mulf cur (broadcastTo S128x1600 (subf (broadcast S1x1600 (Scalar.ofBits .f32 0x3F800000#32)) mk) broadcasts_S1x1600_S128x1600))
    (matmul dot_S128x256_S256x1600_S128x1600_1_0_0_1_n_n none
      (truncf .bf16
        (addf (matmul dot_S128x1600_S256x1600_S128x256_1_1_0_0_n_n none (truncf .bf16 cur bitsLt_bf16_f32) G1 (constant S128x256 .f32 0x00000000#32))
          (matmul dot_S128x1600_S256x1600_S128x256_1_1_0_0_n_n none (truncf .bf16 base bitsLt_bf16_f32) G2 (constant S128x256 .f32 0x00000000#32)))
        bitsLt_bf16_f32)
      G2 (constant S128x1600 .f32 0x00000000#32))

/-! ## The two products' operand indices

The first product contracts axis 1 of both operands (x · Gᵀ: rows of the block by rows of the table, summed over the 1600
columns); the second contracts axis 1 of the left operand with axis 0 of the right (y · G: summed over the 256 positions).
Coordinate by coordinate, at output index `j` and contraction index `k`. -/

private theorem lhsT_0 (j : S128x256.Idx) (k : dot_S128x1600_S256x1600_S128x256_1_1_0_0_n_n.contr.Idx) :
    (dot_S128x1600_S256x1600_S128x256_1_1_0_0_n_n.lhsIdx j k 0 : ℕ) = j 0 := by
  simp [DotDims.lhsIdx, dot_S128x1600_S256x1600_S128x256_1_1_0_0_n_n]; rfl
private theorem lhsT_1 (j : S128x256.Idx) (k : dot_S128x1600_S256x1600_S128x256_1_1_0_0_n_n.contr.Idx) :
    (dot_S128x1600_S256x1600_S128x256_1_1_0_0_n_n.lhsIdx j k 1 : ℕ) = k ⟨0, by decide⟩ := by
  simp [DotDims.lhsIdx, dot_S128x1600_S256x1600_S128x256_1_1_0_0_n_n]; rfl
private theorem rhsT_0 (j : S128x256.Idx) (k : dot_S128x1600_S256x1600_S128x256_1_1_0_0_n_n.contr.Idx) :
    (dot_S128x1600_S256x1600_S128x256_1_1_0_0_n_n.rhsIdx j k 0 : ℕ) = j 1 := by
  simp [DotDims.rhsIdx, dot_S128x1600_S256x1600_S128x256_1_1_0_0_n_n]; rfl
private theorem rhsT_1 (j : S128x256.Idx) (k : dot_S128x1600_S256x1600_S128x256_1_1_0_0_n_n.contr.Idx) :
    (dot_S128x1600_S256x1600_S128x256_1_1_0_0_n_n.rhsIdx j k 1 : ℕ) = k ⟨0, by decide⟩ := by
  simp [DotDims.rhsIdx, dot_S128x1600_S256x1600_S128x256_1_1_0_0_n_n]; rfl

private theorem lhsG_0 (j : S128x1600.Idx) (k : dot_S128x256_S256x1600_S128x1600_1_0_0_1_n_n.contr.Idx) :
    (dot_S128x256_S256x1600_S128x1600_1_0_0_1_n_n.lhsIdx j k 0 : ℕ) = j 0 := by
  simp [DotDims.lhsIdx, dot_S128x256_S256x1600_S128x1600_1_0_0_1_n_n]; rfl
private theorem lhsG_1 (j : S128x1600.Idx) (k : dot_S128x256_S256x1600_S128x1600_1_0_0_1_n_n.contr.Idx) :
    (dot_S128x256_S256x1600_S128x1600_1_0_0_1_n_n.lhsIdx j k 1 : ℕ) = k ⟨0, by decide⟩ := by
  simp [DotDims.lhsIdx, dot_S128x256_S256x1600_S128x1600_1_0_0_1_n_n]; rfl
private theorem rhsG_0 (j : S128x1600.Idx) (k : dot_S128x256_S256x1600_S128x1600_1_0_0_1_n_n.contr.Idx) :
    (dot_S128x256_S256x1600_S128x1600_1_0_0_1_n_n.rhsIdx j k 0 : ℕ) = k ⟨0, by decide⟩ := by
  simp [DotDims.rhsIdx, dot_S128x256_S256x1600_S128x1600_1_0_0_1_n_n]; rfl
private theorem rhsG_1 (j : S128x1600.Idx) (k : dot_S128x256_S256x1600_S128x1600_1_0_0_1_n_n.contr.Idx) :
    (dot_S128x256_S256x1600_S128x1600_1_0_0_1_n_n.rhsIdx j k 1 : ℕ) = j 1 := by
  simp [DotDims.rhsIdx, dot_S128x256_S256x1600_S128x1600_1_0_0_1_n_n]; rfl

/-! ## The two products at an index -/

/-- x · Gᵀ into a zero accumulator at (p, k): the sum over the 1600 columns of x (p, c) · G (k, c). -/
theorem matmulT_apply (x : FVec Ideal S128x1600 .bf16) (G : FVec Ideal S256x1600 .bf16) (p : Fin 128) (k : Fin 256) :
    matmul dot_S128x1600_S256x1600_S128x256_1_1_0_0_n_n none x G (constant (F := Ideal) S128x256 .f32 0x00000000#32) (ix2 p k)
      = ∑ c : Fin 1600, x (ix2 p c) * G (ix2 k c) := by
  show FloatOps.matmul dot_S128x1600_S256x1600_S128x256_1_1_0_0_n_n none x G (constant (F := Ideal) S128x256 .f32 0x00000000#32) (ix2 p k) = _
  rw [Ideal.matmul_constant_zero_apply,
    ← Equiv.sum_comp (contrEquiv1 dot_S128x1600_S256x1600_S128x256_1_1_0_0_n_n 1600 rfl rfl).symm]
  refine Finset.sum_congr rfl fun c _ => ?_
  have hc := contrEquiv1_symm_val dot_S128x1600_S256x1600_S128x256_1_1_0_0_n_n 1600 rfl rfl c
  have hl : dot_S128x1600_S256x1600_S128x256_1_1_0_0_n_n.lhsIdx (ix2 p k)
      ((contrEquiv1 dot_S128x1600_S256x1600_S128x256_1_1_0_0_n_n 1600 rfl rfl).symm c) = ix2 p c := by
    funext a; apply Fin.ext
    match a with
    | ⟨0, _⟩ => exact lhsT_0 _ _
    | ⟨1, _⟩ => exact (lhsT_1 _ _).trans hc
  have hr : dot_S128x1600_S256x1600_S128x256_1_1_0_0_n_n.rhsIdx (ix2 p k)
      ((contrEquiv1 dot_S128x1600_S256x1600_S128x256_1_1_0_0_n_n 1600 rfl rfl).symm c) = ix2 k c := by
    funext a; apply Fin.ext
    match a with
    | ⟨0, _⟩ => exact rhsT_0 _ _
    | ⟨1, _⟩ => exact (rhsT_1 _ _).trans hc
  rw [hl, hr]

/-- y · G into a zero accumulator at (p, q): the sum over the 256 positions of y (p, k) · G (k, q). -/
theorem matmulG_apply (y : FVec Ideal S128x256 .bf16) (G : FVec Ideal S256x1600 .bf16) (p : Fin 128) (q : Fin 1600) :
    matmul dot_S128x256_S256x1600_S128x1600_1_0_0_1_n_n none y G (constant (F := Ideal) S128x1600 .f32 0x00000000#32) (ix2 p q)
      = ∑ k : Fin 256, y (ix2 p k) * G (ix2 k q) := by
  show FloatOps.matmul dot_S128x256_S256x1600_S128x1600_1_0_0_1_n_n none y G (constant (F := Ideal) S128x1600 .f32 0x00000000#32) (ix2 p q) = _
  rw [Ideal.matmul_constant_zero_apply,
    ← Equiv.sum_comp (contrEquiv1 dot_S128x256_S256x1600_S128x1600_1_0_0_1_n_n 256 rfl rfl).symm]
  refine Finset.sum_congr rfl fun k _ => ?_
  have hk := contrEquiv1_symm_val dot_S128x256_S256x1600_S128x1600_1_0_0_1_n_n 256 rfl rfl k
  have hl : dot_S128x256_S256x1600_S128x1600_1_0_0_1_n_n.lhsIdx (ix2 p q)
      ((contrEquiv1 dot_S128x256_S256x1600_S128x1600_1_0_0_1_n_n 256 rfl rfl).symm k) = ix2 p k := by
    funext a; apply Fin.ext
    match a with
    | ⟨0, _⟩ => exact lhsG_0 _ _
    | ⟨1, _⟩ => exact (lhsG_1 _ _).trans hk
  have hr : dot_S128x256_S256x1600_S128x1600_1_0_0_1_n_n.rhsIdx (ix2 p q)
      ((contrEquiv1 dot_S128x256_S256x1600_S128x1600_1_0_0_1_n_n 256 rfl rfl).symm k) = ix2 k q := by
    funext a; apply Fin.ext
    match a with
    | ⟨0, _⟩ => exact (rhsG_0 _ _).trans hk
    | ⟨1, _⟩ => exact rhsG_1 _ _
  rw [hl, hr]

/-- The float literal `0x3F800000` is the extended real `1`. -/
theorem one_f32 : (Scalar.ofBits .f32 0x3F800000#32 : Ideal .f32) = 1 := by
  show Ideal.ofBits .f32 0x3F800000#32 = 1
  simp [Ideal.ofBits, Ideal.ieee, -EReal.coe_mul]; norm_num

/-- The level at an index, when `G₁` is the indicator table of the gather columns `g`, `G₂` that of the scatter columns
    `s`, `mk` the indicator of the columns `s` names, and `s` names no column twice. -/
theorem lvl_apply (s g : Fin 256 → Fin 1600) (hs : Function.Injective s)
    (cur base : FVec Ideal S128x1600 .f32) (G1 G2 : FVec Ideal S256x1600 .bf16) (mk : FVec Ideal S1x1600 .f32)
    (hG1 : ∀ (k : Fin 256) (c : Fin 1600), G1 (ix2 k c) = if g k = c then (1 : EReal) else 0)
    (hG2 : ∀ (k : Fin 256) (c : Fin 1600), G2 (ix2 k c) = if s k = c then (1 : EReal) else 0)
    (hmk : ∀ q : Fin 1600, mk (ix2 (0 : Fin 1) q) = open Classical in if ∃ k, s k = q then (1 : EReal) else 0)
    (p : Fin 128) (q : Fin 1600) :
    lvl (F := Ideal) cur base G1 G2 mk (ix2 p q)
      = Cert.Spec.rowStep s g (fun q' => base (ix2 p q')) (fun q' => cur (ix2 p q')) q := by
  unfold lvl
  -- the kept part: cur (p, q) · (1 − mk (0, q)); the added part: a sum over the 256 positions
  rw [addf_apply, mulf_apply, broadcastTo_1b_ab_apply, subf_apply, broadcast_apply, one_f32, hmk, matmulG_apply]
  -- each position's factor: the two sums over the 1600 columns, against the indicator rows
  simp only [truncf_apply, addf_apply, matmulT_apply, hG1, hG2]
  -- the matrix form of a level (the two `if ∃ k, s k = q` differ at most in the decision procedure, which is unique)
  convert Cert.Spec.rowStep_onehot (g := g) hs (fun q' => base (ix2 p q')) (fun q' => cur (ix2 p q')) q

end Cert.KernelIdeal.KLevel

end
-- ==== Proof.KPieceCls.lean ====
/-
  What the kernel body leaves in the class output's block, read at an index.

  The block is stored whole, once. Its value is four nested levels (`KLevel.lvl`) on the 128 × 1600 block of logits,
  each level with its own 256 × 1600 slices of the two indicator arrays and its own 1 × 1600 slice of the target mask;
  the base block is the same at every level. When the arrays are the indicators of the columns `g` (gathered) and `s`
  (scattered, injective level by level) the four levels are `Cert.Spec.iter4` along each row of the block.
-/
import proofs.«406901_j39470749450916_2_alg».proof.Proof.Gen.KernelIdeal.Frame
import proofs.«406901_j39470749450916_2_alg».proof.Proof.Spec
import proofs.«406901_j39470749450916_2_alg».proof.Proof.KLevel
import Idealize.ShloMosaic.Lib.ValueIdx
import Idealize.ShloMosaic.Lib.ValueLayout
import Idealize.ShloMosaic.Lib.Pipeline.Value

noncomputable section

namespace Cert.KernelIdeal.KPieceCls

open Cert.KernelIdeal Cert.KernelIdeal.Gen Cert.KernelIdeal.KLevel Idealize.ShloMosaic Idealize.ShloMosaic.ValueIdx

/-! ## The store's payload is four nested levels -/

section Payload
variable {F : FTy → Type} [FloatOps F]

/-- A level's 256 × 1600 table: its 1 × 256 × 1600 slice without the unit axis. -/
private abbrev tab (A : Vec F S1x256x1600 .bf16) : FVec F S256x1600 .bf16 := shapeCast S256x1600 A shapeCasts_S1x256x1600_S256x1600
/-- A level's 1 × 1600 mask: its 1 × 1 × 1600 slice without the leading unit axis. -/
private abbrev msk (m : Vec F S1x1x1600 .f32) : FVec F S1x1600 .f32 := shapeCast S1x1600 m shapeCasts_S1x1x1600_S1x1600

/-- The payload of the class block's store, over the loaded block `L` and the four levels' slices: the same operations
    in the same order as four nested levels with base `L`. -/
private theorem pay_eq_lvl (L : Vec F S128x1600 .f32) (A0 B0 A1 B1 A2 B2 A3 B3 : Vec F S1x256x1600 .bf16) (m0 m1 m2 m3 : Vec F S1x1x1600 .f32) :
    k0_pay8 (k0_pay5 (k0_pay1 L) (k0_pay2 L A0 B0 m0) (k0_pay3 m1) (k0_pay4 L A0 B0 m0 A1 B1) (Scalar.ofBits .f32 0x3F800000#32) A2 B2 m2)
        (k0_pay6 m3)
        (k0_pay7 (k0_pay1 L) (k0_pay2 L A0 B0 m0) (k0_pay3 m1) (k0_pay4 L A0 B0 m0 A1 B1) (Scalar.ofBits .f32 0x3F800000#32) A2 B2 m2 A3 B3)
        (Scalar.ofBits .f32 0x3F800000#32)
      = lvl (lvl (lvl (lvl L L (tab A0) (tab B0) (msk m0)) L (tab A1) (tab B1) (msk m1)) L (tab A2) (tab B2) (msk m2)) L (tab A3) (tab B3) (msk m3) := by
  rfl

end Payload

/-! ## The slices read at an index -/

/-- Slice `n` of a 4 × 256 × 1600 array as a 256 × 1600 table, at `(k, c)`, is the array at `(n, k, c)`. -/
private theorem tab_ld_apply (X : Vec Ideal S4x256x1600 .bf16) (n : Nat) (hn : n < 4)
    (inb : ∀ a, (![n, 0, 0] : Fin 3 → Nat) a + S1x256x1600.size a ≤ S4x256x1600.size a) (k : Fin 256) (c : Fin 1600) :
    tab (F := Ideal) (View.ld X (Rect.unit (s := S4x256x1600) ![n, 0, 0] S1x256x1600.size inb)) (ix2 k c)
      = X (ix3 (⟨n, hn⟩ : Fin 4) k c) := by
  refine (shapeCast_1ab_ab_apply _ _ k c).trans ?_
  show X ((Rect.unit (s := S4x256x1600) ![n, 0, 0] S1x256x1600.size inb).idx (ix3 (0 : Fin 1) k c)) = _
  congr 1
  funext a
  apply Fin.ext
  match a with
  | ⟨0, _⟩ => show n + 1 * 0 = n; omega
  | ⟨1, _⟩ => show 0 + 1 * k.val = k.val; omega
  | ⟨2, _⟩ => show 0 + 1 * c.val = c.val; omega

/-- Slice `n` of a 4 × 1 × 1600 array as a 1 × 1600 mask, at `(0, q)`, is the array at `(n, 0, q)`. -/
private theorem msk_ld_apply (X : Vec Ideal S4x1x1600 .f32) (n : Nat) (hn : n < 4)
    (inb : ∀ a, (![n, 0, 0] : Fin 3 → Nat) a + S1x1x1600.size a ≤ S4x1x1600.size a) (q : Fin 1600) :
    msk (F := Ideal) (View.ld X (Rect.unit (s := S4x1x1600) ![n, 0, 0] S1x1x1600.size inb)) (ix2 (0 : Fin 1) q)
      = X (ix3 (⟨n, hn⟩ : Fin 4) (0 : Fin 1) q) := by
  refine (shapeCast_1ab_ab_apply _ _ (0 : Fin 1) q).trans ?_
  show X ((Rect.unit (s := S4x1x1600) ![n, 0, 0] S1x1x1600.size inb).idx (ix3 (0 : Fin 1) (0 : Fin 1) q)) = _
  congr 1
  funext a
  apply Fin.ext
  match a with
  | ⟨0, _⟩ => show n + 1 * 0 = n; omega
  | ⟨1, _⟩ => show 0 + 1 * 0 = 0; omega
  | ⟨2, _⟩ => show 0 + 1 * q.val = q.val; omega

/-! ## One level along a row -/

/-- A level whose tables are the indicators of `g` and `s`, on a block whose row `p` is `R`, has row `p` the step of `R`. -/
private theorem lvl_row (s g : Fin 256 → Fin 1600) (hs : Function.Injective s)
    (cur base : FVec Ideal S128x1600 .f32) (G1 G2 : FVec Ideal S256x1600 .bf16) (mk : FVec Ideal S1x1600 .f32)
    (hG1 : ∀ (k : Fin 256) (c : Fin 1600), G1 (ix2 k c) = if g k = c then (1 : EReal) else 0)
    (hG2 : ∀ (k : Fin 256) (c : Fin 1600), G2 (ix2 k c) = if s k = c then (1 : EReal) else 0)
    (hmk : ∀ q : Fin 1600, mk (ix2 (0 : Fin 1) q) = open Classical in if ∃ k, s k = q then (1 : EReal) else 0)
    (p : Fin 128) (R : Fin 1600 → EReal) (hR : ∀ q', cur (ix2 p q') = R q') (q : Fin 1600) :
    lvl (F := Ideal) cur base G1 G2 mk (ix2 p q) = Cert.Spec.rowStep s g (fun q' => base (ix2 p q')) R q := by
  rw [lvl_apply s g hs cur base G1 G2 mk hG1 hG2 hmk p q]
  have e : (fun q' => cur (ix2 p q')) = R := funext hR
  rw [e]

/-- The class block at `(p, q)`: window 0 is the indicator array of the gathered columns `g`, window 1 that of the
    scattered columns `s`, window 2 the mask of `s`; windows 3 and 5 are not read by this store. -/
theorem out6_apply (s g : Fin 4 → Fin 256 → Fin 1600) (hs : ∀ l, Function.Injective (s l))
    (x0 x1 : Vec Ideal S4x256x1600 .bf16) (x2 x3 : Vec Ideal S4x1x1600 .f32) (x4 : Vec Ideal S128x1600 .f32) (x5 : Vec Ideal S128x4x1600 .f32)
    (h0 : ∀ (l : Fin 4) (k : Fin 256) (c : Fin 1600), (x0 : S4x256x1600.Idx → EReal) (ix3 l k c) = if g l k = c then (1 : EReal) else 0)
    (h1 : ∀ (l : Fin 4) (k : Fin 256) (c : Fin 1600), (x1 : S4x256x1600.Idx → EReal) (ix3 l k c) = if s l k = c then (1 : EReal) else 0)
    (h2 : ∀ (l : Fin 4) (q : Fin 1600), (x2 : S4x1x1600.Idx → EReal) (ix3 l (0 : Fin 1) q) = open Classical in if ∃ k, s l k = q then (1 : EReal) else 0)
    (p : Fin 128) (q : Fin 1600) :
    (out0_6 (F := Ideal) x0 x1 x2 x3 x4 x5 : S128x1600.Idx → EReal) (ix2 p q)
      = Cert.Spec.iter4 s g (fun q' => (x4 : S128x1600.Idx → EReal) (ix2 p q')) q := by
  have hz : (![0, 0] : Fin 2 → Nat) = fun _ => 0 := by
    funext a
    match a with
    | ⟨0, _⟩ => rfl
    | ⟨1, _⟩ => rfl
  unfold out0_6
  rw [View.canon_unit_zero hz, View.ld_unit_zero hz, pay_eq_lvl]
  -- the four levels' tables and masks are the indicators of the level's columns
  have hA0 := fun k c => (tab_ld_apply x0 0 (by omega) inb_S4x256x1600_S1x256x1600_0_0_0 k c).trans (h0 0 k c)
  have hB0 := fun k c => (tab_ld_apply x1 0 (by omega) inb_S4x256x1600_S1x256x1600_0_0_0 k c).trans (h1 0 k c)
  have hm0 := fun q' => (msk_ld_apply x2 0 (by omega) inb_S4x1x1600_S1x1x1600_0_0_0 q').trans (h2 0 q')
  have hA1 := fun k c => (tab_ld_apply x0 1 (by omega) inb_S4x256x1600_S1x256x1600_1_0_0 k c).trans (h0 1 k c)
  have hB1 := fun k c => (tab_ld_apply x1 1 (by omega) inb_S4x256x1600_S1x256x1600_1_0_0 k c).trans (h1 1 k c)
  have hm1 := fun q' => (msk_ld_apply x2 1 (by omega) inb_S4x1x1600_S1x1x1600_1_0_0 q').trans (h2 1 q')
  have hA2 := fun k c => (tab_ld_apply x0 2 (by omega) inb_S4x256x1600_S1x256x1600_2_0_0 k c).trans (h0 2 k c)
  have hB2 := fun k c => (tab_ld_apply x1 2 (by omega) inb_S4x256x1600_S1x256x1600_2_0_0 k c).trans (h1 2 k c)
  have hm2 := fun q' => (msk_ld_apply x2 2 (by omega) inb_S4x1x1600_S1x1x1600_2_0_0 q').trans (h2 2 q')
  have hA3 := fun k c => (tab_ld_apply x0 3 (by omega) inb_S4x256x1600_S1x256x1600_3_0_0 k c).trans (h0 3 k c)
  have hB3 := fun k c => (tab_ld_apply x1 3 (by omega) inb_S4x256x1600_S1x256x1600_3_0_0 k c).trans (h1 3 k c)
  have hm3 := fun q' => (msk_ld_apply x2 3 (by omega) inb_S4x1x1600_S1x1x1600_3_0_0 q').trans (h2 3 q')
  -- level by level along row p, innermost first
  have r0 := lvl_row (s 0) (g 0) (hs 0) x4 x4 _ _ _ hA0 hB0 hm0 p _ (fun _ => rfl)
  have r1 := lvl_row (s 1) (g 1) (hs 1) _ x4 _ _ _ hA1 hB1 hm1 p _ r0
  have r2 := lvl_row (s 2) (g 2) (hs 2) _ x4 _ _ _ hA2 hB2 hm2 p _ r1
  have r3 := lvl_row (s 3) (g 3) (hs 3) _ x4 _ _ _ hA3 hB3 hm3 p _ r2
  exact r3 q

end Cert.KernelIdeal.KPieceCls

end
-- ==== Proof.KPieceBox.lean ====
/-
  What the kernel body leaves in the box output's block, read at an index.

  The 128 × 4 × 1600 block is stored in four 128 × 1 × 1600 slabs, one per coordinate `f`. A slab's value is four
  nested levels (`KLevel.lvl`) on the slab of the box input flattened to 128 × 1600, with the two indicator arrays in
  the roles opposite to the class branch's and the source mask; the base slab is the same at every level. When the
  arrays are the indicators of the columns `g` (gathered) and `s` (scattered, injective level by level) the four
  levels are `Cert.Spec.iter4` along each (row, coordinate) line of the block.
-/
import proofs.«406901_j39470749450916_2_alg».proof.Proof.Gen.KernelIdeal.Frame
import proofs.«406901_j39470749450916_2_alg».proof.Proof.Spec
import proofs.«406901_j39470749450916_2_alg».proof.Proof.KLevel
import Idealize.ShloMosaic.Lib.ValueIdx
import Idealize.ShloMosaic.Lib.ValueLayout
import Idealize.ShloMosaic.Lib.Pipeline.Value

noncomputable section

namespace Cert.KernelIdeal.KPieceBox

open Cert.KernelIdeal Cert.KernelIdeal.Gen Cert.KernelIdeal.KLevel Idealize.ShloMosaic Idealize.ShloMosaic.ValueIdx

/-! ## The slabs' payloads as four nested levels -/

/-- The four levels on one slab `L`, flattened to 128 × 1600 and cast back: level `l` gathers at the table `bₗ`, scatters at the
    table `aₗ` under the mask `mₗ`, and adds the flattened slab itself as the base at every level. -/
def slab {F : FTy → Type} [FloatOps F] (L : Vec F S128x1x1600 .f32)
    (a0 b0 a1 b1 a2 b2 a3 b3 : Vec F S1x256x1600 .bf16) (m0 m1 m2 m3 : Vec F S1x1x1600 .f32) : FVec F S128x1x1600 .f32 :=
  shapeCast S128x1x1600
    (lvl
      (lvl
        (lvl
          (lvl (shapeCast S128x1600 L shapeCasts_S128x1x1600_S128x1600) (shapeCast S128x1600 L shapeCasts_S128x1x1600_S128x1600)
            (shapeCast S256x1600 b0 shapeCasts_S1x256x1600_S256x1600) (shapeCast S256x1600 a0 shapeCasts_S1x256x1600_S256x1600)
            (shapeCast S1x1600 m0 shapeCasts_S1x1x1600_S1x1600))
          (shapeCast S128x1600 L shapeCasts_S128x1x1600_S128x1600)
          (shapeCast S256x1600 b1 shapeCasts_S1x256x1600_S256x1600) (shapeCast S256x1600 a1 shapeCasts_S1x256x1600_S256x1600)
          (shapeCast S1x1600 m1 shapeCasts_S1x1x1600_S1x1600))
        (shapeCast S128x1600 L shapeCasts_S128x1x1600_S128x1600)
        (shapeCast S256x1600 b2 shapeCasts_S1x256x1600_S256x1600) (shapeCast S256x1600 a2 shapeCasts_S1x256x1600_S256x1600)
        (shapeCast S1x1600 m2 shapeCasts_S1x1x1600_S1x1600))
      (shapeCast S128x1600 L shapeCasts_S128x1x1600_S128x1600)
      (shapeCast S256x1600 b3 shapeCasts_S1x256x1600_S256x1600) (shapeCast S256x1600 a3 shapeCasts_S1x256x1600_S256x1600)
      (shapeCast S1x1600 m3 shapeCasts_S1x1x1600_S1x1600))
    shapeCasts_S128x1600_S128x1x1600

section
variable {F : FTy → Type} [FloatOps F]

/-- Slab 0's store payload is the four levels on its loaded slab: the same operations in the same order. -/
theorem pay_slab0 (L : Vec F S128x1x1600 .f32) (a0 b0 a1 b1 a2 b2 a3 b3 : Vec F S1x256x1600 .bf16) (m0 m1 m2 m3 : Vec F S1x1x1600 .f32) :
    k0_pay19 (k0_pay10 L) (k0_pay15 (k0_pay10 L) (k0_pay11 L a0 b0 m0) (k0_pay12 a1) (k0_pay13 b1) (k0_pay14 m1) a2 b2 m2) (k0_pay16 a3) (k0_pay17 b3) (k0_pay18 m3)
      = slab L a0 b0 a1 b1 a2 b2 a3 b3 m0 m1 m2 m3 := rfl

/-- The same for slab 1. -/
theorem pay_slab1 (L : Vec F S128x1x1600 .f32) (a0 b0 a1 b1 a2 b2 a3 b3 : Vec F S1x256x1600 .bf16) (m0 m1 m2 m3 : Vec F S1x1x1600 .f32) :
    k0_pay24 (k0_pay21 L) (k0_pay23 (k0_pay21 L) (k0_pay22 L a0 b0 m0) a1 b1 m1 a2 b2 m2) a3 b3 m3
      = slab L a0 b0 a1 b1 a2 b2 a3 b3 m0 m1 m2 m3 := rfl

/-- The same for slab 2, where the products of the current block with the gather table at levels 0 and 2 are formed apart
    and passed in. -/
theorem pay_slab2 (L : Vec F S128x1x1600 .f32) (a0 b0 a1 b1 a2 b2 a3 b3 : Vec F S1x256x1600 .bf16) (m0 m1 m2 m3 : Vec F S1x1x1600 .f32) :
    k0_pay34 (k0_pay26 L) (k0_pay30 (k0_pay25 L) (k0_pay26 L) (k0_pay27 a0) (k0_pay28 m0) (k0_pay29 L b0) (constant S128x256 .f32 0x00000000#32) a1 b1 m1)
        (k0_pay31 a2) (k0_pay32 m2)
        (k0_pay33 (k0_pay25 L) (k0_pay26 L) (k0_pay27 a0) (k0_pay28 m0) (k0_pay29 L b0) (constant S128x256 .f32 0x00000000#32) a1 b1 m1 b2)
        (constant S128x256 .f32 0x00000000#32) a3 b3 m3
      = slab L a0 b0 a1 b1 a2 b2 a3 b3 m0 m1 m2 m3 := rfl

/-- The same for slab 3. -/
theorem pay_slab3 (L : Vec F S128x1x1600 .f32) (a0 b0 a1 b1 a2 b2 a3 b3 : Vec F S1x256x1600 .bf16) (m0 m1 m2 m3 : Vec F S1x1x1600 .f32) :
    k0_pay40 (k0_pay36 L) (k0_pay38 (k0_pay35 L) (k0_pay36 L) (k0_pay37 a0) b0 m0 a1 b1 m1) (k0_pay39 a2) b2 m2 a3 b3 m3
      = slab L a0 b0 a1 b1 a2 b2 a3 b3 m0 m1 m2 m3 := rfl

/-- The box block as four slabs. -/
theorem out7_slabs (x0 x1 : Vec F S4x256x1600 .bf16) (x2 x3 : Vec F S4x1x1600 .f32) (x4 : Vec F S128x1600 .f32) (x5 : Vec F S128x4x1600 .f32) :
    out0_7 x0 x1 x2 x3 x4 x5 = View.canon
      [⟨r0_12, slab (View.ld x5 r0_12) (View.ld x0 r0_1) (View.ld x1 r0_1) (View.ld x0 r0_3) (View.ld x1 r0_3) (View.ld x0 r0_5) (View.ld x1 r0_5) (View.ld x0 r0_7) (View.ld x1 r0_7) (View.ld x3 r0_2) (View.ld x3 r0_4) (View.ld x3 r0_6) (View.ld x3 r0_8)⟩,
       ⟨r0_11, slab (View.ld x5 r0_11) (View.ld x0 r0_1) (View.ld x1 r0_1) (View.ld x0 r0_3) (View.ld x1 r0_3) (View.ld x0 r0_5) (View.ld x1 r0_5) (View.ld x0 r0_7) (View.ld x1 r0_7) (View.ld x3 r0_2) (View.ld x3 r0_4) (View.ld x3 r0_6) (View.ld x3 r0_8)⟩,
       ⟨r0_10, slab (View.ld x5 r0_10) (View.ld x0 r0_1) (View.ld x1 r0_1) (View.ld x0 r0_3) (View.ld x1 r0_3) (View.ld x0 r0_5) (View.ld x1 r0_5) (View.ld x0 r0_7) (View.ld x1 r0_7) (View.ld x3 r0_2) (View.ld x3 r0_4) (View.ld x3 r0_6) (View.ld x3 r0_8)⟩,
       ⟨r0_9, slab (View.ld x5 r0_9) (View.ld x0 r0_1) (View.ld x1 r0_1) (View.ld x0 r0_3) (View.ld x1 r0_3) (View.ld x0 r0_5) (View.ld x1 r0_5) (View.ld x0 r0_7) (View.ld x1 r0_7) (View.ld x3 r0_2) (View.ld x3 r0_4) (View.ld x3 r0_6) (View.ld x3 r0_8)⟩] := by
  unfold out0_7
  rw [pay_slab0, pay_slab1, pay_slab2, pay_slab3]

end

/-! ## Reading the casts and the loaded slices at an index -/

section Reads
variable {α : Type} {Val : EltTy → Type} {e : EltTy}

/-- A 128 × 1600 array cast to 128 × 1 × 1600 reads, at `(p, 0, q)`, the operand at `(p, q)`. -/
theorem cast_mid_add (X : S128x1600.Idx → α) (p : Fin 128) (q : Fin 1600) :
    shapeCast S128x1x1600 X shapeCasts_S128x1600_S128x1x1600 (ix3 p (0 : Fin 1) q) = X (ix2 p q) :=
  shapeCast_apply X _ _ _ (by
    rw [Shape.rowMajor_val_three, Shape.rowMajor_val_two]
    show p.val * 1600 + q.val = (p.val * 1 + 0) * 1600 + q.val
    omega)

/-- A 128 × 1 × 1600 array cast to 128 × 1600 reads, at `(p, q)`, the operand at `(p, 0, q)`. -/
theorem cast_mid_drop (L : S128x1x1600.Idx → α) (p : Fin 128) (q : Fin 1600) :
    shapeCast S128x1600 L shapeCasts_S128x1x1600_S128x1600 (ix2 p q) = L (ix3 p (0 : Fin 1) q) :=
  shapeCast_apply L _ _ _ (by
    rw [Shape.rowMajor_val_three, Shape.rowMajor_val_two]
    show (p.val * 1 + 0) * 1600 + q.val = p.val * 1600 + q.val
    omega)

/-- Level `l`'s 256 × 1600 table, loaded as a 1 × 256 × 1600 slice and flattened, at `(k, c)`. -/
theorem tab_apply (x : S4x256x1600.Idx → Val e) (off : Fin 3 → Nat) (inb : ∀ a, off a + S1x256x1600.size a ≤ S4x256x1600.size a)
    (l : Fin 4) (e0 : off 0 = l.val) (e1 : off 1 = 0) (e2 : off 2 = 0) (k : Fin 256) (c : Fin 1600) :
    shapeCast S256x1600 (View.ld x (Rect.unit (s := S4x256x1600) off S1x256x1600.size inb)) shapeCasts_S1x256x1600_S256x1600 (ix2 k c)
      = x (ix3 l k c) := by
  rw [shapeCast_1ab_ab_apply]
  show x ((Rect.unit (s := S4x256x1600) off S1x256x1600.size inb).idx (ix3 (0 : Fin 1) k c)) = _
  congr 1
  funext a; apply Fin.ext
  match a with
  | ⟨0, _⟩ => show off 0 + 1 * 0 = l.val; omega
  | ⟨1, _⟩ => show off 1 + 1 * k.val = k.val; omega
  | ⟨2, _⟩ => show off 2 + 1 * c.val = c.val; omega

/-- Level `l`'s 1 × 1600 mask, loaded as a 1 × 1 × 1600 slice and flattened, at `(0, q)`. -/
theorem msk_apply (x : S4x1x1600.Idx → Val e) (off : Fin 3 → Nat) (inb : ∀ a, off a + S1x1x1600.size a ≤ S4x1x1600.size a)
    (l : Fin 4) (e0 : off 0 = l.val) (e1 : off 1 = 0) (e2 : off 2 = 0) (q : Fin 1600) :
    shapeCast S1x1600 (View.ld x (Rect.unit (s := S4x1x1600) off S1x1x1600.size inb)) shapeCasts_S1x1x1600_S1x1600 (ix2 (0 : Fin 1) q)
      = x (ix3 l (0 : Fin 1) q) := by
  rw [shapeCast_1ab_ab_apply]
  show x ((Rect.unit (s := S4x1x1600) off S1x1x1600.size inb).idx (ix3 (0 : Fin 1) (0 : Fin 1) q)) = _
  congr 1
  funext a; apply Fin.ext
  match a with
  | ⟨0, _⟩ => show off 0 + 1 * 0 = l.val; omega
  | ⟨1, _⟩ => show off 1 + 1 * 0 = 0; omega
  | ⟨2, _⟩ => show off 2 + 1 * q.val = q.val; omega

/-- Slab `f`'s rectangle places `(p, 0, q)` at `(p, f, q)`. -/
theorem slab_emb (off : Fin 3 → Nat) (inb : ∀ a, off a + S128x1x1600.size a ≤ S128x4x1600.size a)
    (f : Fin 4) (e0 : off 0 = 0) (e1 : off 1 = f.val) (e2 : off 2 = 0) (p : Fin 128) (q : Fin 1600) :
    (Rect.unit (s := S128x4x1600) off S128x1x1600.size inb).emb (ix3 p (0 : Fin 1) q) = ix3 p f q := by
  funext a; apply Fin.ext
  match a with
  | ⟨0, _⟩ => show off 0 + 1 * p.val = p.val; omega
  | ⟨1, _⟩ => show off 1 + 1 * 0 = f.val; omega
  | ⟨2, _⟩ => show off 2 + 1 * q.val = q.val; omega

end Reads

/-! ## A slab at an index -/

/-- A level's row is `rowStep` of the rows. -/
theorem lvl_row (s g : Fin 256 → Fin 1600) (hs : Function.Injective s)
    (cur base : FVec Ideal S128x1600 .f32) (G1 G2 : FVec Ideal S256x1600 .bf16) (mk : FVec Ideal S1x1600 .f32)
    (hG1 : ∀ (k : Fin 256) (c : Fin 1600), G1 (ix2 k c) = if g k = c then (1 : EReal) else 0)
    (hG2 : ∀ (k : Fin 256) (c : Fin 1600), G2 (ix2 k c) = if s k = c then (1 : EReal) else 0)
    (hmk : ∀ q : Fin 1600, mk (ix2 (0 : Fin 1) q) = open Classical in if ∃ k, s k = q then (1 : EReal) else 0)
    (p : Fin 128) :
    (fun q' => lvl (F := Ideal) cur base G1 G2 mk (ix2 p q'))
      = Cert.Spec.rowStep s g (fun q' => base (ix2 p q')) (fun q' => cur (ix2 p q')) :=
  funext fun q => lvl_apply s g hs cur base G1 G2 mk hG1 hG2 hmk p q

/-- The four levels on a slab, at `(p, 0, q)`: `iter4` along the slab's row `p`. -/
theorem slab_apply (s g : Fin 4 → Fin 256 → Fin 1600) (hs : ∀ l, Function.Injective (s l))
    (x0 x1 : Vec Ideal S4x256x1600 .bf16) (x3 : Vec Ideal S4x1x1600 .f32)
    (h0 : ∀ (l : Fin 4) (k : Fin 256) (c : Fin 1600), (x0 : S4x256x1600.Idx → EReal) (ix3 l k c) = if s l k = c then (1 : EReal) else 0)
    (h1 : ∀ (l : Fin 4) (k : Fin 256) (c : Fin 1600), (x1 : S4x256x1600.Idx → EReal) (ix3 l k c) = if g l k = c then (1 : EReal) else 0)
    (h3 : ∀ (l : Fin 4) (q : Fin 1600), (x3 : S4x1x1600.Idx → EReal) (ix3 l (0 : Fin 1) q) = open Classical in if ∃ k, s l k = q then (1 : EReal) else 0)
    (L : Vec Ideal S128x1x1600 .f32) (p : Fin 128) (q : Fin 1600) :
    (slab (F := Ideal) L (View.ld x0 r0_1) (View.ld x1 r0_1) (View.ld x0 r0_3) (View.ld x1 r0_3) (View.ld x0 r0_5) (View.ld x1 r0_5)
        (View.ld x0 r0_7) (View.ld x1 r0_7) (View.ld x3 r0_2) (View.ld x3 r0_4) (View.ld x3 r0_6) (View.ld x3 r0_8)
          : S128x1x1600.Idx → EReal) (ix3 p (0 : Fin 1) q)
      = Cert.Spec.iter4 s g (fun q' => (L : S128x1x1600.Idx → EReal) (ix3 p (0 : Fin 1) q')) q := by
  -- the four levels' tables and masks are the indicators
  have a0 := fun k c => (tab_apply x0 _ inb_S4x256x1600_S1x256x1600_0_0_0 0 rfl rfl rfl k c).trans (h0 0 k c)
  have a1 := fun k c => (tab_apply x0 _ inb_S4x256x1600_S1x256x1600_1_0_0 1 rfl rfl rfl k c).trans (h0 1 k c)
  have a2 := fun k c => (tab_apply x0 _ inb_S4x256x1600_S1x256x1600_2_0_0 2 rfl rfl rfl k c).trans (h0 2 k c)
  have a3 := fun k c => (tab_apply x0 _ inb_S4x256x1600_S1x256x1600_3_0_0 3 rfl rfl rfl k c).trans (h0 3 k c)
  have b0 := fun k c => (tab_apply x1 _ inb_S4x256x1600_S1x256x1600_0_0_0 0 rfl rfl rfl k c).trans (h1 0 k c)
  have b1 := fun k c => (tab_apply x1 _ inb_S4x256x1600_S1x256x1600_1_0_0 1 rfl rfl rfl k c).trans (h1 1 k c)
  have b2 := fun k c => (tab_apply x1 _ inb_S4x256x1600_S1x256x1600_2_0_0 2 rfl rfl rfl k c).trans (h1 2 k c)
  have b3 := fun k c => (tab_apply x1 _ inb_S4x256x1600_S1x256x1600_3_0_0 3 rfl rfl rfl k c).trans (h1 3 k c)
  have m0 := fun q => (msk_apply x3 _ inb_S4x1x1600_S1x1x1600_0_0_0 0 rfl rfl rfl q).trans (h3 0 q)
  have m1 := fun q => (msk_apply x3 _ inb_S4x1x1600_S1x1x1600_1_0_0 1 rfl rfl rfl q).trans (h3 1 q)
  have m2 := fun q => (msk_apply x3 _ inb_S4x1x1600_S1x1x1600_2_0_0 2 rfl rfl rfl q).trans (h3 2 q)
  have m3 := fun q => (msk_apply x3 _ inb_S4x1x1600_S1x1x1600_3_0_0 3 rfl rfl rfl q).trans (h3 3 q)
  unfold slab
  rw [cast_mid_add]
  rw [lvl_apply (s 3) (g 3) (hs 3) _ _ _ _ _ b3 a3 m3 p q]
  rw [lvl_row (s 2) (g 2) (hs 2) _ _ _ _ _ b2 a2 m2 p]
  rw [lvl_row (s 1) (g 1) (hs 1) _ _ _ _ _ b1 a1 m1 p]
  rw [lvl_row (s 0) (g 0) (hs 0) _ _ _ _ _ b0 a0 m0 p]
  simp only [cast_mid_drop]
  rfl

/-! ## The block at an index -/

/-- What the stores leave, as one function of the block index: `iter4` along the index's (row, coordinate) line. -/
def boxG (s g : Fin 4 → Fin 256 → Fin 1600) (x5 : S128x4x1600.Idx → EReal) : S128x4x1600.Idx → EReal :=
  fun y => Cert.Spec.iter4 s g (fun q' => x5 (ix3 (y 0 : Fin 128) (y 1 : Fin 4) q')) (y 2 : Fin 1600)

/-- Slab `f`'s payload is `boxG` at the slab's place in the block. -/
theorem slab_piece (s g : Fin 4 → Fin 256 → Fin 1600) (hs : ∀ l, Function.Injective (s l))
    (x0 x1 : Vec Ideal S4x256x1600 .bf16) (x3 : Vec Ideal S4x1x1600 .f32) (x5 : Vec Ideal S128x4x1600 .f32)
    (h0 : ∀ (l : Fin 4) (k : Fin 256) (c : Fin 1600), (x0 : S4x256x1600.Idx → EReal) (ix3 l k c) = if s l k = c then (1 : EReal) else 0)
    (h1 : ∀ (l : Fin 4) (k : Fin 256) (c : Fin 1600), (x1 : S4x256x1600.Idx → EReal) (ix3 l k c) = if g l k = c then (1 : EReal) else 0)
    (h3 : ∀ (l : Fin 4) (q : Fin 1600), (x3 : S4x1x1600.Idx → EReal) (ix3 l (0 : Fin 1) q) = open Classical in if ∃ k, s l k = q then (1 : EReal) else 0)
    (off : Fin 3 → Nat) (inb : ∀ a, off a + S128x1x1600.size a ≤ S128x4x1600.size a)
    (f : Fin 4) (e0 : off 0 = 0) (e1 : off 1 = f.val) (e2 : off 2 = 0) (x : S128x1x1600.Idx) :
    (slab (F := Ideal) (View.ld x5 (Rect.unit (s := S128x4x1600) off S128x1x1600.size inb))
        (View.ld x0 r0_1) (View.ld x1 r0_1) (View.ld x0 r0_3) (View.ld x1 r0_3) (View.ld x0 r0_5) (View.ld x1 r0_5)
        (View.ld x0 r0_7) (View.ld x1 r0_7) (View.ld x3 r0_2) (View.ld x3 r0_4) (View.ld x3 r0_6) (View.ld x3 r0_8)
          : S128x1x1600.Idx → EReal) x
      = boxG s g x5 ((Rect.unit (s := S128x4x1600) off S128x1x1600.size inb).emb x) := by
  obtain ⟨p, q, rfl⟩ : ∃ (p : Fin 128) (q : Fin 1600), x = ix3 p (0 : Fin 1) q :=
    ⟨x 0, x 2, funext fun a => match a with
      | ⟨0, _⟩ => rfl
      | ⟨1, _⟩ => Subsingleton.elim (α := Fin 1) _ _
      | ⟨2, _⟩ => rfl⟩
  rw [slab_emb off inb f e0 e1 e2, slab_apply s g hs x0 x1 x3 h0 h1 h3]
  show Cert.Spec.iter4 s g (fun q' => x5 ((Rect.unit (s := S128x4x1600) off S128x1x1600.size inb).emb (ix3 p (0 : Fin 1) q'))) q
    = Cert.Spec.iter4 s g (fun q' => x5 (ix3 p f q')) q
  simp only [slab_emb off inb f e0 e1 e2]

/-- The box block at `(p, f, q)`: window 0 is the indicator array of the scattered columns `s`, window 1 that of the
    gathered columns `g`, window 3 the mask of `s`; windows 2 and 4 are not read by these stores. -/
theorem out7_apply (s g : Fin 4 → Fin 256 → Fin 1600) (hs : ∀ l, Function.Injective (s l))
    (x0 x1 : Vec Ideal S4x256x1600 .bf16) (x2 x3 : Vec Ideal S4x1x1600 .f32) (x4 : Vec Ideal S128x1600 .f32) (x5 : Vec Ideal S128x4x1600 .f32)
    (h0 : ∀ (l : Fin 4) (k : Fin 256) (c : Fin 1600), (x0 : S4x256x1600.Idx → EReal) (ix3 l k c) = if s l k = c then (1 : EReal) else 0)
    (h1 : ∀ (l : Fin 4) (k : Fin 256) (c : Fin 1600), (x1 : S4x256x1600.Idx → EReal) (ix3 l k c) = if g l k = c then (1 : EReal) else 0)
    (h3 : ∀ (l : Fin 4) (q : Fin 1600), (x3 : S4x1x1600.Idx → EReal) (ix3 l (0 : Fin 1) q) = open Classical in if ∃ k, s l k = q then (1 : EReal) else 0)
    (p : Fin 128) (f : Fin 4) (q : Fin 1600) :
    (out0_7 (F := Ideal) x0 x1 x2 x3 x4 x5 : S128x4x1600.Idx → EReal) (ix3 p f q)
      = Cert.Spec.iter4 s g (fun q' => (x5 : S128x4x1600.Idx → EReal) (ix3 p f q')) q := by
  rw [out7_slabs]
  refine View.canon_apply_of_pieces (Val := Elt Ideal) (boxG s g x5) _ ?_ (ix3 p f q) (cover0_7 _ _ _ _ _)
  intro pc hpc x
  simp only [List.mem_cons, List.not_mem_nil, or_false] at hpc
  rcases hpc with rfl | rfl | rfl | rfl
  · exact slab_piece s g hs x0 x1 x3 x5 h0 h1 h3 _ inb_S128x4x1600_S128x1x1600_0_3_0 3 rfl rfl rfl x
  · exact slab_piece s g hs x0 x1 x3 x5 h0 h1 h3 _ inb_S128x4x1600_S128x1x1600_0_2_0 2 rfl rfl rfl x
  · exact slab_piece s g hs x0 x1 x3 x5 h0 h1 h3 _ inb_S128x4x1600_S128x1x1600_0_1_0 1 rfl rfl rfl x
  · exact slab_piece s g hs x0 x1 x3 x5 h0 h1 h3 _ inb_S128x4x1600_S128x1x1600_0_0_0 0 rfl rfl rfl x

end Cert.KernelIdeal.KPieceBox

end
-- ==== Proof.KBlocks.lean ====
/-
  From blocks to arrays: what the kernel's two output arrays hold when the region ends.

  The grid has 64 points. At point `t` the four table windows hold their whole arrays, the logits and box windows the
  128 rows `128 t … 128 t + 127` of theirs, and the two outputs write back the same rows. What the body leaves in an
  output block is `iter4` along each of its rows (Proof/KPieceCls.lean, Proof/KPieceBox.lean) at the tables' columns
  (Proof/KHost.lean), so point `t` writes back block `t` of one function of the arrays: `Gcls` for the class output,
  and for the box output `Gbox3` with classes and coordinates exchanged, as the region stores it. The 64 blocks tile
  each array (row `n` is in block `n / 128`), so each array ends holding that function.
-/
import proofs.«406901_j39470749450916_2_alg».proof.Proof.Gen.KernelIdeal.Frame
import proofs.«406901_j39470749450916_2_alg».proof.Proof.Spec
import proofs.«406901_j39470749450916_2_alg».proof.Proof.KHost
import proofs.«406901_j39470749450916_2_alg».proof.Proof.KPieceCls
import proofs.«406901_j39470749450916_2_alg».proof.Proof.KPieceBox
import Idealize.ShloMosaic.Lib.Pipeline.Value

set_option maxRecDepth 16384

noncomputable section

namespace Cert.KernelIdeal.KBlocks

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.Spec (Labels col iter4 Gcls Gbox3)

variable (m : (ℓ : Loc nD τ sig) → Buf (Elt Ideal) ℓ)

/-- The box output as the region stores it: rows × coordinates × classes. -/
def G7 (B : Cert.Spec.SBox3.Idx → EReal) (tgt src : IVec Cert.Spec.SLab 32) : S8192x4x1600.Idx → EReal :=
  fun i => Gbox3 B tgt src (ix3 (i 0 : Fin 8192) (i 2 : Fin 1600) (i 1 : Fin 4))

/-- The printed index maps over the grid: the table windows stay at block 0, the row windows are at block `t`. -/
theorem idx_facts : ∀ t : Fin cfg0.N,
    (win0_0.index t (0 : Fin 3) = 0 ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = t.val ∧ win0_4.index t (1 : Fin 2) = 0)
    ∧ (win0_5.index t (0 : Fin 3) = t.val ∧ win0_5.index t (1 : Fin 3) = 0 ∧ win0_5.index t (2 : Fin 3) = 0)
    ∧ (win0_6.index t (0 : Fin 2) = t.val ∧ win0_6.index t (1 : Fin 2) = 0)
    ∧ (win0_7.index t (0 : Fin 3) = t.val ∧ win0_7.index t (1 : Fin 3) = 0 ∧ win0_7.index t (2 : Fin 3) = 0) :=
  (by decide +kernel : ∀ t : Fin grid0.N, _)

theorem t_lt (t : Fin cfg0.N) : t.val < 64 := lt_of_lt_of_eq t.isLt N_0

/-! ## Where a block's element sits in its array -/

theorem emb0 (t : Fin cfg0.N) (l : Fin 4) (k : Fin 256) (q : Fin 1600) :
    ((cfg0.win 0).blk t).view.emb (ix3 l k q) = ix3 l k q := by
  obtain ⟨⟨e0, e1, e2⟩, -⟩ := idx_facts t
  funext a; apply Fin.ext
  match a with
  | ⟨0, _⟩ => show win0_0.index t (0 : Fin 3) * 4 + 1 * l.val = l.val; omega
  | ⟨1, _⟩ => show win0_0.index t (1 : Fin 3) * 256 + 1 * k.val = k.val; omega
  | ⟨2, _⟩ => show win0_0.index t (2 : Fin 3) * 1600 + 1 * q.val = q.val; omega

theorem emb1 (t : Fin cfg0.N) (l : Fin 4) (k : Fin 256) (q : Fin 1600) :
    ((cfg0.win 1).blk t).view.emb (ix3 l k q) = ix3 l k q := by
  obtain ⟨-, ⟨e0, e1, e2⟩, -⟩ := idx_facts t
  funext a; apply Fin.ext
  match a with
  | ⟨0, _⟩ => show win0_1.index t (0 : Fin 3) * 4 + 1 * l.val = l.val; omega
  | ⟨1, _⟩ => show win0_1.index t (1 : Fin 3) * 256 + 1 * k.val = k.val; omega
  | ⟨2, _⟩ => show win0_1.index t (2 : Fin 3) * 1600 + 1 * q.val = q.val; omega

theorem emb2 (t : Fin cfg0.N) (l : Fin 4) (u : Fin 1) (q : Fin 1600) :
    ((cfg0.win 2).blk t).view.emb (ix3 l u q) = ix3 l u q := by
  obtain ⟨-, -, ⟨e0, e1, e2⟩, -⟩ := idx_facts t
  funext a; apply Fin.ext
  match a with
  | ⟨0, _⟩ => show win0_2.index t (0 : Fin 3) * 4 + 1 * l.val = l.val; omega
  | ⟨1, _⟩ => show win0_2.index t (1 : Fin 3) * 1 + 1 * u.val = u.val; omega
  | ⟨2, _⟩ => show win0_2.index t (2 : Fin 3) * 1600 + 1 * q.val = q.val; omega

theorem emb3 (t : Fin cfg0.N) (l : Fin 4) (u : Fin 1) (q : Fin 1600) :
    ((cfg0.win 3).blk t).view.emb (ix3 l u q) = ix3 l u q := by
  obtain ⟨-, -, -, ⟨e0, e1, e2⟩, -⟩ := idx_facts t
  funext a; apply Fin.ext
  match a with
  | ⟨0, _⟩ => show win0_3.index t (0 : Fin 3) * 4 + 1 * l.val = l.val; omega
  | ⟨1, _⟩ => show win0_3.index t (1 : Fin 3) * 1 + 1 * u.val = u.val; omega
  | ⟨2, _⟩ => show win0_3.index t (2 : Fin 3) * 1600 + 1 * q.val = q.val; omega

/-- Row `p` of point `t`'s block is row `128 t + p` of the array. -/
def row (t : Fin cfg0.N) (p : Fin 128) : Fin 8192 := ⟨t.val * 128 + p.val, by have := t_lt t; have := p.isLt; omega⟩

theorem emb4 (t : Fin cfg0.N) (p : Fin 128) (q : Fin 1600) :
    ((cfg0.win 4).blk t).view.emb (ix2 p q) = ix2 (row t p) q := by
  obtain ⟨-, -, -, -, ⟨e0, e1⟩, -⟩ := idx_facts t
  funext a; apply Fin.ext
  match a with
  | ⟨0, _⟩ => show win0_4.index t (0 : Fin 2) * 128 + 1 * p.val = t.val * 128 + p.val; omega
  | ⟨1, _⟩ => show win0_4.index t (1 : Fin 2) * 1600 + 1 * q.val = q.val; omega

theorem emb5 (t : Fin cfg0.N) (p : Fin 128) (f : Fin 4) (q : Fin 1600) :
    ((cfg0.win 5).blk t).view.emb (ix3 p f q) = ix3 (row t p) f q := by
  obtain ⟨-, -, -, -, -, ⟨e0, e1, e2⟩, -⟩ := idx_facts t
  funext a; apply Fin.ext
  match a with
  | ⟨0, _⟩ => show win0_5.index t (0 : Fin 3) * 128 + 1 * p.val = t.val * 128 + p.val; omega
  | ⟨1, _⟩ => show win0_5.index t (1 : Fin 3) * 4 + 1 * f.val = f.val; omega
  | ⟨2, _⟩ => show win0_5.index t (2 : Fin 3) * 1600 + 1 * q.val = q.val; omega

theorem emb6 (t : Fin cfg0.N) (p : Fin 128) (q : Fin 1600) :
    ((cfg0.win 6).blk t).view.emb (ix2 p q) = ix2 (row t p) q := by
  obtain ⟨-, -, -, -, -, -, ⟨e0, e1⟩, -⟩ := idx_facts t
  funext a; apply Fin.ext
  match a with
  | ⟨0, _⟩ => show win0_6.index t (0 : Fin 2) * 128 + 1 * p.val = t.val * 128 + p.val; omega
  | ⟨1, _⟩ => show win0_6.index t (1 : Fin 2) * 1600 + 1 * q.val = q.val; omega

theorem emb7 (t : Fin cfg0.N) (p : Fin 128) (f : Fin 4) (q : Fin 1600) :
    ((cfg0.win 7).blk t).view.emb (ix3 p f q) = ix3 (row t p) f q := by
  obtain ⟨-, -, -, -, -, -, -, ⟨e0, e1, e2⟩⟩ := idx_facts t
  funext a; apply Fin.ext
  match a with
  | ⟨0, _⟩ => show win0_7.index t (0 : Fin 3) * 128 + 1 * p.val = t.val * 128 + p.val; omega
  | ⟨1, _⟩ => show win0_7.index t (1 : Fin 3) * 4 + 1 * f.val = f.val; omega
  | ⟨2, _⟩ => show win0_7.index t (2 : Fin 3) * 1600 + 1 * q.val = q.val; omega

/-! ## What point `t` writes back -/

/-- The class output's block at point `t` is block `t` of `Gcls` of the argument arrays. -/
theorem flushed6_eq (c : Dev nD) (h2 : Labels (m ((c.tc : Thread nD τ).loc main_arg2))) (h3 : Labels (m ((c.tc : Thread nD τ).loc main_arg3))) (t : Fin cfg0.N) :
    (dats m 0 c).flushed 6 t
      = ((cfg0.win 6).blk t).view.read (Elt Ideal) (Gcls (m ((c.tc : Thread nD τ).loc main_arg0)) (m ((c.tc : Thread nD τ).loc main_arg2)) (m ((c.tc : Thread nD τ).loc main_arg3))) := by
  show (cfg0.win 6).cut (grid0.coords t) ((dats m 0 c).after 6 t) = _
  rw [after0_6]
  funext j
  obtain ⟨p, q, rfl⟩ : ∃ (p : Fin 128) (q : Fin 1600), j = ix2 p q := ⟨j 0, j 1, eq_ix2 j⟩
  show (out0_6 (F := Ideal) (iblk m c 0 t) (iblk m c 1 t) (iblk m c 2 t) (iblk m c 3 t) (iblk m c 4 t) (iblk m c 5 t) : S128x1600.Idx → EReal) (ix2 p q)
    = Gcls (m ((c.tc : Thread nD τ).loc main_arg0)) (m ((c.tc : Thread nD τ).loc main_arg2)) (m ((c.tc : Thread nD τ).loc main_arg3)) (((cfg0.win 6).blk t).view.emb (ix2 p q))
  rw [emb6 t p q]
  refine (Cert.KernelIdeal.KPieceCls.out6_apply (col (m ((c.tc : Thread nD τ).loc main_arg2))) (col (m ((c.tc : Thread nD τ).loc main_arg3))) (fun l => h2.col_injective l)
    (iblk m c 0 t) (iblk m c 1 t) (iblk m c 2 t) (iblk m c 3 t) (iblk m c 4 t) (iblk m c 5 t) ?_ ?_ ?_ p q).trans ?_
  · intro l k c'
    show V m c main_v8 (((cfg0.win 0).blk t).view.emb (ix3 l k c')) = _
    rw [emb0 t l k c']
    exact Cert.KernelIdeal.KHost.gsrc_apply m c h3 l k c'
  · intro l k c'
    show V m c main_v17 (((cfg0.win 1).blk t).view.emb (ix3 l k c')) = _
    rw [emb1 t l k c']
    exact Cert.KernelIdeal.KHost.gtgt_apply m c h2 l k c'
  · intro l q'
    show V m c main_v20 (((cfg0.win 2).blk t).view.emb (ix3 l (0 : Fin 1) q')) = _
    rw [emb2 t l 0 q']
    exact Cert.KernelIdeal.KHost.mask_tgt_apply m c h2 l q'
  · show iter4 _ _ (fun q' => V m c main_arg0 (((cfg0.win 4).blk t).view.emb (ix2 p q'))) q = iter4 _ _ (fun q' => (m ((c.tc : Thread nD τ).loc main_arg0)) (ix2 (row t p) q')) q
    refine congrArg (fun b : Fin 1600 → EReal => iter4 (col (m ((c.tc : Thread nD τ).loc main_arg2))) (col (m ((c.tc : Thread nD τ).loc main_arg3))) b q) (funext fun q' => ?_)
    show V m c main_arg0 (((cfg0.win 4).blk t).view.emb (ix2 p q')) = _
    rw [emb4 t p q']
    exact congrFun (V_main_arg0 m c) _

/-- The box output's block at point `t` is block `t` of `G7` of the box array (rows × classes × coordinates) and the tables. -/
theorem flushed7_eq (c : Dev nD) (h2 : Labels (m ((c.tc : Thread nD τ).loc main_arg2))) (h3 : Labels (m ((c.tc : Thread nD τ).loc main_arg3))) (t : Fin cfg0.N) :
    (dats m 0 c).flushed 7 t
      = ((cfg0.win 7).blk t).view.read (Elt Ideal)
          (G7 (shapeCast S8192x1600x4 (m ((c.tc : Thread nD τ).loc main_arg1)) Facts₀.shapeCasts_S8192x6400_S8192x1600x4) (m ((c.tc : Thread nD τ).loc main_arg2)) (m ((c.tc : Thread nD τ).loc main_arg3))) := by
  show (cfg0.win 7).cut (grid0.coords t) ((dats m 0 c).after 7 t) = _
  rw [after0_7]
  funext j
  obtain ⟨p, f, q, rfl⟩ : ∃ (p : Fin 128) (f : Fin 4) (q : Fin 1600), j = ix3 p f q := ⟨j 0, j 1, j 2, eq_ix3 j⟩
  show (out0_7 (F := Ideal) (iblk m c 0 t) (iblk m c 1 t) (iblk m c 2 t) (iblk m c 3 t) (iblk m c 4 t) (iblk m c 5 t) : S128x4x1600.Idx → EReal) (ix3 p f q)
    = G7 (shapeCast S8192x1600x4 (m ((c.tc : Thread nD τ).loc main_arg1)) Facts₀.shapeCasts_S8192x6400_S8192x1600x4) (m ((c.tc : Thread nD τ).loc main_arg2)) (m ((c.tc : Thread nD τ).loc main_arg3)) (((cfg0.win 7).blk t).view.emb (ix3 p f q))
  rw [emb7 t p f q]
  refine (Cert.KernelIdeal.KPieceBox.out7_apply (col (m ((c.tc : Thread nD τ).loc main_arg3))) (col (m ((c.tc : Thread nD τ).loc main_arg2))) (fun l => h3.col_injective l)
    (iblk m c 0 t) (iblk m c 1 t) (iblk m c 2 t) (iblk m c 3 t) (iblk m c 4 t) (iblk m c 5 t) ?_ ?_ ?_ p f q).trans ?_
  · intro l k c'
    show V m c main_v8 (((cfg0.win 0).blk t).view.emb (ix3 l k c')) = _
    rw [emb0 t l k c']
    exact Cert.KernelIdeal.KHost.gsrc_apply m c h3 l k c'
  · intro l k c'
    show V m c main_v17 (((cfg0.win 1).blk t).view.emb (ix3 l k c')) = _
    rw [emb1 t l k c']
    exact Cert.KernelIdeal.KHost.gtgt_apply m c h2 l k c'
  · intro l q'
    show V m c main_v21 (((cfg0.win 3).blk t).view.emb (ix3 l (0 : Fin 1) q')) = _
    rw [emb3 t l 0 q']
    exact Cert.KernelIdeal.KHost.mask_src_apply m c h3 l q'
  · show iter4 _ _ (fun q' => V m c main_v1 (((cfg0.win 5).blk t).view.emb (ix3 p f q'))) q
      = iter4 _ _ (fun q' => (shapeCast S8192x1600x4 (m ((c.tc : Thread nD τ).loc main_arg1)) Facts₀.shapeCasts_S8192x6400_S8192x1600x4 : S8192x1600x4.Idx → EReal) (ix3 (row t p) q' f)) q
    refine congrArg (fun b : Fin 1600 → EReal => iter4 (col (m ((c.tc : Thread nD τ).loc main_arg3))) (col (m ((c.tc : Thread nD τ).loc main_arg2))) b q) (funext fun q' => ?_)
    show V m c main_v1 (((cfg0.win 5).blk t).view.emb (ix3 p f q')) = _
    rw [emb5 t p f q']
    exact Cert.KernelIdeal.KHost.boxt_apply m c (row t p) f q'

/-! ## The blocks tile the arrays -/

theorem mem_blk6 (t : Fin cfg0.N) (i : S8192x1600.Idx) :
    i ∈ ((cfg0.win 6).blk t).view.set ↔ ∀ a : Fin 2, win0_6.index t a * S128x1600.size a ≤ (i a).val ∧ (i a).val < win0_6.index t a * S128x1600.size a + S128x1600.size a := by
  show i ∈ ((View.whole main_v22_0).slice (win0_6.rect t)).set ↔ _
  rw [View.set_slice_whole, Rect.mem_set_unit]
  exact Iff.rfl

theorem mem_blk7 (t : Fin cfg0.N) (i : S8192x4x1600.Idx) :
    i ∈ ((cfg0.win 7).blk t).view.set ↔ ∀ a : Fin 3, win0_7.index t a * S128x4x1600.size a ≤ (i a).val ∧ (i a).val < win0_7.index t a * S128x4x1600.size a + S128x4x1600.size a := by
  show i ∈ ((View.whole main_v22_1).slice (win0_7.rect t)).set ↔ _
  rw [View.set_slice_whole, Rect.mem_set_unit]
  exact Iff.rfl

/-- Row `n` of the class output is in block `n / 128`. -/
theorem cover6 (i : S8192x1600.Idx) : ∃ t : Fin cfg0.N, (cfg0.win 6).flush t = true ∧ i ∈ ((cfg0.win 6).blk t).view.set := by
  have hi0 : (i 0).val < 8192 := (i 0).isLt
  have hi1 : (i 1).val < 1600 := (i 1).isLt
  let t : Fin cfg0.N := ⟨(i 0).val / 128, lt_of_lt_of_eq (by omega : (i 0).val / 128 < 64) N_0.symm⟩
  obtain ⟨-, -, -, -, -, -, ⟨e0, e1⟩, -⟩ := idx_facts t
  have et : t.val = (i 0).val / 128 := rfl
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1600 ≤ (i 1).val ∧ (i 1).val < win0_6.index t (1 : Fin 2) * 1600 + 1600; omega

/-- Row `n` of the box output is in block `n / 128`. -/
theorem cover7 (i : S8192x4x1600.Idx) : ∃ t : Fin cfg0.N, (cfg0.win 7).flush t = true ∧ i ∈ ((cfg0.win 7).blk t).view.set := by
  have hi0 : (i 0).val < 8192 := (i 0).isLt
  have hi1 : (i 1).val < 4 := (i 1).isLt
  have hi2 : (i 2).val < 1600 := (i 2).isLt
  let t : Fin cfg0.N := ⟨(i 0).val / 128, lt_of_lt_of_eq (by omega : (i 0).val / 128 < 64) N_0.symm⟩
  obtain ⟨-, -, -, -, -, -, -, ⟨e0, e1, e2⟩⟩ := idx_facts t
  have et : t.val = (i 0).val / 128 := rfl
  refine ⟨t, flush0_7 t, ?_⟩
  rw [mem_blk7]
  intro a
  match a with
  | ⟨0, _⟩ => show win0_7.index t (0 : Fin 3) * 128 ≤ (i 0).val ∧ (i 0).val < win0_7.index t (0 : Fin 3) * 128 + 128; omega
  | ⟨1, _⟩ => show win0_7.index t (1 : Fin 3) * 4 ≤ (i 1).val ∧ (i 1).val < win0_7.index t (1 : Fin 3) * 4 + 4; omega
  | ⟨2, _⟩ => show win0_7.index t (2 : Fin 3) * 1600 ≤ (i 2).val ∧ (i 2).val < win0_7.index t (2 : Fin 3) * 1600 + 1600; omega

/-! ## The arrays after the region -/

theorem final6 (c : Dev nD) (h2 : Labels (m ((c.tc : Thread nD τ).loc main_arg2))) (h3 : Labels (m ((c.tc : Thread nD τ).loc main_arg3))) :
    (dats m 0 c).arrAt 6 cfg0.N = Gcls (m ((c.tc : Thread nD τ).loc main_arg0)) (m ((c.tc : Thread nD τ).loc main_arg2)) (m ((c.tc : Thread nD τ).loc main_arg3)) :=
  (dats m 0 c).arrAt_eq_of_cover 6 _ (fun t _ => flushed6_eq m c h2 h3 t) cover6

theorem final7 (c : Dev nD) (h2 : Labels (m ((c.tc : Thread nD τ).loc main_arg2))) (h3 : Labels (m ((c.tc : Thread nD τ).loc main_arg3))) :
    (dats m 0 c).arrAt 7 cfg0.N
      = G7 (shapeCast S8192x1600x4 (m ((c.tc : Thread nD τ).loc main_arg1)) Facts₀.shapeCasts_S8192x6400_S8192x1600x4) (m ((c.tc : Thread nD τ).loc main_arg2)) (m ((c.tc : Thread nD τ).loc main_arg3)) :=
  (dats m 0 c).arrAt_eq_of_cover 7 _ (fun t _ => flushed7_eq m c h2 h3 t) cover7

end Cert.KernelIdeal.KBlocks

end
-- ==== Proof.KValue.lean ====
/-
  The idealized kernel's run ends at the specification: its class result is `Gcls` of the argument arrays and its box
  result the flattening of `Gbox3` of the box argument seen as rows × classes × coordinates.

  The class result is the class output array as the region leaves it. The box result is what the two host lines after
  the region make of the box output array: they exchange its coordinate and class axes back and flatten it, and the
  array with its axes exchanged back is `Gbox3` of the box argument (Proof/KBlocks.lean stated it in the region's own
  axis order). The four arguments end as launched: no window writes them and no host line does.
-/
import proofs.«406901_j39470749450916_2_alg».proof.Proof.Gen.KernelIdeal.Frame
import proofs.«406901_j39470749450916_2_alg».proof.Proof.Spec
import proofs.«406901_j39470749450916_2_alg».proof.Proof.KBlocks
import Idealize.ShloMosaic.Lib.StableHlo.Run
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Cert.Spec (Labels Gcls Gbox3)

variable (m : (ℓ : Loc nD τ sig) → Buf (Elt Ideal) ℓ)

/-- The region's box output with its coordinate and class axes exchanged back is `Gbox3`. -/
theorem transpose_G7 (B : Cert.Spec.SBox3.Idx → EReal) (tgt src : IVec Cert.Spec.SLab 32)
    (h : S8192x4x1600.Transposes [0, 2, 1] S8192x1600x4) :
    transpose S8192x1600x4 [0, 2, 1] (Cert.KernelIdeal.KBlocks.G7 B tgt src) h = Gbox3 B tgt src := by
  funext i
  obtain ⟨n, q, f, rfl⟩ : ∃ (n : Fin 8192) (q : Fin 1600) (f : Fin 4), i = ix3 n q f := ⟨i 0, i 1, i 2, eq_ix3 i⟩
  rw [transpose_apply _ _ h (ix3 n q f) (ix3 n f q) (fun b => by
    match b with
    | ⟨0, _⟩ => rfl
    | ⟨1, _⟩ => rfl
    | ⟨2, _⟩ => rfl)]
  rfl

/-- The box result after the host lines that follow the region. -/
theorem tail_v24 (c : Dev nD) (h2 : Labels (m ((c.tc : Thread nD τ).loc main_arg2))) (h3 : Labels (m ((c.tc : Thread nD τ).loc main_arg3))) :
    Pipeline.afterTail₀ cfgs (dats m) 0 (V0 m) [hostOps1] c main_v24
      = shapeCast S8192x6400 (Gbox3 (shapeCast S8192x1600x4 (m ((c.tc : Thread nD τ).loc main_arg1)) Facts₀.shapeCasts_S8192x6400_S8192x1600x4)
          (m ((c.tc : Thread nD τ).loc main_arg2)) (m ((c.tc : Thread nD τ).loc main_arg3))) Facts₀.shapeCasts_S8192x1600x4_S8192x6400 := by
  unfold Pipeline.afterTail₀
  show StableHlo.after hostOps1 _ (Proc.devRef .tc main_v24) = _
  after_results
  rw [Pipeline.withArrays_arr spec0 launch0.win.arr_inj c _ _ 7, Cert.KernelIdeal.KBlocks.final7 m c h2 h3, transpose_G7]
  rfl

theorem run (m : (ℓ : Loc nD τ sig) → Buf (Elt Ideal) ℓ) (ρ : Dev nD → PrngReg)
    (hL : ∀ c : Dev nD, Cert.Spec.Labels (m ((c.tc : Thread nD τ).loc main_arg2)) ∧ Cert.Spec.Labels (m ((c.tc : Thread nD τ).loc main_arg3))) :
    θ_run (defs (F := Ideal)) (onTc (τ := τ) (main (F := Ideal))) ⟨m, fun _ => 0, ρ⟩ fun r => ∀ c : Dev nD,
      r.2.mem ((c.tc : Thread nD τ).loc main_v22_0)
        = Cert.Spec.Gcls (m ((c.tc : Thread nD τ).loc main_arg0)) (m ((c.tc : Thread nD τ).loc main_arg2)) (m ((c.tc : Thread nD τ).loc main_arg3))
      ∧ r.2.mem ((c.tc : Thread nD τ).loc main_v24)
        = shapeCast S8192x6400 (Cert.Spec.Gbox3 (shapeCast S8192x1600x4 (m ((c.tc : Thread nD τ).loc main_arg1)) Facts₀.shapeCasts_S8192x6400_S8192x1600x4)
            (m ((c.tc : Thread nD τ).loc main_arg2)) (m ((c.tc : Thread nD τ).loc main_arg3))) Facts₀.shapeCasts_S8192x1600x4_S8192x6400
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  refine ⟨((h c).1 6).trans (Cert.KernelIdeal.KBlocks.final6 m c (hL c).1 (hL c).2),
    ((h c).2 main_v24 (Pipeline.mem_restRefs_of main_v24 (by decide) (by decide))).trans (tail_v24 m c (hL c).1 (hL c).2),
    ((h c).1 4).trans (((dats m 0 c).arrAt_in 4 rfl _).trans ((A_eq m c 4).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

end Cert.KernelIdeal.KValue

end
-- ==== Proof.lean ====
/-
  Both programs run four hierarchy levels of a gather-add-scatter on the columns of the class logits and, with the
  two label tables exchanged, on the class axis of the box array. Under the precondition — finite data, every label a
  column of the 1600-class arrays, no column twice within a level — each level is a function of the tables and the
  rows alone (Proof/Spec.lean, `rowStep`), whichever way it is computed: by the reference's clamped gathers and its
  scatter, whose updates then land on pairwise distinct places, or by the kernel's products with the tables' 0/1
  indicator matrices, exact on the extended reals. So both runs end at one function of the argument arrays: `Gcls` for
  the class result and the flattening of `Gbox3` for the box result.
  The three frames are the generated ones (the reference's is its generated run with the results dropped), and the
  idealization rewrote nothing, so there is nothing to preserve.
-/
import proofs.«406901_j39470749450916_2_alg».proof.Defs
import proofs.«406901_j39470749450916_2_alg».proof.Proof.Gen.Kernel
import proofs.«406901_j39470749450916_2_alg».proof.Proof.Gen.Kernel.Skeleton
import proofs.«406901_j39470749450916_2_alg».proof.Proof.Gen.Kernel.Launch
import proofs.«406901_j39470749450916_2_alg».proof.Proof.Gen.Kernel.Points
import proofs.«406901_j39470749450916_2_alg».proof.Proof.Gen.Kernel.Frame
import proofs.«406901_j39470749450916_2_alg».proof.Proof.Gen.KernelIdeal
import proofs.«406901_j39470749450916_2_alg».proof.Proof.Gen.KernelIdeal.Skeleton
import proofs.«406901_j39470749450916_2_alg».proof.Proof.Gen.KernelIdeal.Launch
import proofs.«406901_j39470749450916_2_alg».proof.Proof.Gen.KernelIdeal.Points
import proofs.«406901_j39470749450916_2_alg».proof.Proof.Gen.KernelIdeal.Frame
import proofs.«406901_j39470749450916_2_alg».proof.Proof.Gen.ReferenceIdeal
import proofs.«406901_j39470749450916_2_alg».proof.Proof.Gen.ReferenceIdeal.Run
import proofs.«406901_j39470749450916_2_alg».proof.Proof.Gen.Pre_finite_inputs
import proofs.«406901_j39470749450916_2_alg».proof.Proof.Spec
import proofs.«406901_j39470749450916_2_alg».proof.Proof.PreDecode
import proofs.«406901_j39470749450916_2_alg».proof.Proof.RefValue
import proofs.«406901_j39470749450916_2_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both runs end at the specification's two arrays. -/
theorem algebraic : Cert.algebraic_KernelIdeal_ReferenceIdeal := by
  intro m ρ m' ρ' hpre hagree
  have hL := fun c => Cert.PreDecode.labels_of_pre _ _ _ _ (hpre c)
  have hL' : ∀ c : Dev Cert.ReferenceIdeal.nD,
      Cert.Spec.Labels (m' ((c.tc : Thread Cert.ReferenceIdeal.nD Cert.ReferenceIdeal.τ).loc Cert.ReferenceIdeal.main_arg2))
      ∧ Cert.Spec.Labels (m' ((c.tc : Thread Cert.ReferenceIdeal.nD Cert.ReferenceIdeal.τ).loc Cert.ReferenceIdeal.main_arg3)) := fun c => by
    rw [(hagree c).2.2.1, (hagree c).2.2.2]; exact hL c
  refine ⟨_, _, Cert.KernelIdeal.KValue.run m ρ hL, ?_⟩
  refine (θ_run Cert.ReferenceIdeal.defs _ _).mono (fun _ h c => ?_) (Cert.ReferenceIdeal.RefValue.run m' ρ' hL')
  obtain ⟨h1, h2, h3⟩ := h c
  refine ⟨h1.trans ?_, h2.trans ?_, h3⟩
  · rw [(hagree c).1, (hagree c).2.2.1, (hagree c).2.2.2]
  · rw [(hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
